-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1152 : Shape := ⟨3, ![4, 2048, 1152]⟩
abbrev S2048x144 : Shape := ⟨2, ![2048, 144]⟩
abbrev S1152x1152 : Shape := ⟨2, ![1152, 1152]⟩
abbrev S_ : Shape := ⟨0, ![]⟩

class Facts : Prop where
  bcast_S_S4x2048x1152 : S_.BroadcastsInDim S4x2048x1152 (![] : Fin 0 → Fin S4x2048x1152.rank)
  reducesTo_S4x2048x1152_S_d0_1_2 : S4x2048x1152.ReducesTo [0, 1, 2] S_
  h_S_ : 0 < S_.numel
  bcast_S_S2048x144 : S_.BroadcastsInDim S2048x144 (![] : Fin 0 → Fin S2048x144.rank)
  reducesTo_S2048x144_S_d0_1 : S2048x144.ReducesTo [0, 1] S_
  bcast_S_S1152x1152 : S_.BroadcastsInDim S1152x1152 (![] : Fin 0 → Fin S1152x1152.rank)
  reducesTo_S1152x1152_S_d0_1 : S1152x1152.ReducesTo [0, 1] S_

variable [Facts]

def fn_part1 {F : FTy → Type} [FloatOps F] (main_arg4 : FVec F S1152x1152 .f32) (main_arg5 : FVec F S1152x1152 .f32) (main_arg6 : FVec F S1152x1152 .f32) (main_v13 : IVec S_ 1) (main_v16 : IVec S1152x1152 1) : IVec S_ 1 :=
  let main_c_5 : IVec S_ 1 := constantI S_ 1 1#1
  let main_v17 : IVec S_ 1 := (fun x v => Host.reduce IntOp.andi x v reducesTo_S1152x1152_S_d0_1 h_S_) main_v16 main_c_5
  let main_v18 : IVec S_ 1 := andi main_v13 main_v17
  let main_v19 : FVec F S1152x1152 .f32 := Host.absf main_arg4
  let main_cst_6 : FVec F S_ .f32 := constant S_ .f32 0x7F800000#32
  let main_v20 : FVec F S1152x1152 .f32 := broadcastInDim S1152x1152 ![] bcast_S_S1152x1152 main_cst_6
  let main_v21 : IVec S1152x1152 1 := cmpf .olt main_v19 main_v20
  let main_c_7 : IVec S_ 1 := constantI S_ 1 1#1
  let main_v22 : IVec S_ 1 := (fun x v => Host.reduce IntOp.andi x v reducesTo_S1152x1152_S_d0_1 h_S_) main_v21 main_c_7
  let main_v23 : IVec S_ 1 := andi main_v18 main_v22
  let main_v24 : FVec F S1152x1152 .f32 := Host.absf main_arg5
  let main_cst_8 : FVec F S_ .f32 := constant S_ .f32 0x7F800000#32
  let main_v25 : FVec F S1152x1152 .f32 := broadcastInDim S1152x1152 ![] bcast_S_S1152x1152 main_cst_8
  let main_v26 : IVec S1152x1152 1 := cmpf .olt main_v24 main_v25
  let main_c_9 : IVec S_ 1 := constantI S_ 1 1#1
  let main_v27 : IVec S_ 1 := (fun x v => Host.reduce IntOp.andi x v reducesTo_S1152x1152_S_d0_1 h_S_) main_v26 main_c_9
  let main_v28 : IVec S_ 1 := andi main_v23 main_v27
  let main_v29 : FVec F S1152x1152 .f32 := Host.absf main_arg6
  let main_cst_10 : FVec F S_ .f32 := constant S_ .f32 0x7F800000#32
  let main_v30 : FVec F S1152x1152 .f32 := broadcastInDim S1152x1152 ![] bcast_S_S1152x1152 main_cst_10
  let main_v31 : IVec S1152x1152 1 := cmpf .olt main_v29 main_v30
  let main_c_11 : IVec S_ 1 := constantI S_ 1 1#1
  let main_v32 : IVec S_ 1 := (fun x v => Host.reduce IntOp.andi x v reducesTo_S1152x1152_S_d0_1 h_S_) main_v31 main_c_11
  let main_v33 : IVec S_ 1 := andi main_v28 main_v32
  main_v33

def fn {F : FTy → Type} [FloatOps F] (main_arg0 : FVec F S4x2048x1152 .f32) (main_arg1 : FVec F S2048x144 .f32) (main_arg2 : FVec F S2048x144 .f32) (main_arg3 : FVec F S1152x1152 .f32) (main_arg4 : FVec F S1152x1152 .f32) (main_arg5 : FVec F S1152x1152 .f32) (main_arg6 : FVec F S1152x1152 .f32) : IVec S_ 1 :=
  let main_v0 : FVec F S4x2048x1152 .f32 := Host.absf main_arg0
  let main_cst : FVec F S_ .f32 := constant S_ .f32 0x7F800000#32
  let main_v1 : FVec F S4x2048x1152 .f32 := broadcastInDim S4x2048x1152 ![] bcast_S_S4x2048x1152 main_cst
  let main_v2 : IVec S4x2048x1152 1 := cmpf .olt main_v0 main_v1
  let main_c : IVec S_ 1 := constantI S_ 1 1#1
  let main_v3 : IVec S_ 1 := (fun x v => Host.reduce IntOp.andi x v reducesTo_S4x2048x1152_S_d0_1_2 h_S_) main_v2 main_c
  let main_v4 : FVec F S2048x144 .f32 := Host.absf main_arg1
  let main_cst_0 : FVec F S_ .f32 := constant S_ .f32 0x7F800000#32
  let main_v5 : FVec F S2048x144 .f32 := broadcastInDim S2048x144 ![] bcast_S_S2048x144 main_cst_0
  let main_v6 : IVec S2048x144 1 := cmpf .olt main_v4 main_v5
  let main_c_1 : IVec S_ 1 := constantI S_ 1 1#1
  let main_v7 : IVec S_ 1 := (fun x v => Host.reduce IntOp.andi x v reducesTo_S2048x144_S_d0_1 h_S_) main_v6 main_c_1
  let main_v8 : IVec S_ 1 := andi main_v3 main_v7
  let main_v9 : FVec F S2048x144 .f32 := Host.absf main_arg2
  let main_cst_2 : FVec F S_ .f32 := constant S_ .f32 0x7F800000#32
  let main_v10 : FVec F S2048x144 .f32 := broadcastInDim S2048x144 ![] bcast_S_S2048x144 main_cst_2
  let main_v11 : IVec S2048x144 1 := cmpf .olt main_v9 main_v10
  let main_c_3 : IVec S_ 1 := constantI S_ 1 1#1
  let main_v12 : IVec S_ 1 := (fun x v => Host.reduce IntOp.andi x v reducesTo_S2048x144_S_d0_1 h_S_) main_v11 main_c_3
  let main_v13 : IVec S_ 1 := andi main_v8 main_v12
  let main_v14 : FVec F S1152x1152 .f32 := Host.absf main_arg3
  let main_cst_4 : FVec F S_ .f32 := constant S_ .f32 0x7F800000#32
  let main_v15 : FVec F S1152x1152 .f32 := broadcastInDim S1152x1152 ![] bcast_S_S1152x1152 main_cst_4
  let main_v16 : IVec S1152x1152 1 := cmpf .olt main_v14 main_v15
  fn_part1 (F := F) main_arg4 main_arg5 main_arg6 main_v13 main_v16
-- ==== Kernel.lean ====
abbrev S4x2048x1152 : Shape := ⟨3, ![4, 2048, 1152]⟩
abbrev S2048x144 : Shape := ⟨2, ![2048, 144]⟩
abbrev S1152x1152 : Shape := ⟨2, ![1152, 1152]⟩
abbrev S1x2048x1152 : Shape := ⟨3, ![1, 2048, 1152]⟩
abbrev S1x128x1152 : Shape := ⟨3, ![1, 128, 1152]⟩
abbrev S2048x1152 : Shape := ⟨2, ![2048, 1152]⟩
abbrev S1x512x1152 : Shape := ⟨3, ![1, 512, 1152]⟩
abbrev S512x1152 : Shape := ⟨2, ![512, 1152]⟩
abbrev S512x144 : Shape := ⟨2, ![512, 144]⟩
abbrev S512x72 : Shape := ⟨2, ![512, 72]⟩
abbrev S128x1152 : Shape := ⟨2, ![128, 1152]⟩
abbrev S128x144 : Shape := ⟨2, ![128, 144]⟩
abbrev S128x72 : Shape := ⟨2, ![128, 72]⟩
abbrev S128x2048 : Shape := ⟨2, ![128, 2048]⟩
abbrev S128 : Shape := ⟨1, ![128]⟩
abbrev S128x1 : Shape := ⟨2, ![128, 1]⟩
abbrev S1152x144 : Shape := ⟨2, ![1152, 144]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x1152, .f32⟩
  | .hbm, ⟨1, _⟩ => ⟨S2048x144, .f32⟩
  | .hbm, ⟨2, _⟩ => ⟨S2048x144, .f32⟩
  | .hbm, ⟨3, _⟩ => ⟨S1152x1152, .f32⟩
  | .hbm, ⟨4, _⟩ => ⟨S1152x1152, .f32⟩
  | .hbm, ⟨5, _⟩ => ⟨S1152x1152, .f32⟩
  | .hbm, ⟨6, _⟩ => ⟨S1152x1152, .f32⟩
  | .hbm, ⟨7, _⟩ => ⟨S1152x1152, .bf16⟩
  | .hbm, ⟨8, _⟩ => ⟨S1152x1152, .bf16⟩
  | .hbm, ⟨9, _⟩ => ⟨S1152x1152, .bf16⟩
  | .hbm, ⟨10, _⟩ => ⟨S1152x1152, .bf16⟩
  | .hbm, ⟨11, _⟩ => ⟨S4x2048x1152, .f32⟩
  | .local _ .vmem, ⟨0, _⟩ => ⟨S1x2048x1152, .f32⟩
  | .local _ .vmem, ⟨1, _⟩ => ⟨S1152x1152, .bf16⟩
  | .local _ .vmem, ⟨2, _⟩ => ⟨S1152x1152, .bf16⟩
  | .local _ .vmem, ⟨3, _⟩ => ⟨S1152x1152, .bf16⟩
  | .local _ .vmem, ⟨4, _⟩ => ⟨S1152x1152, .bf16⟩
  | .local _ .vmem, ⟨5, _⟩ => ⟨S2048x144, .f32⟩
  | .local _ .vmem, ⟨6, _⟩ => ⟨S2048x144, .f32⟩
  | .local _ .vmem, ⟨7, _⟩ => ⟨S1x128x1152, .f32⟩
  | .local _ .vmem, ⟨8, _⟩ => ⟨S1x128x1152, .f32⟩
  | .local _ .vmem, ⟨9, _⟩ => ⟨S2048x1152, .bf16⟩
  | .local _ .vmem, ⟨10, _⟩ => ⟨S2048x1152, .bf16⟩
  | _, _ => ⟨S4x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 3 → Nat :=
  let c0 : Index := 0#32
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  let c0_1 : Index := 0#32
  ![0, v5.toNat, 0]
def k0_off2 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v12 : Index := Scalar.indexCast v4
  let c0_4 : Index := 0#32
  ![v12.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1152x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1152x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1152x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1152x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  inb_S1x2048x1152_S1x512x1152_0_0_0 : ∀ a, (![0, 0, 0] : Fin 3 → Nat) a + S1x512x1152.size a ≤ S1x2048x1152.size a
  h_S1x512x1152 : 0 < S1x512x1152.numel
  shapeCasts_S1x512x1152_S512x1152 : S1x512x1152.ShapeCasts S512x1152
  inb_S1152x1152_S1152x1152_0_0 : ∀ a, (![0, 0] : Fin 2 → Nat) a + S1152x1152.size a ≤ S1152x1152.size a
  h_S1152x1152 : 0 < S1152x1152.numel
  shapeCasts_S1152x1152_S1152x1152 : S1152x1152.ShapeCasts S1152x1152
  inb_S2048x1152_S512x1152_0_0 : ∀ a, (![0, 0] : Fin 2 → Nat) a + S512x1152.size a ≤ S2048x1152.size a
  h_S512x1152 : 0 < S512x1152.numel
  shapeCasts_S512x1152_S512x1152 : S512x1152.ShapeCasts S512x1152
  packedbf16_S2048x1152_S512x1152_0_0 : (Rect.unit (s := S2048x1152) ![0, 0] S512x1152.size inb_S2048x1152_S512x1152_0_0).PackedRows (EltTy.packing .bf16)
  inb_S2048x144_S512x144_0_0 : ∀ a, (![0, 0] : Fin 2 → Nat) a + S512x144.size a ≤ S2048x144.size a
  h_S512x144 : 0 < S512x144.numel
  slices_S512x1152_o0_0_S512x144 : S512x1152.Slices ![0, 0] S512x144
  slices_S512x144_o0_0_S512x72 : S512x144.Slices ![0, 0] S512x72
  slices_S512x144_o0_72_S512x72 : S512x144.Slices ![0, 72] S512x72
  concatenates_S512x72_S512x72_S512x144_d1 : Shape.Concatenates [S512x72, S512x72] S512x144 1
  inb_S2048x1152_S512x144_0_0 : ∀ a, (![0, 0] : Fin 2 → Nat) a + S512x144.size a ≤ S2048x1152.size a
  shapeCasts_S512x144_S512x144 : S512x144.ShapeCasts S512x144
  packedbf16_S2048x1152_S512x144_0_0 : (Rect.unit (s := S2048x1152) ![0, 0] S512x144.size inb_S2048x1152_S512x144_0_0).PackedRows (EltTy.packing .bf16)
  slices_S512x1152_o0_144_S512x144 : S512x1152.Slices ![0, 144] S512x144
  inb_S2048x1152_S512x144_0_144 : ∀ a, (![0, 144] : Fin 2 → Nat) a + S512x144.size a ≤ S2048x1152.size a
  packedbf16_S2048x1152_S512x144_0_144 : (Rect.unit (s := S2048x1152) ![0, 144] S512x144.size inb_S2048x1152_S512x144_0_144).PackedRows (EltTy.packing .bf16)
  slices_S512x1152_o0_288_S512x144 : S512x1152.Slices ![0, 288] S512x144
  inb_S2048x1152_S512x144_0_288 : ∀ a, (![0, 288] : Fin 2 → Nat) a + S512x144.size a ≤ S2048x1152.size a
  packedbf16_S2048x1152_S512x144_0_288 : (Rect.unit (s := S2048x1152) ![0, 288] S512x144.size inb_S2048x1152_S512x144_0_288).PackedRows (EltTy.packing .bf16)
  slices_S512x1152_o0_432_S512x144 : S512x1152.Slices ![0, 432] S512x144
  inb_S2048x1152_S512x144_0_432 : ∀ a, (![0, 432] : Fin 2 → Nat) a + S512x144.size a ≤ S2048x1152.size a
  packedbf16_S2048x1152_S512x144_0_432 : (Rect.unit (s := S2048x1152) ![0, 432] S512x144.size inb_S2048x1152_S512x144_0_432).PackedRows (EltTy.packing .bf16)
  slices_S512x1152_o0_576_S512x144 : S512x1152.Slices ![0, 576] S512x144
  inb_S2048x1152_S512x144_0_576 : ∀ a, (![0, 576] : Fin 2 → Nat) a + S512x144.size a ≤ S2048x1152.size a
  packedbf16_S2048x1152_S512x144_0_576 : (Rect.unit (s := S2048x1152) ![0, 576] S512x144.size inb_S2048x1152_S512x144_0_576).PackedRows (EltTy.packing .bf16)
  slices_S512x1152_o0_720_S512x144 : S512x1152.Slices ![0, 720] S512x144
  inb_S2048x1152_S512x144_0_720 : ∀ a, (![0, 720] : Fin 2 → Nat) a + S512x144.size a ≤ S2048x1152.size a
  packedbf16_S2048x1152_S512x144_0_720 : (Rect.unit (s := S2048x1152) ![0, 720] S512x144.size inb_S2048x1152_S512x144_0_720).PackedRows (EltTy.packing .bf16)
  slices_S512x1152_o0_864_S512x144 : S512x1152.Slices ![0, 864] S512x144
  inb_S2048x1152_S512x144_0_864 : ∀ a, (![0, 864] : Fin 2 → Nat) a + S512x144.size a ≤ S2048x1152.size a
  packedbf16_S2048x1152_S512x144_0_864 : (Rect.unit (s := S2048x1152) ![0, 864] S512x144.size inb_S2048x1152_S512x144_0_864).PackedRows (EltTy.packing .bf16)
  slices_S512x1152_o0_1008_S512x144 : S512x1152.Slices ![0, 1008] S512x144
  inb_S2048x1152_S512x144_0_1008 : ∀ a, (![0, 1008] : Fin 2 → Nat) a + S512x144.size a ≤ S2048x1152.size a
  packedbf16_S2048x1152_S512x144_0_1008 : (Rect.unit (s := S2048x1152) ![0, 1008] S512x144.size inb_S2048x1152_S512x144_0_1008).PackedRows (EltTy.packing .bf16)
  inb_S1x2048x1152_S1x512x1152_0_512_0 : ∀ a, (![0, 512, 0] : Fin 3 → Nat) a + S1x512x1152.size a ≤ S1x2048x1152.size a
  inb_S2048x1152_S512x1152_512_0 : ∀ a, (![512, 0] : Fin 2 → Nat) a + S512x1152.size a ≤ S2048x1152.size a
  packedbf16_S2048x1152_S512x1152_512_0 : (Rect.unit (s := S2048x1152) ![512, 0] S512x1152.size inb_S2048x1152_S512x1152_512_0).PackedRows (EltTy.packing .bf16)
  inb_S2048x144_S512x144_512_0 : ∀ a, (![512, 0] : Fin 2 → Nat) a + S512x144.size a ≤ S2048x144.size a
  inb_S2048x1152_S512x144_512_0 : ∀ a, (![512, 0] : Fin 2 → Nat) a + S512x144.size a ≤ S2048x1152.size a
  packedbf16_S2048x1152_S512x144_512_0 : (Rect.unit (s := S2048x1152) ![512, 0] S512x144.size inb_S2048x1152_S512x144_512_0).PackedRows (EltTy.packing .bf16)
  inb_S2048x1152_S512x144_512_144 : ∀ a, (![512, 144] : Fin 2 → Nat) a + S512x144.size a ≤ S2048x1152.size a
  packedbf16_S2048x1152_S512x144_512_144 : (Rect.unit (s := S2048x1152) ![512, 144] S512x144.size inb_S2048x1152_S512x144_512_144).PackedRows (EltTy.packing .bf16)
  inb_S2048x1152_S512x144_512_288 : ∀ a, (![512, 288] : Fin 2 → Nat) a + S512x144.size a ≤ S2048x1152.size a
  packedbf16_S2048x1152_S512x144_512_288 : (Rect.unit (s := S2048x1152) ![512, 288] S512x144.size inb_S2048x1152_S512x144_512_288).PackedRows (EltTy.packing .bf16)
  inb_S2048x1152_S512x144_512_432 : ∀ a, (![512, 432] : Fin 2 → Nat) a + S512x144.size a ≤ S2048x1152.size a
  packedbf16_S2048x1152_S512x144_512_432 : (Rect.unit (s := S2048x1152) ![512, 432] S512x144.size inb_S2048x1152_S512x144_512_432).PackedRows (EltTy.packing .bf16)
  inb_S2048x1152_S512x144_512_576 : ∀ a, (![512, 576] : Fin 2 → Nat) a + S512x144.size a ≤ S2048x1152.size a
  packedbf16_S2048x1152_S512x144_512_576 : (Rect.unit (s := S2048x1152) ![512, 576] S512x144.size inb_S2048x1152_S512x144_512_576).PackedRows (EltTy.packing .bf16)
  inb_S2048x1152_S512x144_512_720 : ∀ a, (![512, 720] : Fin 2 → Nat) a + S512x144.size a ≤ S2048x1152.size a
  packedbf16_S2048x1152_S512x144_512_720 : (Rect.unit (s := S2048x1152) ![512, 720] S512x144.size inb_S2048x1152_S512x144_512_720).PackedRows (EltTy.packing .bf16)
  inb_S2048x1152_S512x144_512_864 : ∀ a, (![512, 864] : Fin 2 → Nat) a + S512x144.size a ≤ S2048x1152.size a
  packedbf16_S2048x1152_S512x144_512_864 : (Rect.unit (s := S2048x1152) ![512, 864] S512x144.size inb_S2048x1152_S512x144_512_864).PackedRows (EltTy.packing .bf16)
  inb_S2048x1152_S512x144_512_1008 : ∀ a, (![512, 1008] : Fin 2 → Nat) a + S512x144.size a ≤ S2048x1152.size a
  packedbf16_S2048x1152_S512x144_512_1008 : (Rect.unit (s := S2048x1152) ![512, 1008] S512x144.size inb_S2048x1152_S512x144_512_1008).PackedRows (EltTy.packing .bf16)
  inb_S1x2048x1152_S1x512x1152_0_1024_0 : ∀ a, (![0, 1024, 0] : Fin 3 → Nat) a + S1x512x1152.size a ≤ S1x2048x1152.size a
  inb_S2048x1152_S512x1152_1024_0 : ∀ a, (![1024, 0] : Fin 2 → Nat) a + S512x1152.size a ≤ S2048x1152.size a
  packedbf16_S2048x1152_S512x1152_1024_0 : (Rect.unit (s := S2048x1152) ![1024, 0] S512x1152.size inb_S2048x1152_S512x1152_1024_0).PackedRows (EltTy.packing .bf16)
  inb_S2048x144_S512x144_1024_0 : ∀ a, (![1024, 0] : Fin 2 → Nat) a + S512x144.size a ≤ S2048x144.size a
  inb_S2048x1152_S512x144_1024_0 : ∀ a, (![1024, 0] : Fin 2 → Nat) a + S512x144.size a ≤ S2048x1152.size a
  packedbf16_S2048x1152_S512x144_1024_0 : (Rect.unit (s := S2048x1152) ![1024, 0] S512x144.size inb_S2048x1152_S512x144_1024_0).PackedRows (EltTy.packing .bf16)
  inb_S2048x1152_S512x144_1024_144 : ∀ a, (![1024, 144] : Fin 2 → Nat) a + S512x144.size a ≤ S2048x1152.size a
  packedbf16_S2048x1152_S512x144_1024_144 : (Rect.unit (s := S2048x1152) ![1024, 144] S512x144.size inb_S2048x1152_S512x144_1024_144).PackedRows (EltTy.packing .bf16)
  inb_S2048x1152_S512x144_1024_288 : ∀ a, (![1024, 288] : Fin 2 → Nat) a + S512x144.size a ≤ S2048x1152.size a
  packedbf16_S2048x1152_S512x144_1024_288 : (Rect.unit (s := S2048x1152) ![1024, 288] S512x144.size inb_S2048x1152_S512x144_1024_288).PackedRows (EltTy.packing .bf16)
  inb_S2048x1152_S512x144_1024_432 : ∀ a, (![1024, 432] : Fin 2 → Nat) a + S512x144.size a ≤ S2048x1152.size a
  packedbf16_S2048x1152_S512x144_1024_432 : (Rect.unit (s := S2048x1152) ![1024, 432] S512x144.size inb_S2048x1152_S512x144_1024_432).PackedRows (EltTy.packing .bf16)
  inb_S2048x1152_S512x144_1024_576 : ∀ a, (![1024, 576] : Fin 2 → Nat) a + S512x144.size a ≤ S2048x1152.size a
  packedbf16_S2048x1152_S512x144_1024_576 : (Rect.unit (s := S2048x1152) ![1024, 576] S512x144.size inb_S2048x1152_S512x144_1024_576).PackedRows (EltTy.packing .bf16)
  inb_S2048x1152_S512x144_1024_720 : ∀ a, (![1024, 720] : Fin 2 → Nat) a + S512x144.size a ≤ S2048x1152.size a
  packedbf16_S2048x1152_S512x144_1024_720 : (Rect.unit (s := S2048x1152) ![1024, 720] S512x144.size inb_S2048x1152_S512x144_1024_720).PackedRows (EltTy.packing .bf16)
  inb_S2048x1152_S512x144_1024_864 : ∀ a, (![1024, 864] : Fin 2 → Nat) a + S512x144.size a ≤ S2048x1152.size a
  packedbf16_S2048x1152_S512x144_1024_864 : (Rect.unit (s := S2048x1152) ![1024, 864] S512x144.size inb_S2048x1152_S512x144_1024_864).PackedRows (EltTy.packing .bf16)
  inb_S2048x1152_S512x144_1024_1008 : ∀ a, (![1024, 1008] : Fin 2 → Nat) a + S512x144.size a ≤ S2048x1152.size a
  packedbf16_S2048x1152_S512x144_1024_1008 : (Rect.unit (s := S2048x1152) ![1024, 1008] S512x144.size inb_S2048x1152_S512x144_1024_1008).PackedRows (EltTy.packing .bf16)
  inb_S1x2048x1152_S1x512x1152_0_1536_0 : ∀ a, (![0, 1536, 0] : Fin 3 → Nat) a + S1x512x1152.size a ≤ S1x2048x1152.size a
  inb_S2048x1152_S512x1152_1536_0 : ∀ a, (![1536, 0] : Fin 2 → Nat) a + S512x1152.size a ≤ S2048x1152.size a
  packedbf16_S2048x1152_S512x1152_1536_0 : (Rect.unit (s := S2048x1152) ![1536, 0] S512x1152.size inb_S2048x1152_S512x1152_1536_0).PackedRows (EltTy.packing .bf16)
  inb_S2048x144_S512x144_1536_0 : ∀ a, (![1536, 0] : Fin 2 → Nat) a + S512x144.size a ≤ S2048x144.size a
  inb_S2048x1152_S512x144_1536_0 : ∀ a, (![1536, 0] : Fin 2 → Nat) a + S512x144.size a ≤ S2048x1152.size a
  packedbf16_S2048x1152_S512x144_1536_0 : (Rect.unit (s := S2048x1152) ![1536, 0] S512x144.size inb_S2048x1152_S512x144_1536_0).PackedRows (EltTy.packing .bf16)
  inb_S2048x1152_S512x144_1536_144 : ∀ a, (![1536, 144] : Fin 2 → Nat) a + S512x144.size a ≤ S2048x1152.size a
  packedbf16_S2048x1152_S512x144_1536_144 : (Rect.unit (s := S2048x1152) ![1536, 144] S512x144.size inb_S2048x1152_S512x144_1536_144).PackedRows (EltTy.packing .bf16)
  inb_S2048x1152_S512x144_1536_288 : ∀ a, (![1536, 288] : Fin 2 → Nat) a + S512x144.size a ≤ S2048x1152.size a
  packedbf16_S2048x1152_S512x144_1536_288 : (Rect.unit (s := S2048x1152) ![1536, 288] S512x144.size inb_S2048x1152_S512x144_1536_288).PackedRows (EltTy.packing .bf16)
  inb_S2048x1152_S512x144_1536_432 : ∀ a, (![1536, 432] : Fin 2 → Nat) a + S512x144.size a ≤ S2048x1152.size a
  packedbf16_S2048x1152_S512x144_1536_432 : (Rect.unit (s := S2048x1152) ![1536, 432] S512x144.size inb_S2048x1152_S512x144_1536_432).PackedRows (EltTy.packing .bf16)
  inb_S2048x1152_S512x144_1536_576 : ∀ a, (![1536, 576] : Fin 2 → Nat) a + S512x144.size a ≤ S2048x1152.size a
  packedbf16_S2048x1152_S512x144_1536_576 : (Rect.unit (s := S2048x1152) ![1536, 576] S512x144.size inb_S2048x1152_S512x144_1536_576).PackedRows (EltTy.packing .bf16)
  inb_S2048x1152_S512x144_1536_720 : ∀ a, (![1536, 720] : Fin 2 → Nat) a + S512x144.size a ≤ S2048x1152.size a
  packedbf16_S2048x1152_S512x144_1536_720 : (Rect.unit (s := S2048x1152) ![1536, 720] S512x144.size inb_S2048x1152_S512x144_1536_720).PackedRows (EltTy.packing .bf16)
  inb_S2048x1152_S512x144_1536_864 : ∀ a, (![1536, 864] : Fin 2 → Nat) a + S512x144.size a ≤ S2048x1152.size a
  packedbf16_S2048x1152_S512x144_1536_864 : (Rect.unit (s := S2048x1152) ![1536, 864] S512x144.size inb_S2048x1152_S512x144_1536_864).PackedRows (EltTy.packing .bf16)
  inb_S2048x1152_S512x144_1536_1008 : ∀ a, (![1536, 1008] : Fin 2 → Nat) a + S512x144.size a ≤ S2048x1152.size a
  packedbf16_S2048x1152_S512x144_1536_1008 : (Rect.unit (s := S2048x1152) ![1536, 1008] S512x144.size inb_S2048x1152_S512x144_1536_1008).PackedRows (EltTy.packing .bf16)
  h_S1x128x1152 : 0 < S1x128x1152.numel
  shapeCasts_S1x128x1152_S128x1152 : S1x128x1152.ShapeCasts S128x1152
  h_S128x144 : 0 < S128x144.numel
  slices_S128x1152_o0_0_S128x144 : S128x1152.Slices ![0, 0] S128x144
  slices_S128x144_o0_0_S128x72 : S128x144.Slices ![0, 0] S128x72
  slices_S128x144_o0_72_S128x72 : S128x144.Slices ![0, 72] S128x72
  concatenates_S128x72_S128x72_S128x144_d1 : Shape.Concatenates [S128x72, S128x72] S128x144 1
  inb_S2048x1152_S2048x144_0_0 : ∀ a, (![0, 0] : Fin 2 → Nat) a + S2048x144.size a ≤ S2048x1152.size a
  h_S2048x144 : 0 < S2048x144.numel
  reduces_S128x2048_S128 : S128x2048.Reduces [1] S128
  shapeCasts_S128_S128x1 : S128.ShapeCasts S128x1
  broadcasts_S128x1_S128x2048 : S128x1.Broadcasts S128x2048
  broadcasts_S128x1_S128x144 : S128x1.Broadcasts S128x144
  inb_S1152x1152_S1152x144_0_0 : ∀ a, (![0, 0] : Fin 2 → Nat) a + S1152x144.size a ≤ S1152x1152.size a
  h_S1152x144 : 0 < S1152x144.numel
  shapeCasts_S1152x144_S1152x144 : S1152x144.ShapeCasts S1152x144
  slices_S128x1152_o0_144_S128x144 : S128x1152.Slices ![0, 144] S128x144
  inb_S2048x1152_S2048x144_0_144 : ∀ a, (![0, 144] : Fin 2 → Nat) a + S2048x144.size a ≤ S2048x1152.size a
  inb_S1152x1152_S1152x144_0_144 : ∀ a, (![0, 144] : Fin 2 → Nat) a + S1152x144.size a ≤ S1152x1152.size a
  slices_S128x1152_o0_288_S128x144 : S128x1152.Slices ![0, 288] S128x144
  inb_S2048x1152_S2048x144_0_288 : ∀ a, (![0, 288] : Fin 2 → Nat) a + S2048x144.size a ≤ S2048x1152.size a
  inb_S1152x1152_S1152x144_0_288 : ∀ a, (![0, 288] : Fin 2 → Nat) a + S1152x144.size a ≤ S1152x1152.size a
  slices_S128x1152_o0_432_S128x144 : S128x1152.Slices ![0, 432] S128x144
  inb_S2048x1152_S2048x144_0_432 : ∀ a, (![0, 432] : Fin 2 → Nat) a + S2048x144.size a ≤ S2048x1152.size a
  inb_S1152x1152_S1152x144_0_432 : ∀ a, (![0, 432] : Fin 2 → Nat) a + S1152x144.size a ≤ S1152x1152.size a
  slices_S128x1152_o0_576_S128x144 : S128x1152.Slices ![0, 576] S128x144
  inb_S2048x1152_S2048x144_0_576 : ∀ a, (![0, 576] : Fin 2 → Nat) a + S2048x144.size a ≤ S2048x1152.size a
  inb_S1152x1152_S1152x144_0_576 : ∀ a, (![0, 576] : Fin 2 → Nat) a + S1152x144.size a ≤ S1152x1152.size a
  slices_S128x1152_o0_720_S128x144 : S128x1152.Slices ![0, 720] S128x144
  inb_S2048x1152_S2048x144_0_720 : ∀ a, (![0, 720] : Fin 2 → Nat) a + S2048x144.size a ≤ S2048x1152.size a
  inb_S1152x1152_S1152x144_0_720 : ∀ a, (![0, 720] : Fin 2 → Nat) a + S1152x144.size a ≤ S1152x1152.size a
  slices_S128x1152_o0_864_S128x144 : S128x1152.Slices ![0, 864] S128x144
  inb_S2048x1152_S2048x144_0_864 : ∀ a, (![0, 864] : Fin 2 → Nat) a + S2048x144.size a ≤ S2048x1152.size a
  inb_S1152x1152_S1152x144_0_864 : ∀ a, (![0, 864] : Fin 2 → Nat) a + S1152x144.size a ≤ S1152x1152.size a
  slices_S128x1152_o0_1008_S128x144 : S128x1152.Slices ![0, 1008] S128x144
  inb_S2048x1152_S2048x144_0_1008 : ∀ a, (![0, 1008] : Fin 2 → Nat) a + S2048x144.size a ≤ S2048x1152.size a
  inb_S1152x1152_S1152x144_0_1008 : ∀ a, (![0, 1008] : Fin 2 → Nat) a + S1152x144.size a ≤ S1152x1152.size a
  inb_S1x128x1152_S1x128x1152_0_0_0 : ∀ a, (![0, 0, 0] : Fin 3 → Nat) a + S1x128x1152.size a ≤ S1x128x1152.size a
  shapeCasts_S128x1152_S1x128x1152 : S128x1152.ShapeCasts S1x128x1152
  dot_S512x1152_S1152x1152_S512x1152_1_1_0_0_n_n_wf : DotDims.WF S512x1152 S1152x1152 S512x1152 [1] [1] [0] [0] [] []
  dot_S128x1152_S1152x1152_S128x1152_1_1_0_0_n_n_wf : DotDims.WF S128x1152 S1152x1152 S128x1152 [1] [1] [0] [0] [] []
  dot_S128x144_S2048x144_S128x2048_1_1_0_0_n_n_wf : DotDims.WF S128x144 S2048x144 S128x2048 [1] [1] [0] [0] [] []
  dot_S128x2048_S2048x144_S128x144_1_0_0_1_n_n_wf : DotDims.WF S128x2048 S2048x144 S128x144 [1] [0] [0] [1] [] []
  dot_S128x144_S1152x144_S128x1152_1_1_0_0_n_n_wf : DotDims.WF S128x144 S1152x144 S128x1152 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1x128x1152.size a ≤ S1x2048x1152.size a
  k0_off2_inb : ∀ i : grid0.Coords, ∀ a, (k0_off2 i) a + S128x144.size a ≤ S2048x144.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1152.size a ≤ S4x2048x1152.size a
  hwx0_0 : ∀ i : grid0.Coords, EltTy.bits .f32 = 32 ∨ (Rect.block (s := S4x2048x1152) S1x2048x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x1152.size a ≤ S1152x1152.size a
  hwx0_1 : ∀ i : grid0.Coords, EltTy.bits .bf16 = 32 ∨ (Rect.block (s := S1152x1152) S1152x1152.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1152x1152.size a ≤ S1152x1152.size a
  hwx0_2 : ∀ i : grid0.Coords, EltTy.bits .bf16 = 32 ∨ (Rect.block (s := S1152x1152) S1152x1152.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1152x1152.size a ≤ S1152x1152.size a
  hwx0_3 : ∀ i : grid0.Coords, EltTy.bits .bf16 = 32 ∨ (Rect.block (s := S1152x1152) S1152x1152.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1152x1152.size a ≤ S1152x1152.size a
  hwx0_4 : ∀ i : grid0.Coords, EltTy.bits .bf16 = 32 ∨ (Rect.block (s := S1152x1152) S1152x1152.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x144.size a ≤ S2048x144.size a
  hwx0_5 : ∀ i : grid0.Coords, EltTy.bits .f32 = 32 ∨ (Rect.block (s := S2048x144) S2048x144.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x144.size a ≤ S2048x144.size a
  hwx0_6 : ∀ i : grid0.Coords, EltTy.bits .f32 = 32 ∨ (Rect.block (s := S2048x144) S2048x144.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x1152.size a ≤ S4x2048x1152.size a
  hwx0_7 : ∀ i : grid0.Coords, EltTy.bits .f32 = 32 ∨ (Rect.block (s := S4x2048x1152) S1x128x1152.size (cc0_transform_7 i) (hinb0_7 i)).WholeWords (EltTy.packing .f32)

variable [Facts₀]

def dot_S512x1152_S1152x1152_S512x1152_1_1_0_0_n_n : DotDims S512x1152 S1152x1152 S512x1152 where
  lhsContracting := [1]
  rhsContracting := [1]
  lhsNonContracting := [0]
  rhsNonContracting := [0]
  lhsBatch := []
  rhsBatch := []
  wf := dot_S512x1152_S1152x1152_S512x1152_1_1_0_0_n_n_wf
def dot_S128x1152_S1152x1152_S128x1152_1_1_0_0_n_n : DotDims S128x1152 S1152x1152 S128x1152 where
  lhsContracting := [1]
  rhsContracting := [1]
  lhsNonContracting := [0]
  rhsNonContracting := [0]
  lhsBatch := []
  rhsBatch := []
  wf := dot_S128x1152_S1152x1152_S128x1152_1_1_0_0_n_n_wf
def dot_S128x144_S2048x144_S128x2048_1_1_0_0_n_n : DotDims S128x144 S2048x144 S128x2048 where
  lhsContracting := [1]
  rhsContracting := [1]
  lhsNonContracting := [0]
  rhsNonContracting := [0]
  lhsBatch := []
  rhsBatch := []
  wf := dot_S128x144_S2048x144_S128x2048_1_1_0_0_n_n_wf
def dot_S128x2048_S2048x144_S128x144_1_0_0_1_n_n : DotDims S128x2048 S2048x144 S128x144 where
  lhsContracting := [1]
  rhsContracting := [0]
  lhsNonContracting := [0]
  rhsNonContracting := [1]
  lhsBatch := []
  rhsBatch := []
  wf := dot_S128x2048_S2048x144_S128x144_1_0_0_1_n_n_wf
def dot_S128x144_S1152x144_S128x1152_1_1_0_0_n_n : DotDims S128x144 S1152x144 S128x1152 where
  lhsContracting := [1]
  rhsContracting := [1]
  lhsNonContracting := [0]
  rhsNonContracting := [0]
  lhsBatch := []
  rhsBatch := []
  wf := dot_S128x144_S1152x144_S128x1152_1_1_0_0_n_n_wf

abbrev win0_0 : Pipeline.Window sig grid0 :=
  Pipeline.Window.ofSpec (Memref.whole main_arg0) S1x2048x1152.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1152x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1152x1152.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1152x1152.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1152x1152.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S2048x144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S2048x144.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128x1152.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1152 : Shape := ⟨3, ![4, 2048, 1152]⟩
abbrev S2048x144 : Shape := ⟨2, ![2048, 144]⟩
abbrev S1152x1152 : Shape := ⟨2, ![1152, 1152]⟩
abbrev S4x2048x8x144 : Shape := ⟨4, ![4, 2048, 8, 144]⟩
abbrev S4x8x2048x144 : Shape := ⟨4, ![4, 8, 2048, 144]⟩
abbrev S4x8x2048x0 : Shape := ⟨4, ![4, 8, 2048, 0]⟩
abbrev S1x1x2048x144 : Shape := ⟨4, ![1, 1, 2048, 144]⟩
abbrev S4x8x2048x72 : Shape := ⟨4, ![4, 8, 2048, 72]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x1152, .f32⟩
  | .hbm, ⟨1, _⟩ => ⟨S2048x144, .f32⟩
  | .hbm, ⟨2, _⟩ => ⟨S2048x144, .f32⟩
  | .hbm, ⟨3, _⟩ => ⟨S1152x1152, .f32⟩
  | .hbm, ⟨4, _⟩ => ⟨S1152x1152, .f32⟩
  | .hbm, ⟨5, _⟩ => ⟨S1152x1152, .f32⟩
  | .hbm, ⟨6, _⟩ => ⟨S1152x1152, .f32⟩
  | .hbm, ⟨7, _⟩ => ⟨S4x2048x1152, .f32⟩
  | .hbm, ⟨8, _⟩ => ⟨S4x2048x8x144, .f32⟩
  | .hbm, ⟨9, _⟩ => ⟨S4x8x2048x144, .f32⟩
  | .hbm, ⟨10, _⟩ => ⟨S4x2048x1152, .f32⟩
  | .hbm, ⟨11, _⟩ => ⟨S4x2048x8x144, .f32⟩
  | .hbm, ⟨12, _⟩ => ⟨S4x8x2048x144, .f32⟩
  | .hbm, ⟨13, _⟩ => ⟨S4x2048x1152, .f32⟩
  | .hbm, ⟨14, _⟩ => ⟨S4x2048x8x144, .f32⟩
  | .hbm, ⟨15, _⟩ => ⟨S4x8x2048x144, .f32⟩
  | .hbm, ⟨16, _⟩ => ⟨S4x8x2048x0, .f32⟩
  | .hbm, ⟨17, _⟩ => ⟨S4x8x2048x0, .f32⟩
  | .hbm, ⟨18, _⟩ => ⟨S1x1x2048x144, .f32⟩
  | .hbm, ⟨19, _⟩ => ⟨S4x8x2048x144, .f32⟩
  | .hbm, ⟨20, _⟩ => ⟨S4x8x2048x144, .f32⟩
  | .hbm, ⟨21, _⟩ => ⟨S4x8x2048x72, .f32⟩
  | .hbm, ⟨22, _⟩ => ⟨S4x8x2048x72, .f32⟩
  | .hbm, ⟨23, _⟩ => ⟨S4x8x2048x72, .f32⟩
  | .hbm, ⟨24, _⟩ => ⟨S4x8x2048x144, .f32⟩
  | .hbm, ⟨25, _⟩ => ⟨S1x1x2048x144, .f32⟩
  | .hbm, ⟨26, _⟩ => ⟨S4x8x2048x144, .f32⟩
  | .hbm, ⟨27, _⟩ => ⟨S4x8x2048x144, .f32⟩
  | .hbm, ⟨28, _⟩ => ⟨S4x8x2048x144, .f32⟩
  | .hbm, ⟨29, _⟩ => ⟨S4x8x2048x144, .f32⟩
  | .hbm, ⟨30, _⟩ => ⟨S1x1x2048x144, .f32⟩
  | .hbm, ⟨31, _⟩ => ⟨S4x8x2048x144, .f32⟩
  | .hbm, ⟨32, _⟩ => ⟨S4x8x2048x144, .f32⟩
  | .hbm, ⟨33, _⟩ => ⟨S4x8x2048x72, .f32⟩
  | .hbm, ⟨34, _⟩ => ⟨S4x8x2048x72, .f32⟩
  | .hbm, ⟨35, _⟩ => ⟨S4x8x2048x72, .f32⟩
  | .hbm, ⟨36, _⟩ => ⟨S4x8x2048x144, .f32⟩
  | .hbm, ⟨37, _⟩ => ⟨S1x1x2048x144, .f32⟩
  | .hbm, ⟨38, _⟩ => ⟨S4x8x2048x144, .f32⟩
  | .hbm, ⟨39, _⟩ => ⟨S4x8x2048x144, .f32⟩
  | .hbm, ⟨40, _⟩ => ⟨S4x8x2048x144, .f32⟩
  | .hbm, ⟨41, _⟩ => ⟨S4x8x2048x144, .f32⟩
  | .hbm, ⟨42, _⟩ => ⟨S4x8x2048x2048, .f32⟩
  | .hbm, ⟨43, _⟩ => ⟨S_, .f32⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S_, .f32⟩
  | .hbm, ⟨49, _⟩ => ⟨S4x8x2048, .f32⟩
  | .hbm, ⟨50, _⟩ => ⟨S4x8x2048, .f32⟩
  | .hbm, ⟨51, _⟩ => ⟨S4x8x2048x1, .f32⟩
  | .hbm, ⟨52, _⟩ => ⟨S4x8x2048x2048, .f32⟩
  | .hbm, ⟨53, _⟩ => ⟨S4x8x2048x2048, .f32⟩
  | .hbm, ⟨54, _⟩ => ⟨S4x8x2048x2048, .f32⟩
  | .hbm, ⟨55, _⟩ => ⟨S_, .f32⟩
  | .hbm, ⟨56, _⟩ => ⟨S4x8x2048, .f32⟩
  | .hbm, ⟨57, _⟩ => ⟨S4x8x2048x1, .f32⟩
  | .hbm, ⟨58, _⟩ => ⟨S4x8x2048x2048, .f32⟩
  | .hbm, ⟨59, _⟩ => ⟨S4x8x2048x2048, .f32⟩
  | .hbm, ⟨60, _⟩ => ⟨S4x8x2048x144, .f32⟩
  | .hbm, ⟨61, _⟩ => ⟨S4x2048x8x144, .f32⟩
  | .hbm, ⟨62, _⟩ => ⟨S4x2048x1152, .f32⟩
  | .hbm, ⟨63, _⟩ => ⟨S4x2048x1152, .f32⟩
  | _, _ => ⟨S4x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst : Ref sig .tc := ⟨.hbm, 43, rfl⟩
abbrev main_v36 : Ref sig .tc := ⟨.hbm, 44, rfl⟩
abbrev main_v37 : Ref sig .tc := ⟨.hbm, 45, rfl⟩
abbrev main_cst_0 : Ref sig .tc := ⟨.hbm, 46, rfl⟩
abbrev main_v38 : Ref sig .tc := ⟨.hbm, 47, rfl⟩
abbrev main_cst_1 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_2 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]

class Facts₀ : Prop where
  shapeCasts_S4x2048x1152_S4x2048x8x144 : S4x2048x1152.ShapeCasts S4x2048x8x144
  transposes_S4x2048x8x144_S4x8x2048x144_0_2_1_3 : S4x2048x8x144.Transposes [0, 2, 1, 3] S4x8x2048x144
  slices_S4x8x2048x144_S4x8x2048x0_0_0_0_144 : S4x8x2048x144.Slices ![0, 0, 0, 144] S4x8x2048x0
  bcast_S2048x144_S1x1x2048x144_2_3 : S2048x144.BroadcastsInDim S1x1x2048x144 (![2, 3] : Fin 2 → Fin S1x1x2048x144.rank)
  bcast_S1x1x2048x144_S4x8x2048x144_0_1_2_3 : S1x1x2048x144.BroadcastsInDim S4x8x2048x144 (![0, 1, 2, 3] : Fin 4 → Fin S4x8x2048x144.rank)
  slices_S4x8x2048x144_S4x8x2048x72_0_0_0_0 : S4x8x2048x144.Slices ![0, 0, 0, 0] S4x8x2048x72
  slices_S4x8x2048x144_S4x8x2048x72_0_0_0_72 : S4x8x2048x144.Slices ![0, 0, 0, 72] S4x8x2048x72
  concatenates_S4x8x2048x72_S4x8x2048x72_S4x8x2048x144_d3 : Shape.Concatenates [S4x8x2048x72, S4x8x2048x72] S4x8x2048x144 3
  concatenates_S4x8x2048x144_S4x8x2048x0_S4x8x2048x144_d3 : Shape.Concatenates [S4x8x2048x144, S4x8x2048x0] S4x8x2048x144 3
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x144_S4x2048x8x144_0_2_1_3 : S4x8x2048x144.Transposes [0, 2, 1, 3] S4x2048x8x144
  shapeCasts_S4x2048x8x144_S4x2048x1152 : S4x2048x8x144.ShapeCasts S4x2048x1152
  dot_S4x2048x1152_S1152x1152_S4x2048x1152_2_1_01_0_n_n_wf : DotDims.WF S4x2048x1152 S1152x1152 S4x2048x1152 [2] [1] [0, 1] [0] [] []
  dot_S4x8x2048x144_S4x8x2048x144_S4x8x2048x2048_3_3_2_2_01_01_wf : DotDims.WF S4x8x2048x144 S4x8x2048x144 S4x8x2048x2048 [3] [3] [2] [2] [0, 1] [0, 1]
  dot_S4x8x2048x2048_S4x8x2048x144_S4x8x2048x144_3_2_2_3_01_01_wf : DotDims.WF S4x8x2048x2048 S4x8x2048x144 S4x8x2048x144 [3] [2] [2] [3] [0, 1] [0, 1]

variable [Facts₀]

def dot_S4x2048x1152_S1152x1152_S4x2048x1152_2_1_01_0_n_n : DotDims S4x2048x1152 S1152x1152 S4x2048x1152 where
  lhsContracting := [2]
  rhsContracting := [1]
  lhsNonContracting := [0, 1]
  rhsNonContracting := [0]
  lhsBatch := []
  rhsBatch := []
  wf := dot_S4x2048x1152_S1152x1152_S4x2048x1152_2_1_01_0_n_n_wf
def dot_S4x8x2048x144_S4x8x2048x144_S4x8x2048x2048_3_3_2_2_01_01 : DotDims S4x8x2048x144 S4x8x2048x144 S4x8x2048x2048 where
  lhsContracting := [3]
  rhsContracting := [3]
  lhsNonContracting := [2]
  rhsNonContracting := [2]
  lhsBatch := [0, 1]
  rhsBatch := [0, 1]
  wf := dot_S4x8x2048x144_S4x8x2048x144_S4x8x2048x2048_3_3_2_2_01_01_wf
def dot_S4x8x2048x2048_S4x8x2048x144_S4x8x2048x144_3_2_2_3_01_01 : DotDims S4x8x2048x2048 S4x8x2048x144 S4x8x2048x144 where
  lhsContracting := [3]
  rhsContracting := [2]
  lhsNonContracting := [2]
  rhsNonContracting := [3]
  lhsBatch := [0, 1]
  rhsBatch := [0, 1]
  wf := dot_S4x8x2048x2048_S4x8x2048x144_S4x8x2048x144_3_2_2_3_01_01_wf

class Facts : Prop extends Facts₀ where

variable [Facts]
-- ==== Proof.Spec.lean ====
/-
  The attention layer as ONE function of the argument arrays, entry by entry, over the extended reals.

  For one batch row-block `x : [2048, 1152]`, tables `cs, sn : [2048, 144]` and weights `Wq Wk Wv Wo : [1152, 1152]`:
    * a projection is `proj x W t e = ∑ d, x t d · W e d`;
    * column `e = 144·h + j` belongs to head `h` at lane `j` (`col`);
    * the rotary embedding of a row's head is `P·cos + rot(P)·sin`, with `rot` the half-rotation
      `(-P[j+72] for j < 72, P[j-72] otherwise)`;
    * the score of query row `q` against key row `k` is the 144-term inner product of the rotated heads times the
      scale literal; the row's weights are `exp (score − row maximum)`, their sum the denominator;
    * the head's output is the weighted sum of the value rows divided by the denominator — the kernel divides the
      finished sum (`attK`), the reference divides each weight first (`attR`);
    * the result is the output projection: the kernel adds the eight heads' 144-term products one after the other
      onto zero (`outK`), the reference takes one 1152-term sum (`outR`).
  `outK = outR` is the algebraic content of the certificate; it needs the denominator to be a positive real.
-/
import Idealize.ShloMosaic.PureOps.Ideal
import Mathlib.Algebra.BigOperators.Fin

noncomputable section

namespace Cert.Spec

open Idealize.ShloMosaic
open scoped BigOperators

/-- A matrix of extended reals, by row and column. -/
abbrev Mat (r c : Nat) := Fin r → Fin c → EReal

/-- The score scale: the f32 literal both programs multiply the scores by. -/
def scale : EReal := Ideal.ofBits .f32 0x3DAAAAAB#32

/-- The literal a row maximum starts from (the pattern of minus infinity). -/
def ninf : EReal := Ideal.ofBits .f32 0xFF800000#32

/-- Lane `j` of head `h` is column `144·h + j`. -/
def col (h : Fin 8) (j : Fin 144) : Fin 1152 := ⟨h.val * 144 + j.val, by have := h.isLt; have := j.isLt; omega⟩

/-- Row `t` of `x` against row `e` of `W`. -/
def proj (x : Mat 2048 1152) (W : Mat 1152 1152) (t : Fin 2048) (e : Fin 1152) : EReal :=
  ∑ d : Fin 1152, x t d * W e d

/-- The half-rotation of a 144-vector: the upper half negated in front of the lower half. -/
def rot (P : Fin 144 → EReal) (j : Fin 144) : EReal :=
  if h : j.val < 72 then -(P ⟨j.val + 72, by omega⟩) else P ⟨j.val - 72, by have := j.isLt; omega⟩

/-- The rotary embedding of head `h` of row `t` of a projected array. -/
def rope (P : Mat 2048 1152) (cs sn : Mat 2048 144) (t : Fin 2048) (h : Fin 8) (j : Fin 144) : EReal :=
  P t (col h j) * cs t j + rot (fun j' => P t (col h j')) j * sn t j

section
variable (x : Mat 2048 1152) (cs sn : Mat 2048 144) (Wq Wk Wv Wo : Mat 1152 1152)

/-- Rotated queries, rotated keys, values, by row, head and lane. -/
def qr (t : Fin 2048) (h : Fin 8) (j : Fin 144) : EReal := rope (proj x Wq) cs sn t h j
def kr (t : Fin 2048) (h : Fin 8) (j : Fin 144) : EReal := rope (proj x Wk) cs sn t h j
def vv (t : Fin 2048) (h : Fin 8) (j : Fin 144) : EReal := proj x Wv t (col h j)

/-- The scaled score of query row `q` against key row `k` in head `h`. -/
def score (h : Fin 8) (q k : Fin 2048) : EReal := (∑ j : Fin 144, qr x cs sn Wq q h j * kr x cs sn Wk k h j) * scale

/-- The row maximum of the scores, folded from the minus-infinity literal. -/
def rmax (h : Fin 8) (q : Fin 2048) : EReal :=
  (Finset.univ : Finset (Fin 2048)).fold max ninf (fun k => score x cs sn Wq Wk h q k)

/-- The unnormalised weights and their sum. -/
def pexp (h : Fin 8) (q k : Fin 2048) : EReal := Ideal.exp (score x cs sn Wq Wk h q k - rmax x cs sn Wq Wk h q)
def den (h : Fin 8) (q : Fin 2048) : EReal := ∑ k : Fin 2048, pexp x cs sn Wq Wk h q k

/-- The head's output, the kernel's way: the weighted sum divided once. -/
def attK (h : Fin 8) (q : Fin 2048) (j : Fin 144) : EReal :=
  Ideal.div (∑ k : Fin 2048, pexp x cs sn Wq Wk h q k * vv x Wv k h j) (den x cs sn Wq Wk h q)

/-- The head's output, the reference's way: each weight divided, then the sum. -/
def attR (h : Fin 8) (q : Fin 2048) (j : Fin 144) : EReal :=
  ∑ k : Fin 2048, Ideal.div (pexp x cs sn Wq Wk h q k) (den x cs sn Wq Wk h q) * vv x Wv k h j

/-- One head's share of the output projection. -/
def yK (h : Fin 8) (q : Fin 2048) (e : Fin 1152) : EReal :=
  ∑ j : Fin 144, attK x cs sn Wq Wk Wv h q j * Wo e (col h j)

/-- The kernel's result entry: the eight heads' shares added in order onto zero. -/
def outK (q : Fin 2048) (e : Fin 1152) : EReal :=
  (((((((0 + yK x cs sn Wq Wk Wv Wo 0 q e) + yK x cs sn Wq Wk Wv Wo 1 q e) + yK x cs sn Wq Wk Wv Wo 2 q e)
    + yK x cs sn Wq Wk Wv Wo 3 q e) + yK x cs sn Wq Wk Wv Wo 4 q e) + yK x cs sn Wq Wk Wv Wo 5 q e)
    + yK x cs sn Wq Wk Wv Wo 6 q e) + yK x cs sn Wq Wk Wv Wo 7 q e

/-- The reference's result entry: one sum over the 1152 columns of the concatenated heads. -/
def outR (q : Fin 2048) (e : Fin 1152) : EReal :=
  ∑ d : Fin 1152, attR x cs sn Wq Wk Wv ⟨d.val / 144, by have := d.isLt; omega⟩ q ⟨d.val % 144, Nat.mod_lt _ (by decide)⟩ * Wo e d

end

end Cert.Spec

end
-- ==== Proof.RefValue1.lean ====
/-
  The reference program read at an index, stage by stage, up to the scaled scores: every stage of the
  attention layer equals the matching function of the specification at explicit coordinates.
-/
import proofs.«400258_j82703890252416_3_alg».proof.Proof.Gen.ReferenceIdeal.Read
import proofs.«400258_j82703890252416_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-- One batch of an activation array, by row and column. -/
abbrev xm (x0 : (⟨S4x2048x1152, .f32⟩ : BufTy).Contents (Elt Ideal)) (b : Fin 4) : Cert.Spec.Mat 2048 1152 :=
  fun t d => x0 (ix3 b t d)
/-- A rank-2 array, by row and column. -/
abbrev tm {r c : Nat} (x : (⟨(⟨2, ![r, c]⟩ : Shape), .f32⟩ : BufTy).Contents (Elt Ideal)) : Cert.Spec.Mat r c :=
  fun t j => x (ix2 t j)

/-- A projection at an index is the specification's projection. -/
theorem proj_apply (x0 : (⟨S4x2048x1152, .f32⟩ : BufTy).Contents (Elt Ideal)) (w : (⟨S1152x1152, .f32⟩ : BufTy).Contents (Elt Ideal))
    (b : Fin 4) (t : Fin 2048) (e : Fin 1152) :
    val_main_v0 (F := Ideal) x0 w (ix3 b t e) = Cert.Spec.proj (xm x0 b) (tm w) t e := by
  rw [val_main_v0_apply]
  unfold Cert.Spec.proj
  refine Finset.sum_congr rfl fun k _ => ?_
  have el : lidx_main_v0 (ix3 b t e) k = ix3 b t k := funext fun a => Fin.ext (by
    match a with | ⟨0, _⟩ => rfl | ⟨1, _⟩ => rfl | ⟨2, _⟩ => rfl)
  have er : ridx_main_v0 (ix3 b t e) k = ix2 e k := funext fun a => Fin.ext (by
    match a with | ⟨0, _⟩ => rfl | ⟨1, _⟩ => rfl)
  rw [el, er]

/-- The reshape to heads followed by the transpose reads column 144·h + j. -/
theorem heads_apply (x0 : (⟨S4x2048x1152, .f32⟩ : BufTy).Contents (Elt Ideal)) (w : (⟨S1152x1152, .f32⟩ : BufTy).Contents (Elt Ideal))
    (b : Fin 4) (h : Fin 8) (t : Fin 2048) (j : Fin 144) :
    val_main_v2 (F := Ideal) x0 w (ix4 b h t j) = Cert.Spec.proj (xm x0 b) (tm w) t (Cert.Spec.col h j) := by
  rw [val_main_v2_apply, val_main_v1_apply, ← proj_apply]
  refine congrArg (val_main_v0 (F := Ideal) x0 w) (funext fun a => Fin.ext ?_)
  have hb := b.isLt; have hh := h.isLt; have ht := t.isLt; have hj := j.isLt
  match a with
  | ⟨0, _⟩ => show (((b.val * 2048 + t.val) * 8 + h.val) * 144 + j.val) / 2359296 = b.val; omega
  | ⟨1, _⟩ => show (((b.val * 2048 + t.val) * 8 + h.val) * 144 + j.val) / 1152 % 2048 = t.val; omega
  | ⟨2, _⟩ => show (((b.val * 2048 + t.val) * 8 + h.val) * 144 + j.val) % 1152 = h.val * 144 + j.val; omega

/-- The key projection's heads: the same reshape and transpose. -/
theorem headsK_apply (x0 : (⟨S4x2048x1152, .f32⟩ : BufTy).Contents (Elt Ideal)) (w : (⟨S1152x1152, .f32⟩ : BufTy).Contents (Elt Ideal)) (b : Fin 4) (h : Fin 8) (t : Fin 2048) (j : Fin 144) :
    val_main_v5 (F := Ideal) x0 w (ix4 b h t j) = Cert.Spec.proj (xm x0 b) (tm w) t (Cert.Spec.col h j) :=
  heads_apply x0 w b h t j

/-- The value projection's heads: the same reshape and transpose. -/
theorem headsV_apply (x0 : (⟨S4x2048x1152, .f32⟩ : BufTy).Contents (Elt Ideal)) (w : (⟨S1152x1152, .f32⟩ : BufTy).Contents (Elt Ideal)) (b : Fin 4) (h : Fin 8) (t : Fin 2048) (j : Fin 144) :
    val_main_v8 (F := Ideal) x0 w (ix4 b h t j) = Cert.Spec.proj (xm x0 b) (tm w) t (Cert.Spec.col h j) :=
  heads_apply x0 w b h t j

/-- The broadcast table cosQ reads the table at row and lane. -/
theorem cosQ_apply (x : (⟨S2048x144, .f32⟩ : BufTy).Contents (Elt Ideal)) (b : Fin 4) (h : Fin 8) (t : Fin 2048) (j : Fin 144) :
    val_main_v12 (F := Ideal) x (ix4 b h t j) = x (ix2 t j) := by
  rw [val_main_v12_apply, val_main_v11_apply]
  exact congrArg x (funext fun a => Fin.ext (by match a with | ⟨0, _⟩ => rfl | ⟨1, _⟩ => rfl))

/-- The broadcast table sinQ reads the table at row and lane. -/
theorem sinQ_apply (x : (⟨S2048x144, .f32⟩ : BufTy).Contents (Elt Ideal)) (b : Fin 4) (h : Fin 8) (t : Fin 2048) (j : Fin 144) :
    val_main_v19 (F := Ideal) x (ix4 b h t j) = x (ix2 t j) := by
  rw [val_main_v19_apply, val_main_v18_apply]
  exact congrArg x (funext fun a => Fin.ext (by match a with | ⟨0, _⟩ => rfl | ⟨1, _⟩ => rfl))

/-- The broadcast table cosK reads the table at row and lane. -/
theorem cosK_apply (x : (⟨S2048x144, .f32⟩ : BufTy).Contents (Elt Ideal)) (b : Fin 4) (h : Fin 8) (t : Fin 2048) (j : Fin 144) :
    val_main_v24 (F := Ideal) x (ix4 b h t j) = x (ix2 t j) := by
  rw [val_main_v24_apply, val_main_v23_apply]
  exact congrArg x (funext fun a => Fin.ext (by match a with | ⟨0, _⟩ => rfl | ⟨1, _⟩ => rfl))

/-- The broadcast table sinK reads the table at row and lane. -/
theorem sinK_apply (x : (⟨S2048x144, .f32⟩ : BufTy).Contents (Elt Ideal)) (b : Fin 4) (h : Fin 8) (t : Fin 2048) (j : Fin 144) :
    val_main_v31 (F := Ideal) x (ix4 b h t j) = x (ix2 t j) := by
  rw [val_main_v31_apply, val_main_v30_apply]
  exact congrArg x (funext fun a => Fin.ext (by match a with | ⟨0, _⟩ => rfl | ⟨1, _⟩ => rfl))

/-- The half-rotation: the negated upper half joined in front of the lower half. -/
theorem rotQ_apply (x0 : (⟨S4x2048x1152, .f32⟩ : BufTy).Contents (Elt Ideal)) (w : (⟨S1152x1152, .f32⟩ : BufTy).Contents (Elt Ideal)) (b : Fin 4) (h : Fin 8) (t : Fin 2048) (j : Fin 144) :
    val_main_v17 (F := Ideal) x0 w (ix4 b h t j)
      = Cert.Spec.rot (fun j' => Cert.Spec.proj (xm x0 b) (tm w) t (Cert.Spec.col h j')) j := by
  unfold Cert.Spec.rot val_main_v17
  have hj := j.isLt
  split
  · next hlt =>
    rw [concatenate_pair_apply_left (t := S4x8x2048x144) (s₁ := S4x8x2048x72) (s₂ := S4x8x2048x72) (3 : Fin 4) _ _ concatenates_S4x8x2048x72_S4x8x2048x72_S4x8x2048x144_d3 (ix4 b h t j) rfl
      (ix4 b h t (⟨j.val, hlt⟩ : Fin 72)) (fun a => by match a with | ⟨0, _⟩ => rfl | ⟨1, _⟩ => rfl | ⟨2, _⟩ => rfl | ⟨3, _⟩ => rfl)]
    rw [val_main_v16_apply, val_main_v15_apply]
    refine Eq.trans ?_ (congrArg Neg.neg (heads_apply x0 w b h t ⟨j.val + 72, by omega⟩))
    refine congrArg (fun i => -(val_main_v2 (F := Ideal) x0 w i)) (funext fun a => Fin.ext ?_)
    match a with
    | ⟨0, _⟩ => rfl
    | ⟨1, _⟩ => rfl
    | ⟨2, _⟩ => rfl
    | ⟨3, _⟩ => show 72 + j.val = j.val + 72; omega
  · next hge =>
    rw [concatenate_pair_apply_right (t := S4x8x2048x144) (s₁ := S4x8x2048x72) (s₂ := S4x8x2048x72) (3 : Fin 4) _ _ concatenates_S4x8x2048x72_S4x8x2048x72_S4x8x2048x144_d3 (ix4 b h t j) rfl rfl
      (ix4 b h t (⟨j.val - 72, by omega⟩ : Fin 72))
      (fun a ha => by
        match a with
        | ⟨0, _⟩ => rfl
        | ⟨1, _⟩ => rfl
        | ⟨2, _⟩ => rfl
        | ⟨3, _⟩ => exact absurd rfl ha)
      (by show (j.val - 72) + 72 = j.val; omega)]
    rw [val_main_v14_apply]
    refine Eq.trans ?_ (heads_apply x0 w b h t ⟨j.val - 72, by omega⟩)
    refine congrArg (val_main_v2 (F := Ideal) x0 w) (funext fun a => Fin.ext ?_)
    match a with
    | ⟨0, _⟩ => rfl
    | ⟨1, _⟩ => rfl
    | ⟨2, _⟩ => rfl
    | ⟨3, _⟩ => rfl

/-- The half-rotation: the negated upper half joined in front of the lower half. -/
theorem rotK_apply (x0 : (⟨S4x2048x1152, .f32⟩ : BufTy).Contents (Elt Ideal)) (w : (⟨S1152x1152, .f32⟩ : BufTy).Contents (Elt Ideal)) (b : Fin 4) (h : Fin 8) (t : Fin 2048) (j : Fin 144) :
    val_main_v29 (F := Ideal) x0 w (ix4 b h t j)
      = Cert.Spec.rot (fun j' => Cert.Spec.proj (xm x0 b) (tm w) t (Cert.Spec.col h j')) j := by
  unfold Cert.Spec.rot val_main_v29
  have hj := j.isLt
  split
  · next hlt =>
    rw [concatenate_pair_apply_left (t := S4x8x2048x144) (s₁ := S4x8x2048x72) (s₂ := S4x8x2048x72) (3 : Fin 4) _ _ concatenates_S4x8x2048x72_S4x8x2048x72_S4x8x2048x144_d3 (ix4 b h t j) rfl
      (ix4 b h t (⟨j.val, hlt⟩ : Fin 72)) (fun a => by match a with | ⟨0, _⟩ => rfl | ⟨1, _⟩ => rfl | ⟨2, _⟩ => rfl | ⟨3, _⟩ => rfl)]
    rw [val_main_v28_apply, val_main_v27_apply]
    refine Eq.trans ?_ (congrArg Neg.neg (headsK_apply x0 w b h t ⟨j.val + 72, by omega⟩))
    refine congrArg (fun i => -(val_main_v5 (F := Ideal) x0 w i)) (funext fun a => Fin.ext ?_)
    match a with
    | ⟨0, _⟩ => rfl
    | ⟨1, _⟩ => rfl
    | ⟨2, _⟩ => rfl
    | ⟨3, _⟩ => show 72 + j.val = j.val + 72; omega
  · next hge =>
    rw [concatenate_pair_apply_right (t := S4x8x2048x144) (s₁ := S4x8x2048x72) (s₂ := S4x8x2048x72) (3 : Fin 4) _ _ concatenates_S4x8x2048x72_S4x8x2048x72_S4x8x2048x144_d3 (ix4 b h t j) rfl rfl
      (ix4 b h t (⟨j.val - 72, by omega⟩ : Fin 72))
      (fun a ha => by
        match a with
        | ⟨0, _⟩ => rfl
        | ⟨1, _⟩ => rfl
        | ⟨2, _⟩ => rfl
        | ⟨3, _⟩ => exact absurd rfl ha)
      (by show (j.val - 72) + 72 = j.val; omega)]
    rw [val_main_v26_apply]
    refine Eq.trans ?_ (headsK_apply x0 w b h t ⟨j.val - 72, by omega⟩)
    refine congrArg (val_main_v5 (F := Ideal) x0 w) (funext fun a => Fin.ext ?_)
    match a with
    | ⟨0, _⟩ => rfl
    | ⟨1, _⟩ => rfl
    | ⟨2, _⟩ => rfl
    | ⟨3, _⟩ => rfl

/-- The rotary embedding at an index: the product with the cosine table plus the half-rotation's with the sine
    table; the join with the empty pass-through piece reads the first piece everywhere. -/
theorem ropeQ_apply (x0 : (⟨S4x2048x1152, .f32⟩ : BufTy).Contents (Elt Ideal)) (x1 x2 : (⟨S2048x144, .f32⟩ : BufTy).Contents (Elt Ideal)) (w : (⟨S1152x1152, .f32⟩ : BufTy).Contents (Elt Ideal)) (b : Fin 4) (h : Fin 8) (t : Fin 2048) (j : Fin 144) :
    val_main_v22 (F := Ideal) x0 x1 x2 w (ix4 b h t j)
      = Cert.Spec.qr (xm x0 b) (tm x1) (tm x2) (tm w) t h j := by
  unfold val_main_v22
  rw [concatenate_pair_apply_left (t := S4x8x2048x144) (s₁ := S4x8x2048x144) (s₂ := S4x8x2048x0) (3 : Fin 4) _ _
    concatenates_S4x8x2048x144_S4x8x2048x0_S4x8x2048x144_d3 (ix4 b h t j) rfl (ix4 b h t j) (fun a => rfl)]
  rw [val_main_v21_apply, val_main_v13_apply, val_main_v20_apply, heads_apply, cosQ_apply, rotQ_apply, sinQ_apply]
  rfl

/-- The rotary embedding at an index: the product with the cosine table plus the half-rotation's with the sine
    table; the join with the empty pass-through piece reads the first piece everywhere. -/
theorem ropeK_apply (x0 : (⟨S4x2048x1152, .f32⟩ : BufTy).Contents (Elt Ideal)) (x1 x2 : (⟨S2048x144, .f32⟩ : BufTy).Contents (Elt Ideal)) (w : (⟨S1152x1152, .f32⟩ : BufTy).Contents (Elt Ideal)) (b : Fin 4) (h : Fin 8) (t : Fin 2048) (j : Fin 144) :
    val_main_v34 (F := Ideal) x0 x1 x2 w (ix4 b h t j)
      = Cert.Spec.kr (xm x0 b) (tm x1) (tm x2) (tm w) t h j := by
  unfold val_main_v34
  rw [concatenate_pair_apply_left (t := S4x8x2048x144) (s₁ := S4x8x2048x144) (s₂ := S4x8x2048x0) (3 : Fin 4) _ _
    concatenates_S4x8x2048x144_S4x8x2048x0_S4x8x2048x144_d3 (ix4 b h t j) rfl (ix4 b h t j) (fun a => rfl)]
  rw [val_main_v33_apply, val_main_v25_apply, val_main_v32_apply, headsK_apply, cosK_apply, rotK_apply, sinK_apply]
  rfl

/-- The scaled score at an index: the 144-term product of the rotated heads times the scale literal. -/
theorem score_apply (x0 : (⟨S4x2048x1152, .f32⟩ : BufTy).Contents (Elt Ideal)) (x1 x2 : (⟨S2048x144, .f32⟩ : BufTy).Contents (Elt Ideal)) (x3 x4 : (⟨S1152x1152, .f32⟩ : BufTy).Contents (Elt Ideal)) (b : Fin 4) (h : Fin 8) (q k : Fin 2048) :
    val_main_v37 (F := Ideal) x0 x1 x2 x3 x4 (ix4 b h q k)
      = Cert.Spec.score (xm x0 b) (tm x1) (tm x2) (tm x3) (tm x4) h q k := by
  rw [val_main_v37_apply, val_main_v35_apply, val_main_v36_apply, val_main_cst_apply]
  unfold Cert.Spec.score Cert.Spec.scale
  refine congrArg (· * Ideal.ofBits .f32 0x3DAAAAAB#32) (Finset.sum_congr rfl fun j _ => ?_)
  have el : lidx_main_v35 (ix4 b h q k) j = ix4 b h q j := funext fun a => Fin.ext (by
    match a with | ⟨0, _⟩ => rfl | ⟨1, _⟩ => rfl | ⟨2, _⟩ => rfl | ⟨3, _⟩ => rfl)
  have er : ridx_main_v35 (ix4 b h q k) j = ix4 b h k j := funext fun a => Fin.ext (by
    match a with | ⟨0, _⟩ => rfl | ⟨1, _⟩ => rfl | ⟨2, _⟩ => rfl | ⟨3, _⟩ => rfl)
  rw [el, er, ropeQ_apply, ropeK_apply]

end Cert.ReferenceIdeal.RefValue

end
-- ==== Proof.RefValue.lean ====
/-
  The reference program read at an index, from the row maximum to the result: the softmax weights, their sum,
  the weighted sum of the value rows, the heads joined back into 1152 columns, and the output projection,
  each equal to the matching function of the specification.
-/
import proofs.«400258_j82703890252416_3_alg».proof.Proof.RefValue1
import Mathlib.Data.Finset.Fold

noncomputable section

namespace Cert.ReferenceIdeal.RefValue

open Cert.ReferenceIdeal Cert.ReferenceIdeal.Gen Cert.ReferenceIdeal.Read Idealize.ShloMosaic Idealize.ShloMosaic.ValueIdx
open scoped BigOperators

/-- The reduced index (b, h, q) with coordinate k put back on the last axis is (b, h, q, k). -/
theorem lift_ix4 (hR : S4x8x2048x2048.Reduces [3] S4x8x2048) (b : Fin 4) (h : Fin 8) (q : Fin 2048)
    (k : Fin (S4x8x2048x2048.size 3)) : hR.lift (ix3 b h q) k = ix4 b h q (⟨k.val, k.isLt⟩ : Fin 2048) := by
  funext a; apply Fin.ext
  match a with | ⟨0, _⟩ => rfl | ⟨1, _⟩ => rfl | ⟨2, _⟩ => rfl | ⟨3, _⟩ => rfl

/-- The row maximum: the fold of max from the minus-infinity literal over the key rows; the further maximum
    with that literal changes nothing, the fold being at least its initial value. -/
theorem rmax_apply (x0 : (⟨S4x2048x1152, .f32⟩ : BufTy).Contents (Elt Ideal)) (x1 x2 : (⟨S2048x144, .f32⟩ : BufTy).Contents (Elt Ideal)) (x3 x4 : (⟨S1152x1152, .f32⟩ : BufTy).Contents (Elt Ideal)) (b : Fin 4) (h : Fin 8) (q : Fin 2048) :
    val_main_v40 (F := Ideal) x0 x1 x2 x3 x4 (ix3 b h q) = Cert.Spec.rmax (xm x0 b) (tm x1) (tm x2) (tm x3) (tm x4) h q := by
  have hR : S4x8x2048x2048.Reduces [3] S4x8x2048 := by decide
  rw [val_main_v40_apply, val_main_v39_apply, val_main_cst_1_apply]
  unfold val_main_v38
  have key := Host.reduce_eq_fold_single (α := Ideal .f32) (s := S4x8x2048x2048) (t := S4x8x2048) (a := (3 : Fin 4)) (u := S_)
    (FloatOps.maximumf (F := Ideal) (φ := .f32)) (val_main_v37 (F := Ideal) x0 x1 x2 x3 x4) (val_main_cst_0 (F := Ideal))
    reducesTo_S4x8x2048x2048_S4x8x2048_d3 hR h_S_ (ix3 b h q)
  rw [key, val_main_cst_0_apply]
  unfold Cert.Spec.rmax Cert.Spec.ninf
  have hf : (val_main_v37 (F := Ideal) x0 x1 x2 x3 x4 ∘ hR.lift (ix3 b h q))
      = fun k : Fin 2048 => Cert.Spec.score (xm x0 b) (tm x1) (tm x2) (tm x3) (tm x4) h q k := funext fun k => by
    show val_main_v37 (F := Ideal) x0 x1 x2 x3 x4 (hR.lift (ix3 b h q) k) = _
    rw [lift_ix4, score_apply]
    rfl
  rw [hf]
  show max (Ideal.ofBits .f32 0xFF800000#32) (Finset.fold max (Ideal.ofBits .f32 0xFF800000#32) _ _) = _
  exact max_eq_right ((Finset.le_fold_max _).2 (Or.inl le_rfl))

/-- The unnormalised weight: the exponential of the score less the row maximum. -/
theorem pexp_apply (x0 : (⟨S4x2048x1152, .f32⟩ : BufTy).Contents (Elt Ideal)) (x1 x2 : (⟨S2048x144, .f32⟩ : BufTy).Contents (Elt Ideal)) (x3 x4 : (⟨S1152x1152, .f32⟩ : BufTy).Contents (Elt Ideal)) (b : Fin 4) (h : Fin 8) (q k : Fin 2048) :
    val_main_v44 (F := Ideal) x0 x1 x2 x3 x4 (ix4 b h q k) = Cert.Spec.pexp (xm x0 b) (tm x1) (tm x2) (tm x3) (tm x4) h q k := by
  rw [val_main_v44_apply, val_main_v43_apply, val_main_v42_apply, val_main_v41_apply, score_apply]
  have e : idx_main_v41 (idx_main_v42 (ix4 b h q k)) = ix3 b h q := funext fun a => Fin.ext (by
    match a with | ⟨0, _⟩ => rfl | ⟨1, _⟩ => rfl | ⟨2, _⟩ => rfl)
  rw [e, rmax_apply]
  rfl

/-- The denominator: the zero literal plus the sum of the row's weights. -/
theorem den_apply (x0 : (⟨S4x2048x1152, .f32⟩ : BufTy).Contents (Elt Ideal)) (x1 x2 : (⟨S2048x144, .f32⟩ : BufTy).Contents (Elt Ideal)) (x3 x4 : (⟨S1152x1152, .f32⟩ : BufTy).Contents (Elt Ideal)) (b : Fin 4) (h : Fin 8) (q : Fin 2048) :
    val_main_v45 (F := Ideal) x0 x1 x2 x3 x4 (ix3 b h q) = Cert.Spec.den (xm x0 b) (tm x1) (tm x2) (tm x3) (tm x4) h q := by
  rw [val_main_v45_apply, val_main_cst_2_apply, Ideal.ofBits_def, Ideal.ofBits_zero_f32, zero_add]
  unfold Cert.Spec.den
  refine Finset.sum_congr rfl fun k _ => ?_
  have e : idx_main_v45 (ix3 b h q) k = ix4 b h q k := funext fun a => Fin.ext (by
    match a with | ⟨0, _⟩ => rfl | ⟨1, _⟩ => rfl | ⟨2, _⟩ => rfl | ⟨3, _⟩ => rfl)
  rw [e, pexp_apply]

/-- The normalised weight: each weight divided by the row's denominator. -/
theorem wgt_apply (x0 : (⟨S4x2048x1152, .f32⟩ : BufTy).Contents (Elt Ideal)) (x1 x2 : (⟨S2048x144, .f32⟩ : BufTy).Contents (Elt Ideal)) (x3 x4 : (⟨S1152x1152, .f32⟩ : BufTy).Contents (Elt Ideal)) (b : Fin 4) (h : Fin 8) (q k : Fin 2048) :
    val_main_v48 (F := Ideal) x0 x1 x2 x3 x4 (ix4 b h q k)
      = Ideal.div (Cert.Spec.pexp (xm x0 b) (tm x1) (tm x2) (tm x3) (tm x4) h q k) (Cert.Spec.den (xm x0 b) (tm x1) (tm x2) (tm x3) (tm x4) h q) := by
  rw [val_main_v48_apply, val_main_v47_apply, val_main_v46_apply, pexp_apply]
  have e : idx_main_v46 (idx_main_v47 (ix4 b h q k)) = ix3 b h q := funext fun a => Fin.ext (by
    match a with | ⟨0, _⟩ => rfl | ⟨1, _⟩ => rfl | ⟨2, _⟩ => rfl)
  rw [e, den_apply]
  rfl

/-- The head's output: the normalised weights against the value rows. -/
theorem att_apply (x0 : (⟨S4x2048x1152, .f32⟩ : BufTy).Contents (Elt Ideal)) (x1 x2 : (⟨S2048x144, .f32⟩ : BufTy).Contents (Elt Ideal)) (x3 x4 : (⟨S1152x1152, .f32⟩ : BufTy).Contents (Elt Ideal)) (x5 : (⟨S1152x1152, .f32⟩ : BufTy).Contents (Elt Ideal)) (b : Fin 4) (h : Fin 8) (q : Fin 2048) (j : Fin 144) :
    val_main_v49 (F := Ideal) x0 x1 x2 x3 x4 x5 (ix4 b h q j)
      = Cert.Spec.attR (xm x0 b) (tm x1) (tm x2) (tm x3) (tm x4) (tm x5) h q j := by
  rw [val_main_v49_apply]
  unfold Cert.Spec.attR Cert.Spec.vv
  refine Finset.sum_congr rfl fun k _ => ?_
  have el : lidx_main_v49 (ix4 b h q j) k = ix4 b h q k := funext fun a => Fin.ext (by
    match a with | ⟨0, _⟩ => rfl | ⟨1, _⟩ => rfl | ⟨2, _⟩ => rfl | ⟨3, _⟩ => rfl)
  have er : ridx_main_v49 (ix4 b h q j) k = ix4 b h k j := funext fun a => Fin.ext (by
    match a with | ⟨0, _⟩ => rfl | ⟨1, _⟩ => rfl | ⟨2, _⟩ => rfl | ⟨3, _⟩ => rfl)
  rw [el, er, wgt_apply, headsV_apply]

/-- The heads joined back: column d of row q is lane d mod 144 of head d / 144. -/
theorem join_apply (x0 : (⟨S4x2048x1152, .f32⟩ : BufTy).Contents (Elt Ideal)) (x1 x2 : (⟨S2048x144, .f32⟩ : BufTy).Contents (Elt Ideal)) (x3 x4 : (⟨S1152x1152, .f32⟩ : BufTy).Contents (Elt Ideal)) (x5 : (⟨S1152x1152, .f32⟩ : BufTy).Contents (Elt Ideal)) (b : Fin 4) (q : Fin 2048) (d : Fin 1152) :
    val_main_v51 (F := Ideal) x0 x1 x2 x3 x4 x5 (ix3 b q d)
      = Cert.Spec.attR (xm x0 b) (tm x1) (tm x2) (tm x3) (tm x4) (tm x5) ⟨d.val / 144, by have := d.isLt; omega⟩ q ⟨d.val % 144, Nat.mod_lt _ (by decide)⟩ := by
  rw [val_main_v51_apply, val_main_v50_apply, ← att_apply]
  refine congrArg (val_main_v49 (F := Ideal) x0 x1 x2 x3 x4 x5) (funext fun a => Fin.ext ?_)
  have hb := b.isLt; have hq := q.isLt; have hd := d.isLt
  match a with
  | ⟨0, _⟩ => show ((b.val * 2048 + q.val) * 1152 + d.val) / 2359296 = b.val; omega
  | ⟨1, _⟩ => show ((b.val * 2048 + q.val) * 1152 + d.val) / 144 % 8 = d.val / 144; omega
  | ⟨2, _⟩ => show ((b.val * 2048 + q.val) * 1152 + d.val) / 1152 % 2048 = q.val; omega
  | ⟨3, _⟩ => show ((b.val * 2048 + q.val) * 1152 + d.val) % 144 = d.val % 144; omega

/-- THE REFERENCE'S RESULT AT AN INDEX is the specification's output projection of the joined heads. -/
theorem result_apply
    (x0 : (⟨S4x2048x1152, .f32⟩ : BufTy).Contents (Elt Ideal)) (x1 x2 : (⟨S2048x144, .f32⟩ : BufTy).Contents (Elt Ideal))
    (x3 x4 x5 x6 : (⟨S1152x1152, .f32⟩ : BufTy).Contents (Elt Ideal)) (b : Fin 4) (q : Fin 2048) (e : Fin 1152) :
    val_main_v52 x0 x1 x2 x3 x4 x5 x6 (ix3 b q e)
      = Cert.Spec.outR (fun t d => x0 (ix3 b t d)) (fun t j => x1 (ix2 t j)) (fun t j => x2 (ix2 t j))
          (fun r d => x3 (ix2 r d)) (fun r d => x4 (ix2 r d)) (fun r d => x5 (ix2 r d)) (fun r d => x6 (ix2 r d)) q e := by
  rw [val_main_v52_apply]
  unfold Cert.Spec.outR
  refine Finset.sum_congr rfl fun k _ => ?_
  have el : lidx_main_v52 (ix3 b q e) k = ix3 b q k := funext fun a => Fin.ext (by
    match a with | ⟨0, _⟩ => rfl | ⟨1, _⟩ => rfl | ⟨2, _⟩ => rfl)
  have er : ridx_main_v52 (ix3 b q e) k = ix2 e k := funext fun a => Fin.ext (by
    match a with | ⟨0, _⟩ => rfl | ⟨1, _⟩ => rfl)
  rw [el, er, join_apply]

end Cert.ReferenceIdeal.RefValue

end
-- ==== Proof.RealClosed.lean ====
/-
  Extended reals that are real numbers: the values every stage of the attention computation takes when the
  inputs are finite.  `IsR a` says `a` is the image of a real; sums, products, differences, negations and
  finite sums of such values are again such values.
-/
import Mathlib.Data.EReal.Operations
import Mathlib.Algebra.BigOperators.Fin

namespace Cert.RealClosed

open scoped BigOperators

/-- `a` is a real number inside the extended reals. -/
def IsR (a : EReal) : Prop := ∃ r : ℝ, a = (r : EReal)

theorem IsR.coe (r : ℝ) : IsR (r : EReal) := ⟨r, rfl⟩
theorem IsR.zero : IsR (0 : EReal) := ⟨0, rfl⟩
theorem IsR.add {a b : EReal} (ha : IsR a) (hb : IsR b) : IsR (a + b) := by
  obtain ⟨x, rfl⟩ := ha; obtain ⟨y, rfl⟩ := hb; exact ⟨x + y, (EReal.coe_add x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.neg {a : EReal} (ha : IsR a) : IsR (-a) := by
  obtain ⟨x, rfl⟩ := ha; exact ⟨-x, (EReal.coe_neg x).symm⟩
theorem IsR.sub {a b : EReal} (ha : IsR a) (hb : IsR b) : IsR (a - b) := by
  obtain ⟨x, rfl⟩ := ha; obtain ⟨y, rfl⟩ := hb; exact ⟨x - y, (EReal.coe_sub x y).symm⟩
theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

end Cert.RealClosed
-- ==== Proof.LibBlockSum.lean ====
/-
  A sum over the first `N·B` naturals taken block by block, `B` consecutive terms at a time: the bookkeeping
  step between a column sum over all rows of an array and the same sum accumulated over consecutive row blocks
  of equal height. Stated for any additive commutative monoid (so for the extended reals as well), over a summand
  defined on every natural so that no bound proofs enter the statement; the `Fin` forms read the summand at the
  values of the indices.
-/
import Mathlib.Algebra.BigOperators.Fin
import Mathlib.Algebra.BigOperators.Intervals

open scoped BigOperators

namespace Cert.LibBlockSum

variable {β : Type*} [AddCommMonoid β]

/-- The first `(N + 1)·B` terms are the first `N·B` terms and then the `B` terms of block `N`. -/
theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

/-- The first `N·B` terms, block by block: block `s` holds the terms `B·s … B·s + B − 1`. -/
theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

/-- The same with both index sets as `Fin` types: a sum over `Fin M`, `M = B·N`, is the sum over the `N` blocks
    of the sum over the `B` positions inside a block. -/
theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

/-- The partial form an induction over the blocks uses: the terms below `B·(n + 1)` are those below `B·n` and
    block `n`'s, the block's as a `Fin` sum. -/
theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

/-- AN ACCUMULATOR OVER THE BLOCKS. A quantity that is zero plus block 0's sum at step 0 and at each later step adds
    the next block's sum to what it was, is after step `n` the sum of all the terms below the end of block `n`
    (the bound proofs of the steps are threaded, as a recursion over the points of a grid carries them). -/
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

/-- … so after the step whose block ends at `M` it is the whole sum over `Fin M`. -/
theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.Algebra.lean ====
/-
  The kernel's and the reference's attention output agree entry by entry over the extended reals.

  Two things differ between them.  The kernel divides the finished weighted sum of the value rows by the
  denominator, the reference divides each weight first; and the kernel adds the eight heads' shares of the
  output projection one after the other onto zero, where the reference takes one sum over all 1152 columns.
  The first is an identity once the denominator is a positive real (division is then multiplication by a
  nonnegative finite constant, which distributes over any finite sum of extended reals); the second is the
  regrouping of a finite sum into consecutive blocks.  The denominator is a positive real because every stage
  up to the scores keeps real values real, the row maximum of finitely many reals is a real, and the exponential
  of a real is a positive real.
-/
import proofs.«400258_j82703890252416_3_alg».proof.Proof.Spec
import proofs.«400258_j82703890252416_3_alg».proof.Proof.RealClosed
import proofs.«400258_j82703890252416_3_alg».proof.Proof.LibBlockSum
import Mathlib.Data.EReal.Operations
import Mathlib.Algebra.BigOperators.Fin
import Mathlib.Analysis.SpecialFunctions.Exp

namespace Cert.Algebra

open Idealize.ShloMosaic
open Cert.Spec Cert.RealClosed
open scoped BigOperators

/-! ### Finite sums against a nonnegative finite constant -/

/-- Multiplication by a nonnegative real distributes over a finite sum of extended reals, whatever the terms. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- Dividing a weighted sum by a positive real is the weighted sum with each weight divided. -/
theorem div_sum_eq_sum_div {ι : Type*} (s : Finset ι) (p v : ι → EReal) {r : ℝ} (hr : 0 < r) :
    Ideal.div (∑ k ∈ s, p k * v k) (r : EReal) = ∑ k ∈ s, Ideal.div (p k) (r : EReal) * v k := by
  rw [Ideal.div_coe hr.ne', sum_mul_coe s _ (by positivity : (0 : ℝ) ≤ 1 / r)]
  refine Finset.sum_congr rfl fun k _ => ?_
  rw [Ideal.div_coe hr.ne', mul_right_comm]

/-! ### Real values -/

/-- The larger of two reals is a real. -/
theorem isR_max {a b : EReal} (ha : IsR a) (hb : IsR b) : IsR (max a b) := by
  rcases max_choice a b with h | h <;> rw [h] <;> assumption

/-- The maximum of a nonempty finite family of reals, folded from minus infinity, is a real. -/
theorem isR_fold_max_bot {ι : Type*} (s : Finset ι) (f : ι → EReal) (h : ∀ i ∈ s, IsR (f i)) :
    s.Nonempty → IsR (s.fold max ⊥ f) := by
  classical
  induction s using Finset.induction_on with
  | empty => intro hne; exact absurd hne Finset.not_nonempty_empty
  | insert a s ha ih =>
    intro _
    rw [Finset.fold_insert ha]
    rcases s.eq_empty_or_nonempty with rfl | hs
    · rw [Finset.fold_empty, max_bot_right]; exact h a (Finset.mem_insert_self a _)
    · exact isR_max (h a (Finset.mem_insert_self a s))
        (ih (fun i hi => h i (Finset.mem_insert_of_mem hi)) hs)

/-- A positive real inside the extended reals. -/
def IsPos (a : EReal) : Prop := ∃ r : ℝ, 0 < r ∧ a = (r : EReal)

/-- The exponential of a real is a positive real. -/
theorem isPos_exp {a : EReal} (ha : IsR a) : IsPos (Ideal.exp a) := by
  obtain ⟨r, rfl⟩ := ha
  exact ⟨Real.exp r, Real.exp_pos r, rfl⟩

/-- A sum of positive reals over a nonempty finite index set is a positive real. -/
theorem isPos_sum {ι : Type*} (s : Finset ι) (f : ι → EReal) (h : ∀ i ∈ s, IsPos (f i)) :
    s.Nonempty → IsPos (∑ i ∈ s, f i) := by
  classical
  induction s using Finset.induction_on with
  | empty => intro hne; exact absurd hne Finset.not_nonempty_empty
  | insert a s ha ih =>
    intro _
    rw [Finset.sum_insert ha]
    obtain ⟨x, hx, hxa⟩ := h a (Finset.mem_insert_self a s)
    rcases s.eq_empty_or_nonempty with rfl | hs
    · exact ⟨x, hx, by rw [Finset.sum_empty, add_zero, hxa]⟩
    · obtain ⟨y, hy, hys⟩ := ih (fun i hi => h i (Finset.mem_insert_of_mem hi)) hs
      exact ⟨x + y, add_pos hx hy, by rw [hxa, hys, EReal.coe_add]⟩

/-- The score scale is a real. -/
theorem isR_scale : IsR scale := by
  unfold scale
  simp [Ideal.ofBits, Ideal.ieee]
  exact ⟨_, rfl⟩

/-- The literal the row maximum starts from is minus infinity. -/
theorem ninf_eq_bot : ninf = ⊥ := by
  simp [ninf, Ideal.ofBits, Ideal.ieee]

/-! ### Every stage up to the denominator keeps real values real -/

section Stages
variable (x : Mat 2048 1152) (cs sn : Mat 2048 144) (Wq Wk Wv Wo : Mat 1152 1152)

/-- A projection of real rows against real weights is real. -/
theorem isR_proj {W : Mat 1152 1152} (hx : ∀ t d, IsR (x t d)) (hW : ∀ e d, IsR (W e d))
    (t : Fin 2048) (e : Fin 1152) : IsR (proj x W t e) :=
  IsR.sum _ _ fun d _ => (hx t d).mul (hW e d)

/-- The half-rotation only moves and negates entries. -/
theorem isR_rot {P : Fin 144 → EReal} (hP : ∀ j, IsR (P j)) (j : Fin 144) : IsR (rot P j) := by
  unfold rot
  split
  · exact (hP _).neg
  · exact hP _

/-- The rotary embedding of a real array against real tables is real. -/
theorem isR_rope {P : Mat 2048 1152} (hP : ∀ t e, IsR (P t e)) (hcs : ∀ t j, IsR (cs t j))
    (hsn : ∀ t j, IsR (sn t j)) (t : Fin 2048) (h : Fin 8) (j : Fin 144) : IsR (rope P cs sn t h j) :=
  ((hP t _).mul (hcs t j)).add ((isR_rot (fun j' => hP t (col h j')) j).mul (hsn t j))

variable (hx : ∀ t d, IsR (x t d)) (hcs : ∀ t j, IsR (cs t j)) (hsn : ∀ t j, IsR (sn t j))
  (hq : ∀ e d, IsR (Wq e d)) (hk : ∀ e d, IsR (Wk e d))
include hx hcs hsn hq hk

/-- Every scaled score is a real. -/
theorem isR_score (h : Fin 8) (q k : Fin 2048) : IsR (score x cs sn Wq Wk h q k) :=
  (IsR.sum _ _ fun j _ =>
    (isR_rope cs sn (isR_proj x hx hq) hcs hsn q h j).mul (isR_rope cs sn (isR_proj x hx hk) hcs hsn k h j)).mul
    isR_scale

/-- The row maximum of the 2048 scores is a real. -/
theorem isR_rmax (h : Fin 8) (q : Fin 2048) : IsR (rmax x cs sn Wq Wk h q) := by
  unfold rmax
  rw [ninf_eq_bot]
  exact isR_fold_max_bot _ _ (fun k _ => isR_score x cs sn Wq Wk hx hcs hsn hq hk h q k) ⟨q, Finset.mem_univ q⟩

/-- Every unnormalised weight is a positive real. -/
theorem isPos_pexp (h : Fin 8) (q k : Fin 2048) : IsPos (pexp x cs sn Wq Wk h q k) :=
  isPos_exp ((isR_score x cs sn Wq Wk hx hcs hsn hq hk h q k).sub (isR_rmax x cs sn Wq Wk hx hcs hsn hq hk h q))

/-- The denominator is a positive real. -/
theorem den_pos_real (h : Fin 8) (q : Fin 2048) : ∃ r : ℝ, 0 < r ∧ den x cs sn Wq Wk h q = (r : EReal) :=
  isPos_sum _ _ (fun k _ => isPos_pexp x cs sn Wq Wk hx hcs hsn hq hk h q k) ⟨q, Finset.mem_univ q⟩

/-- Dividing the finished sum and dividing each weight give the same head output. -/
theorem attK_eq_attR (h : Fin 8) (q : Fin 2048) (j : Fin 144) :
    attK x cs sn Wq Wk Wv h q j = attR x cs sn Wq Wk Wv h q j := by
  obtain ⟨r, hr, hd⟩ := den_pos_real x cs sn Wq Wk hx hcs hsn hq hk h q
  unfold attK attR
  rw [hd]
  exact div_sum_eq_sum_div _ _ _ hr

end Stages

/-! ### The output projection, head by head and all at once -/

section Blocks
variable (x : Mat 2048 1152) (cs sn : Mat 2048 144) (Wq Wk Wv Wo : Mat 1152 1152)

/-- The reference's summand at a natural-number column index (zero past the last column). -/
noncomputable def termR (q : Fin 2048) (e : Fin 1152) (i : ℕ) : EReal :=
  if h : i < 1152 then
    attR x cs sn Wq Wk Wv ⟨i / 144, by omega⟩ q ⟨i % 144, Nat.mod_lt _ (by decide)⟩ * Wo e ⟨i, h⟩
  else 0

/-- The reference's result entry is the sum of these summands over the 1152 columns. -/
theorem outR_eq_sum_termR (q : Fin 2048) (e : Fin 1152) :
    outR x cs sn Wq Wk Wv Wo q e = ∑ d : Fin 1152, termR x cs sn Wq Wk Wv Wo q e d.val := by
  unfold outR
  refine Finset.sum_congr rfl fun d _ => ?_
  unfold termR
  rw [dif_pos d.isLt]

/-- Column `144·h + j` is lane `j` of head `h`. -/
theorem termR_block (q : Fin 2048) (e : Fin 1152) (h : Fin 8) (j : Fin 144) :
    termR x cs sn Wq Wk Wv Wo q e (144 * h.val + j.val)
      = attR x cs sn Wq Wk Wv h q j * Wo e (col h j) := by
  have hlt : 144 * h.val + j.val < 1152 := by have := h.isLt; have := j.isLt; omega
  have e1 : (⟨(144 * h.val + j.val) / 144, by omega⟩ : Fin 8) = h :=
    Fin.ext (by show (144 * h.val + j.val) / 144 = h.val; have := j.isLt; omega)
  have e2 : (⟨(144 * h.val + j.val) % 144, Nat.mod_lt _ (by decide)⟩ : Fin 144) = j :=
    Fin.ext (by show (144 * h.val + j.val) % 144 = j.val; have := j.isLt; omega)
  have e3 : (⟨144 * h.val + j.val, hlt⟩ : Fin 1152) = col h j :=
    Fin.ext (by show 144 * h.val + j.val = h.val * 144 + j.val; omega)
  unfold termR
  rw [dif_pos hlt, e1, e2, e3]

end Blocks

section Main
variable (x : Mat 2048 1152) (cs sn : Mat 2048 144) (Wq Wk Wv Wo : Mat 1152 1152)
  (hx : ∀ t d, IsR (x t d)) (hcs : ∀ t j, IsR (cs t j)) (hsn : ∀ t j, IsR (sn t j))
  (hq : ∀ e d, IsR (Wq e d)) (hk : ∀ e d, IsR (Wk e d))
include hx hcs hsn hq hk

/-- One head's share of the kernel's output projection is block `h` of the reference's summands. -/
theorem yK_eq_block (h : Fin 8) (q : Fin 2048) (e : Fin 1152) :
    yK x cs sn Wq Wk Wv Wo h q e = ∑ k : Fin 144, termR x cs sn Wq Wk Wv Wo q e (144 * h.val + k.val) := by
  unfold yK
  exact Finset.sum_congr rfl fun j _ => by
    rw [attK_eq_attR x cs sn Wq Wk Wv hx hcs hsn hq hk h q j, termR_block]

end Main

/-- The kernel's result entry is the reference's: the eight heads' shares, added in order onto zero, are the eight
    consecutive blocks of 144 of the one sum over the 1152 columns. -/
theorem outK_eq_outR (x : Mat 2048 1152) (cs sn : Mat 2048 144) (Wq Wk Wv Wo : Mat 1152 1152)
    (hx : ∀ t d, IsR (x t d)) (hcs : ∀ t j, IsR (cs t j)) (hsn : ∀ t j, IsR (sn t j))
    (hq : ∀ e d, IsR (Wq e d)) (hk : ∀ e d, IsR (Wk e d)) (hv : ∀ e d, IsR (Wv e d))
    (q : Fin 2048) (e : Fin 1152) :
    outK x cs sn Wq Wk Wv Wo q e = outR x cs sn Wq Wk Wv Wo q e := by
  have hy := yK_eq_block x cs sn Wq Wk Wv Wo hx hcs hsn hq hk
  rw [outR_eq_sum_termR,
    LibBlockSum.sum_fin_blocks (termR x cs sn Wq Wk Wv Wo q e) (B := 144) (N := 8) (by norm_num)]
  simp only [Finset.sum_range_succ, Finset.sum_range_zero]
  unfold outK
  rw [hy 0, hy 1, hy 2, hy 3, hy 4, hy 5, hy 6, hy 7]
  rfl

end Cert.Algebra
-- ==== Proof.Finite.lean ====
/-
  Finite inputs are real numbers.  The precondition says, for each of the seven float arrays, that every entry x
  satisfies |x| < +∞, the seven tests joined by "and".  In the extended reals |x| is max x (-x) and +∞ is the top
  element, so max x (-x) < ⊤ excludes both ⊤ (where max ⊤ (-⊤) = ⊤) and ⊥ (where -⊥ = ⊤): what is left is the
  image of a real number.  A conjunction over all entries of an array that comes out 1 had a 1 at every entry, so
  the fact holds entrywise for each of the seven arrays.
-/
import proofs.«400258_j82703890252416_3_alg».proof.Pre_finite_inputs
import proofs.«400258_j82703890252416_3_alg».proof.Proof.Gen.Pre_finite_inputs
import proofs.«400258_j82703890252416_3_alg».proof.Proof.RealClosed
import Idealize.ShloMosaic.PureOps.Ideal
import Idealize.ShloMosaic.Lib.ReduceAll
import Idealize.ShloMosaic.Lib.ValueIdx

namespace Cert.Finite

open Cert.Pre_finite_inputs Cert.RealClosed Idealize.ShloMosaic

/-- The 32-bit pattern with all exponent bits set and a zero significand denotes the top element +∞. -/
theorem inf_eq_top : Ideal.ofBits .f32 0x7F800000#32 = (⊤ : EReal) := by
  simp [Ideal.ofBits, Ideal.ieee]

/-- An extended real whose absolute value max x (-x) lies below ⊤ is a real number:
    at ⊥ the negation is ⊤, at ⊤ the value itself is ⊤, and neither is below ⊤. -/
theorem isR_of_abs_lt_top (x : EReal) (h : max x (-x) < ⊤) : IsR x := by
  induction x using EReal.rec with
  | bot => simp at h
  | top => simp at h
  | coe r => exact ⟨r, rfl⟩

/-- The comparison |x| < +∞ coming out 1 says max x (-x) < ⊤, hence x is real. -/
theorem isR_of_cmp (x : EReal)
    (h : Ideal.cmp .olt (max x (-x)) (Ideal.ofBits .f32 0x7F800000#32) = 1#1) : IsR x := by
  rw [inf_eq_top] at h
  refine isR_of_abs_lt_top x ?_
  by_contra hn
  simp [Ideal.cmp, hn] at h

/-- The shape with no axes has exactly one index. -/
local instance : Subsingleton S_.Idx := ⟨fun a b => funext fun d => d.elim0⟩

/-- For an array of any shape: if the conjunction over all entries of the test |x i| < +∞ is 1,
    every entry is a real number.  The broadcast of the scalar +∞ reads the same scalar at every index. -/
theorem isR_of_all {s : Shape} {axes : List (Fin s.rank)} {dims : Fin S_.rank → Fin s.rank}
    (x : FVec Ideal s .f32) (hb : S_.BroadcastsInDim s dims) (hr : s.ReducesTo axes S_) (hu : 0 < S_.numel)
    (init : IVec S_ 1)
    (e : Host.reduce IntOp.andi (cmpf .olt (Host.absf x) (broadcastInDim s dims hb (constant S_ .f32 0x7F800000#32)))
      init hr hu ValueIdx.ix0 = 1#1) (i : s.Idx) : IsR (x i) := by
  have h := Host.reduce_andi_all _ init hr hu ValueIdx.ix0 e i
  exact isR_of_cmp (x i) h

/-- Under the precondition every entry of each of the seven inputs is a real number: the precondition's value
    at its one index is a six-fold "and" of seven whole-array conjunctions, each of which is therefore 1. -/
theorem isR_of_pre (a0 : FVec Ideal S4x2048x1152 .f32) (a1 a2 : FVec Ideal S2048x144 .f32)
    (a3 a4 a5 a6 : FVec Ideal S1152x1152 .f32)
    (h : Cert.Pre_finite_inputs.fn (F := Ideal) a0 a1 a2 a3 a4 a5 a6 = fun _ => 1#1) :
    (∀ i, IsR (a0 i)) ∧ (∀ i, IsR (a1 i)) ∧ (∀ i, IsR (a2 i)) ∧ (∀ i, IsR (a3 i)) ∧ (∀ i, IsR (a4 i))
      ∧ (∀ i, IsR (a5 i)) ∧ (∀ i, IsR (a6 i)) := by
  have h0 := congrFun h ValueIdx.ix0
  dsimp only [fn, fn_part1, Idealize.ShloMosaic.andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isR_of_all a0 _ _ _ _ e0, isR_of_all a1 _ _ _ _ e1, isR_of_all a2 _ _ _ _ e2,
    isR_of_all a3 _ _ _ _ e3, isR_of_all a4 _ _ _ _ e4, isR_of_all a5 _ _ _ _ e5, isR_of_all a6 _ _ _ _ e6⟩

end Cert.Finite
-- ==== Proof.VSpec.lean ====
/-
  The attention part of the kernel body as ONE function of the tiles it loads, written over vectors.

  A grid point's body, after the keys and values of the batch are in the two carried buffers, loads a
  128-row tile of the activations, the query weights, the tile's rows of the cosine and sine tables and, per
  head, the head's 144-column strip of the key buffer, of the value buffer and of the output weights.  From
  these it forms: the tile's query projection (`qAll`); per head the rotary embedding of the head's 144
  columns (`ropeV`: the columns times the cosines plus the half-rotated columns times the sines); the head's
  scores against all 2048 keys times the scale, their row maxima, the exponentials of the differences, the row
  sums, the weighted sum of the value rows divided by the row sum, and that head's share of the output
  projection (`headV`); and the eight shares added in order onto a zero tile (`outV`).
  `out_B_eq` and `out_A_eq` say that what a grid point leaves in the output's staging buffer is `outV` of
  the loaded tiles: in the points that do not refill the key and value buffers the strips are read from what the
  point before left there; in the points that refill them, from what the same body has just stored.
-/
import proofs.«400258_j82703890252416_3_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.VSpec

open Cert.KernelIdeal Cert.KernelIdeal.Gen

variable {F : FTy → Type} [FloatOps F]

/-- The query projection of a 128-row tile: the tile against every row of the query weights. -/
def qAll (xt : Vec F S1x128x1152 .f32) (wq : Vec F S1152x1152 .bf16) : FVec F S128x1152 .f32 :=
  matmul dot_S128x1152_S1152x1152_S128x1152_1_1_0_0_n_n none
    (truncf .bf16 (shapeCast S128x1152 xt shapeCasts_S1x128x1152_S128x1152) bitsLt_bf16_f32)
    (shapeCast S1152x1152 wq shapeCasts_S1152x1152_S1152x1152) (constant S128x1152 .f32 0x00000000#32)

/-- The rotary embedding of one head's 144 columns of a 128-row tile. -/
def ropeV (P : FVec F S128x144 .f32) (ct st : Vec F S128x144 .f32) : FVec F S128x144 .f32 :=
  addf (mulf P ct)
    (mulf (concatenate S128x144 1
      [⟨S128x72, subf (broadcast S128x72 (Scalar.ofBits .f32 0x00000000#32))
          (extractStridedSlice S128x72 ![0, 72] P slices_S128x144_o0_72_S128x72)⟩,
       ⟨S128x72, extractStridedSlice S128x72 ![0, 0] P slices_S128x144_o0_0_S128x72⟩]
      concatenates_S128x72_S128x72_S128x144_d1) st)

/-- The scaled scores of a head's rotated queries against the head's key strip. -/
def scoreV (qh : FVec F S128x144 .f32) (kh : Vec F S2048x144 .bf16) : FVec F S128x2048 .f32 :=
  mulf (matmul dot_S128x144_S2048x144_S128x2048_1_1_0_0_n_n none (truncf .bf16 qh bitsLt_bf16_f32) kh
      (constant S128x2048 .f32 0x00000000#32))
    (broadcast S128x2048 (Scalar.ofBits .f32 0x3DAAAAAB#32))

/-- The unnormalised weights: the exponential of each score less its row's maximum. -/
def pexpV (s : FVec F S128x2048 .f32) : FVec F S128x2048 .f32 :=
  exp (subf s (broadcastTo S128x2048
    (shapeCast S128x1 (multiReduction .maximumf [1] S128 s 0xFF800000#32 reduces_S128x2048_S128 (.inl rfl) rfl)
      shapeCasts_S128_S128x1) broadcasts_S128x1_S128x2048))

/-- The head's output: the weights against the value strip, divided by the weights' row sums. -/
def attV (p : FVec F S128x2048 .f32) (vh : Vec F S2048x144 .bf16) : FVec F S128x144 .f32 :=
  divf (matmul dot_S128x2048_S2048x144_S128x144_1_0_0_1_n_n none (truncf .bf16 p bitsLt_bf16_f32) vh
      (constant S128x144 .f32 0x00000000#32))
    (broadcastTo S128x144
      (shapeCast S128x1 (multiReduction .add [1] S128 p 0x00000000#32 reduces_S128x2048_S128 (.inl rfl) rfl)
        shapeCasts_S128_S128x1) broadcasts_S128x1_S128x144)

/-- One head's share of the output projection. -/
def headV (qh : FVec F S128x144 .f32) (kh vh : Vec F S2048x144 .bf16) (wh : Vec F S1152x144 .bf16) :
    FVec F S128x1152 .f32 :=
  matmul dot_S128x144_S1152x144_S128x1152_1_1_0_0_n_n none
    (truncf .bf16 (attV (pexpV (scoreV qh kh)) vh) bitsLt_bf16_f32)
    (shapeCast S1152x144 wh shapeCasts_S1152x144_S1152x144) (constant S128x1152 .f32 0x00000000#32)

/-- The tile of the result: the eight heads' shares added in order onto a zero tile. -/
def outV (xt : Vec F S1x128x1152 .f32) (wq : Vec F S1152x1152 .bf16) (ct st : Vec F S128x144 .f32)
    (k0 v0 : Vec F S2048x144 .bf16) (w0 : Vec F S1152x144 .bf16) (k1 v1 : Vec F S2048x144 .bf16) (w1 : Vec F S1152x144 .bf16) (k2 v2 : Vec F S2048x144 .bf16) (w2 : Vec F S1152x144 .bf16) (k3 v3 : Vec F S2048x144 .bf16) (w3 : Vec F S1152x144 .bf16) (k4 v4 : Vec F S2048x144 .bf16) (w4 : Vec F S1152x144 .bf16) (k5 v5 : Vec F S2048x144 .bf16) (w5 : Vec F S1152x144 .bf16) (k6 v6 : Vec F S2048x144 .bf16) (w6 : Vec F S1152x144 .bf16) (k7 v7 : Vec F S2048x144 .bf16) (w7 : Vec F S1152x144 .bf16) : FVec F S1x128x1152 .f32 :=
  shapeCast S1x128x1152
    (addf (addf (addf (addf (addf (addf (addf (addf (broadcast S128x1152 (Scalar.ofBits .f32 0x00000000#32))
      (headV (ropeV (extractStridedSlice S128x144 ![0, 0] (qAll xt wq) slices_S128x1152_o0_0_S128x144) ct st) k0 v0 w0))
      (headV (ropeV (extractStridedSlice S128x144 ![0, 144] (qAll xt wq) slices_S128x1152_o0_144_S128x144) ct st) k1 v1 w1))
      (headV (ropeV (extractStridedSlice S128x144 ![0, 288] (qAll xt wq) slices_S128x1152_o0_288_S128x144) ct st) k2 v2 w2))
      (headV (ropeV (extractStridedSlice S128x144 ![0, 432] (qAll xt wq) slices_S128x1152_o0_432_S128x144) ct st) k3 v3 w3))
      (headV (ropeV (extractStridedSlice S128x144 ![0, 576] (qAll xt wq) slices_S128x1152_o0_576_S128x144) ct st) k4 v4 w4))
      (headV (ropeV (extractStridedSlice S128x144 ![0, 720] (qAll xt wq) slices_S128x1152_o0_720_S128x144) ct st) k5 v5 w5))
      (headV (ropeV (extractStridedSlice S128x144 ![0, 864] (qAll xt wq) slices_S128x1152_o0_864_S128x144) ct st) k6 v6 w6))
      (headV (ropeV (extractStridedSlice S128x144 ![0, 1008] (qAll xt wq) slices_S128x1152_o0_1008_S128x144) ct st) k7 v7 w7))
    shapeCasts_S128x1152_S1x128x1152

/-- `outV` of the tiles a grid point loads, the key and value strips read from buffers holding `xs0`, `xs1`. -/
def outAt (i : grid0.Coords) (x0 : Vec F S1x2048x1152 .f32) (x1 x4 : Vec F S1152x1152 .bf16) (x5 x6 : Vec F S2048x144 .f32)
    (xs0 xs1 : Vec F S2048x1152 .bf16) : FVec F S1x128x1152 .f32 :=
  outV (View.ld x0 (Rect.unit (k0_off1 i) S1x128x1152.size (k0_off1_inb i)))
    (View.ld x1 (Rect.unit ![0, 0] S1152x1152.size inb_S1152x1152_S1152x1152_0_0))
    (View.ld x5 (Rect.unit (k0_off2 i) S128x144.size (k0_off2_inb i)))
    (View.ld x6 (Rect.unit (k0_off2 i) S128x144.size (k0_off2_inb i)))
    (View.ld xs0 (Rect.unit ![0, 0] S2048x144.size inb_S2048x1152_S2048x144_0_0)) (View.ld xs1 (Rect.unit ![0, 0] S2048x144.size inb_S2048x1152_S2048x144_0_0)) (View.ld x4 (Rect.unit ![0, 0] S1152x144.size inb_S1152x1152_S1152x144_0_0))
    (View.ld xs0 (Rect.unit ![0, 144] S2048x144.size inb_S2048x1152_S2048x144_0_144)) (View.ld xs1 (Rect.unit ![0, 144] S2048x144.size inb_S2048x1152_S2048x144_0_144)) (View.ld x4 (Rect.unit ![0, 144] S1152x144.size inb_S1152x1152_S1152x144_0_144))
    (View.ld xs0 (Rect.unit ![0, 288] S2048x144.size inb_S2048x1152_S2048x144_0_288)) (View.ld xs1 (Rect.unit ![0, 288] S2048x144.size inb_S2048x1152_S2048x144_0_288)) (View.ld x4 (Rect.unit ![0, 288] S1152x144.size inb_S1152x1152_S1152x144_0_288))
    (View.ld xs0 (Rect.unit ![0, 432] S2048x144.size inb_S2048x1152_S2048x144_0_432)) (View.ld xs1 (Rect.unit ![0, 432] S2048x144.size inb_S2048x1152_S2048x144_0_432)) (View.ld x4 (Rect.unit ![0, 432] S1152x144.size inb_S1152x1152_S1152x144_0_432))
    (View.ld xs0 (Rect.unit ![0, 576] S2048x144.size inb_S2048x1152_S2048x144_0_576)) (View.ld xs1 (Rect.unit ![0, 576] S2048x144.size inb_S2048x1152_S2048x144_0_576)) (View.ld x4 (Rect.unit ![0, 576] S1152x144.size inb_S1152x1152_S1152x144_0_576))
    (View.ld xs0 (Rect.unit ![0, 720] S2048x144.size inb_S2048x1152_S2048x144_0_720)) (View.ld xs1 (Rect.unit ![0, 720] S2048x144.size inb_S2048x1152_S2048x144_0_720)) (View.ld x4 (Rect.unit ![0, 720] S1152x144.size inb_S1152x1152_S1152x144_0_720))
    (View.ld xs0 (Rect.unit ![0, 864] S2048x144.size inb_S2048x1152_S2048x144_0_864)) (View.ld xs1 (Rect.unit ![0, 864] S2048x144.size inb_S2048x1152_S2048x144_0_864)) (View.ld x4 (Rect.unit ![0, 864] S1152x144.size inb_S1152x1152_S1152x144_0_864))
    (View.ld xs0 (Rect.unit ![0, 1008] S2048x144.size inb_S2048x1152_S2048x144_0_1008)) (View.ld xs1 (Rect.unit ![0, 1008] S2048x144.size inb_S2048x1152_S2048x144_0_1008)) (View.ld x4 (Rect.unit ![0, 1008] S1152x144.size inb_S1152x1152_S1152x144_0_1008))

theorem hz3 : (![0, 0, 0] : Fin 3 → Nat) = fun _ => 0 := funext fun a => by fin_cases a <;> rfl

/-- At a point that does not refill the key and value buffers, the output's staging buffer ends at `outAt` of the
    point's input blocks and of what the two buffers held. -/
theorem out_B_eq (c : Dev nD) (i : grid0.Coords) (arg2 : Memref sig .tc .vmem S1x2048x1152 .f32) (harg2 : arg2.IsWhole) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .bf16) (harg6 : arg6.IsWhole) (arg7 : Memref sig .tc .vmem S2048x144 .f32) (harg7 : arg7.IsWhole) (arg8 : Memref sig .tc .vmem S2048x144 .f32) (harg8 : arg8.IsWhole) (arg9 : Memref sig .tc .vmem S1x128x1152 .f32) (harg9 : arg9.IsWhole) (arg10 : Memref sig .tc .vmem S2048x1152 .bf16) (harg10 : arg10.IsWhole) (arg11 : Memref sig .tc .vmem S2048x1152 .bf16) (harg11 : arg11.IsWhole) (hc0 : ¬cond0_0 i) (x0 : Vec F S1x2048x1152 .f32) (x1 : Vec F S1152x1152 .bf16) (x2 : Vec F S1152x1152 .bf16) (x3 : Vec F S1152x1152 .bf16) (x4 : Vec F S1152x1152 .bf16) (x5 : Vec F S2048x144 .f32) (x6 : Vec F S2048x144 .f32) (xs0 xs1 : Vec F S2048x1152 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = outAt i x0 x1 x4 x5 x6 xs0 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero (S := S1x128x1152) hz3]
  simp only [View.readAt_eq_ld, harg2.read_unread, harg3.read_unread, harg6.read_unread, harg7.read_unread, harg8.read_unread, harg10.read_unread, harg11.read_unread]
  rfl

end Cert.KernelIdeal.VSpec

end
-- ==== Proof.VSpecA.lean ====
/-
  The points that refill the key and value buffers: the body stores the batch's rotated keys and its values into the
  two buffers and then, in the same run, reads each head's strips back.  A strip read back after the stores that
  cover the buffer is the strip of what those stores leave (`readBack0`, `readBack1`), so the output's staging
  buffer ends, here too, at `outAt` — of the point's input blocks and of what the body itself left in the buffers.
-/
import proofs.«400258_j82703890252416_3_alg».proof.Proof.VSpec

set_option maxRecDepth 16384

noncomputable section

open Idealize.ShloMosaic Idealize.ShloMosaic.TcCoe Idealize.SL.Sem
open Idealize.ShloMosaic.Pipeline (Dat)

namespace Cert.KernelIdeal.VSpec

open Cert.KernelIdeal Cert.KernelIdeal.Gen

variable {F : FTy → Type} [FloatOps F]

/-- A strip of the key buffer read after the stores that fill it is the strip of what they leave. -/
theorem readBack0 (c : Dev nD) (i : grid0.Coords) (arg2 : Memref sig .tc .vmem S1x2048x1152 .f32) (harg2 : arg2.IsWhole) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .bf16) (harg6 : arg6.IsWhole) (arg7 : Memref sig .tc .vmem S2048x144 .f32) (harg7 : arg7.IsWhole) (arg8 : Memref sig .tc .vmem S2048x144 .f32) (harg8 : arg8.IsWhole) (arg9 : Memref sig .tc .vmem S1x128x1152 .f32) (harg9 : arg9.IsWhole) (arg10 : Memref sig .tc .vmem S2048x1152 .bf16) (harg10 : arg10.IsWhole) (arg11 : Memref sig .tc .vmem S2048x1152 .bf16) (harg11 : arg11.IsWhole) (hc0 : cond0_0 i) (x0 : Vec F S1x2048x1152 .f32) (x1 : Vec F S1152x1152 .bf16) (x2 : Vec F S1152x1152 .bf16) (x3 : Vec F S1152x1152 .bf16) (x4 : Vec F S1152x1152 .bf16) (x5 : Vec F S2048x144 .f32) (x6 : Vec F S2048x144 .f32) (r : Rect S2048x1152) :
    arg10.view.readCov (kernelRun0_A c i arg2 harg2 arg3 harg3 arg4 harg4 arg5 harg5 arg6 harg6 arg7 harg7 arg8 harg8 arg9 harg9 arg10 harg10 arg11 harg11 hc0 x0 x1 x2 x3 x4 x5 x6).2.1 r.toLoadRect
      = View.ld (sout0_A_0 c i arg2 harg2 arg3 harg3 arg4 harg4 arg5 harg5 arg6 harg6 arg7 harg7 arg8 harg8 arg9 harg9 arg10 harg10 arg11 harg11 hc0 x0 x1 x2 x3 x4 x5 x6) r := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  exact View.readCov_eq_canon_ld _ _ _ (scover0_A_0 c i arg2 harg2 arg3 harg3 arg4 harg4 arg5 harg5 arg6 harg6 arg7 harg7 arg8 harg8 arg9 harg9 arg10 harg10 arg11 harg11 hc0 x0 x1 x2 x3 x4 x5 x6)

/-- The same for the value buffer. -/
theorem readBack1 (c : Dev nD) (i : grid0.Coords) (arg2 : Memref sig .tc .vmem S1x2048x1152 .f32) (harg2 : arg2.IsWhole) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .bf16) (harg6 : arg6.IsWhole) (arg7 : Memref sig .tc .vmem S2048x144 .f32) (harg7 : arg7.IsWhole) (arg8 : Memref sig .tc .vmem S2048x144 .f32) (harg8 : arg8.IsWhole) (arg9 : Memref sig .tc .vmem S1x128x1152 .f32) (harg9 : arg9.IsWhole) (arg10 : Memref sig .tc .vmem S2048x1152 .bf16) (harg10 : arg10.IsWhole) (arg11 : Memref sig .tc .vmem S2048x1152 .bf16) (harg11 : arg11.IsWhole) (hc0 : cond0_0 i) (x0 : Vec F S1x2048x1152 .f32) (x1 : Vec F S1152x1152 .bf16) (x2 : Vec F S1152x1152 .bf16) (x3 : Vec F S1152x1152 .bf16) (x4 : Vec F S1152x1152 .bf16) (x5 : Vec F S2048x144 .f32) (x6 : Vec F S2048x144 .f32) (r : Rect S2048x1152) :
    arg11.view.readCov (kernelRun0_A c i arg2 harg2 arg3 harg3 arg4 harg4 arg5 harg5 arg6 harg6 arg7 harg7 arg8 harg8 arg9 harg9 arg10 harg10 arg11 harg11 hc0 x0 x1 x2 x3 x4 x5 x6).2.2.1 r.toLoadRect
      = View.ld (sout0_A_1 c i arg2 harg2 arg3 harg3 arg4 harg4 arg5 harg5 arg6 harg6 arg7 harg7 arg8 harg8 arg9 harg9 arg10 harg10 arg11 harg11 hc0 x0 x1 x2 x3 x4 x5 x6) r := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  exact View.readCov_eq_canon_ld _ _ _ (scover0_A_1 c i arg2 harg2 arg3 harg3 arg4 harg4 arg5 harg5 arg6 harg6 arg7 harg7 arg8 harg8 arg9 harg9 arg10 harg10 arg11 harg11 hc0 x0 x1 x2 x3 x4 x5 x6)

/-- The output's staging buffer after a refilling point, the strips still as reads after the run's own stores. -/
theorem out_A_eq' (c : Dev nD) (i : grid0.Coords) (arg2 : Memref sig .tc .vmem S1x2048x1152 .f32) (harg2 : arg2.IsWhole) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .bf16) (harg6 : arg6.IsWhole) (arg7 : Memref sig .tc .vmem S2048x144 .f32) (harg7 : arg7.IsWhole) (arg8 : Memref sig .tc .vmem S2048x144 .f32) (harg8 : arg8.IsWhole) (arg9 : Memref sig .tc .vmem S1x128x1152 .f32) (harg9 : arg9.IsWhole) (arg10 : Memref sig .tc .vmem S2048x1152 .bf16) (harg10 : arg10.IsWhole) (arg11 : Memref sig .tc .vmem S2048x1152 .bf16) (harg11 : arg11.IsWhole) (hc0 : cond0_0 i) (x0 : Vec F S1x2048x1152 .f32) (x1 : Vec F S1152x1152 .bf16) (x2 : Vec F S1152x1152 .bf16) (x3 : Vec F S1152x1152 .bf16) (x4 : Vec F S1152x1152 .bf16) (x5 : Vec F S2048x144 .f32) (x6 : Vec F S2048x144 .f32) :
    out0_A_7 c i arg2 harg2 arg3 harg3 arg4 harg4 arg5 harg5 arg6 harg6 arg7 harg7 arg8 harg8 arg9 harg9 arg10 harg10 arg11 harg11 hc0 x0 x1 x2 x3 x4 x5 x6
    = outV (View.ld x0 (Rect.unit (k0_off1 i) S1x128x1152.size (k0_off1_inb i)))
      (View.ld x1 (Rect.unit ![0, 0] S1152x1152.size inb_S1152x1152_S1152x1152_0_0))
      (View.ld x5 (Rect.unit (k0_off2 i) S128x144.size (k0_off2_inb i)))
      (View.ld x6 (Rect.unit (k0_off2 i) S128x144.size (k0_off2_inb i)))
      (arg10.view.readCov (kernelRun0_A c i arg2 harg2 arg3 harg3 arg4 harg4 arg5 harg5 arg6 harg6 arg7 harg7 arg8 harg8 arg9 harg9 arg10 harg10 arg11 harg11 hc0 x0 x1 x2 x3 x4 x5 x6).2.1 (Rect.unit (s := S2048x1152) ![0, 0] S2048x144.size inb_S2048x1152_S2048x144_0_0).toLoadRect) (arg11.view.readCov (kernelRun0_A c i arg2 harg2 arg3 harg3 arg4 harg4 arg5 harg5 arg6 harg6 arg7 harg7 arg8 harg8 arg9 harg9 arg10 harg10 arg11 harg11 hc0 x0 x1 x2 x3 x4 x5 x6).2.2.1 (Rect.unit (s := S2048x1152) ![0, 0] S2048x144.size inb_S2048x1152_S2048x144_0_0).toLoadRect) (View.ld x4 (Rect.unit ![0, 0] S1152x144.size inb_S1152x1152_S1152x144_0_0))
      (arg10.view.readCov (kernelRun0_A c i arg2 harg2 arg3 harg3 arg4 harg4 arg5 harg5 arg6 harg6 arg7 harg7 arg8 harg8 arg9 harg9 arg10 harg10 arg11 harg11 hc0 x0 x1 x2 x3 x4 x5 x6).2.1 (Rect.unit (s := S2048x1152) ![0, 144] S2048x144.size inb_S2048x1152_S2048x144_0_144).toLoadRect) (arg11.view.readCov (kernelRun0_A c i arg2 harg2 arg3 harg3 arg4 harg4 arg5 harg5 arg6 harg6 arg7 harg7 arg8 harg8 arg9 harg9 arg10 harg10 arg11 harg11 hc0 x0 x1 x2 x3 x4 x5 x6).2.2.1 (Rect.unit (s := S2048x1152) ![0, 144] S2048x144.size inb_S2048x1152_S2048x144_0_144).toLoadRect) (View.ld x4 (Rect.unit ![0, 144] S1152x144.size inb_S1152x1152_S1152x144_0_144))
      (arg10.view.readCov (kernelRun0_A c i arg2 harg2 arg3 harg3 arg4 harg4 arg5 harg5 arg6 harg6 arg7 harg7 arg8 harg8 arg9 harg9 arg10 harg10 arg11 harg11 hc0 x0 x1 x2 x3 x4 x5 x6).2.1 (Rect.unit (s := S2048x1152) ![0, 288] S2048x144.size inb_S2048x1152_S2048x144_0_288).toLoadRect) (arg11.view.readCov (kernelRun0_A c i arg2 harg2 arg3 harg3 arg4 harg4 arg5 harg5 arg6 harg6 arg7 harg7 arg8 harg8 arg9 harg9 arg10 harg10 arg11 harg11 hc0 x0 x1 x2 x3 x4 x5 x6).2.2.1 (Rect.unit (s := S2048x1152) ![0, 288] S2048x144.size inb_S2048x1152_S2048x144_0_288).toLoadRect) (View.ld x4 (Rect.unit ![0, 288] S1152x144.size inb_S1152x1152_S1152x144_0_288))
      (arg10.view.readCov (kernelRun0_A c i arg2 harg2 arg3 harg3 arg4 harg4 arg5 harg5 arg6 harg6 arg7 harg7 arg8 harg8 arg9 harg9 arg10 harg10 arg11 harg11 hc0 x0 x1 x2 x3 x4 x5 x6).2.1 (Rect.unit (s := S2048x1152) ![0, 432] S2048x144.size inb_S2048x1152_S2048x144_0_432).toLoadRect) (arg11.view.readCov (kernelRun0_A c i arg2 harg2 arg3 harg3 arg4 harg4 arg5 harg5 arg6 harg6 arg7 harg7 arg8 harg8 arg9 harg9 arg10 harg10 arg11 harg11 hc0 x0 x1 x2 x3 x4 x5 x6).2.2.1 (Rect.unit (s := S2048x1152) ![0, 432] S2048x144.size inb_S2048x1152_S2048x144_0_432).toLoadRect) (View.ld x4 (Rect.unit ![0, 432] S1152x144.size inb_S1152x1152_S1152x144_0_432))
      (arg10.view.readCov (kernelRun0_A c i arg2 harg2 arg3 harg3 arg4 harg4 arg5 harg5 arg6 harg6 arg7 harg7 arg8 harg8 arg9 harg9 arg10 harg10 arg11 harg11 hc0 x0 x1 x2 x3 x4 x5 x6).2.1 (Rect.unit (s := S2048x1152) ![0, 576] S2048x144.size inb_S2048x1152_S2048x144_0_576).toLoadRect) (arg11.view.readCov (kernelRun0_A c i arg2 harg2 arg3 harg3 arg4 harg4 arg5 harg5 arg6 harg6 arg7 harg7 arg8 harg8 arg9 harg9 arg10 harg10 arg11 harg11 hc0 x0 x1 x2 x3 x4 x5 x6).2.2.1 (Rect.unit (s := S2048x1152) ![0, 576] S2048x144.size inb_S2048x1152_S2048x144_0_576).toLoadRect) (View.ld x4 (Rect.unit ![0, 576] S1152x144.size inb_S1152x1152_S1152x144_0_576))
      (arg10.view.readCov (kernelRun0_A c i arg2 harg2 arg3 harg3 arg4 harg4 arg5 harg5 arg6 harg6 arg7 harg7 arg8 harg8 arg9 harg9 arg10 harg10 arg11 harg11 hc0 x0 x1 x2 x3 x4 x5 x6).2.1 (Rect.unit (s := S2048x1152) ![0, 720] S2048x144.size inb_S2048x1152_S2048x144_0_720).toLoadRect) (arg11.view.readCov (kernelRun0_A c i arg2 harg2 arg3 harg3 arg4 harg4 arg5 harg5 arg6 harg6 arg7 harg7 arg8 harg8 arg9 harg9 arg10 harg10 arg11 harg11 hc0 x0 x1 x2 x3 x4 x5 x6).2.2.1 (Rect.unit (s := S2048x1152) ![0, 720] S2048x144.size inb_S2048x1152_S2048x144_0_720).toLoadRect) (View.ld x4 (Rect.unit ![0, 720] S1152x144.size inb_S1152x1152_S1152x144_0_720))
      (arg10.view.readCov (kernelRun0_A c i arg2 harg2 arg3 harg3 arg4 harg4 arg5 harg5 arg6 harg6 arg7 harg7 arg8 harg8 arg9 harg9 arg10 harg10 arg11 harg11 hc0 x0 x1 x2 x3 x4 x5 x6).2.1 (Rect.unit (s := S2048x1152) ![0, 864] S2048x144.size inb_S2048x1152_S2048x144_0_864).toLoadRect) (arg11.view.readCov (kernelRun0_A c i arg2 harg2 arg3 harg3 arg4 harg4 arg5 harg5 arg6 harg6 arg7 harg7 arg8 harg8 arg9 harg9 arg10 harg10 arg11 harg11 hc0 x0 x1 x2 x3 x4 x5 x6).2.2.1 (Rect.unit (s := S2048x1152) ![0, 864] S2048x144.size inb_S2048x1152_S2048x144_0_864).toLoadRect) (View.ld x4 (Rect.unit ![0, 864] S1152x144.size inb_S1152x1152_S1152x144_0_864))
      (arg10.view.readCov (kernelRun0_A c i arg2 harg2 arg3 harg3 arg4 harg4 arg5 harg5 arg6 harg6 arg7 harg7 arg8 harg8 arg9 harg9 arg10 harg10 arg11 harg11 hc0 x0 x1 x2 x3 x4 x5 x6).2.1 (Rect.unit (s := S2048x1152) ![0, 1008] S2048x144.size inb_S2048x1152_S2048x144_0_1008).toLoadRect) (arg11.view.readCov (kernelRun0_A c i arg2 harg2 arg3 harg3 arg4 harg4 arg5 harg5 arg6 harg6 arg7 harg7 arg8 harg8 arg9 harg9 arg10 harg10 arg11 harg11 hc0 x0 x1 x2 x3 x4 x5 x6).2.2.1 (Rect.unit (s := S2048x1152) ![0, 1008] S2048x144.size inb_S2048x1152_S2048x144_0_1008).toLoadRect) (View.ld x4 (Rect.unit ![0, 1008] S1152x144.size inb_S1152x1152_S1152x144_0_1008)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  rw [View.canon_unit_zero (S := S1x128x1152) hz3]
  simp only [View.readAt_eq_ld, harg2.read_unread, harg3.read_unread, harg6.read_unread, harg7.read_unread, harg8.read_unread]
  sl_unfold_words
  simp only [View.readAt_eq_ld, harg2.read_unread, harg3.read_unread, harg4.read_unread, harg5.read_unread, harg6.read_unread, harg7.read_unread, harg8.read_unread]
  rfl

/-- At a point that refills the key and value buffers, the output's staging buffer ends at `outAt` of the point's
    input blocks and of what the body left in the two buffers. -/
theorem out_A_eq (c : Dev nD) (i : grid0.Coords) (arg2 : Memref sig .tc .vmem S1x2048x1152 .f32) (harg2 : arg2.IsWhole) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .bf16) (harg6 : arg6.IsWhole) (arg7 : Memref sig .tc .vmem S2048x144 .f32) (harg7 : arg7.IsWhole) (arg8 : Memref sig .tc .vmem S2048x144 .f32) (harg8 : arg8.IsWhole) (arg9 : Memref sig .tc .vmem S1x128x1152 .f32) (harg9 : arg9.IsWhole) (arg10 : Memref sig .tc .vmem S2048x1152 .bf16) (harg10 : arg10.IsWhole) (arg11 : Memref sig .tc .vmem S2048x1152 .bf16) (harg11 : arg11.IsWhole) (hc0 : cond0_0 i) (x0 : Vec F S1x2048x1152 .f32) (x1 : Vec F S1152x1152 .bf16) (x2 : Vec F S1152x1152 .bf16) (x3 : Vec F S1152x1152 .bf16) (x4 : Vec F S1152x1152 .bf16) (x5 : Vec F S2048x144 .f32) (x6 : Vec F S2048x144 .f32) :
    out0_A_7 c i arg2 harg2 arg3 harg3 arg4 harg4 arg5 harg5 arg6 harg6 arg7 harg7 arg8 harg8 arg9 harg9 arg10 harg10 arg11 harg11 hc0 x0 x1 x2 x3 x4 x5 x6
      = outAt i x0 x1 x4 x5 x6 (sout0_A_0 c i arg2 harg2 arg3 harg3 arg4 harg4 arg5 harg5 arg6 harg6 arg7 harg7 arg8 harg8 arg9 harg9 arg10 harg10 arg11 harg11 hc0 x0 x1 x2 x3 x4 x5 x6) (sout0_A_1 c i arg2 harg2 arg3 harg3 arg4 harg4 arg5 harg5 arg6 harg6 arg7 harg7 arg8 harg8 arg9 harg9 arg10 harg10 arg11 harg11 hc0 x0 x1 x2 x3 x4 x5 x6) := by
  rw [out_A_eq']
  simp only [readBack0, readBack1]
  rfl

end Cert.KernelIdeal.VSpec

end
-- ==== Proof.SpecG.lean ====
/-
  One row of the attention result as a function of that row's rotated query heads `qv`, of all rotated key rows
  `kr` and all value rows `vv` (by row, head and lane) and of the output weights: the scaled scores, their maximum,
  the exponentials of the differences, their sum, the weighted value sum divided once, and the eight heads' shares
  of the output projection added in order onto zero.  The specification's `outK` is this function at the arrays
  computed from the activations (`outK_eq`); the kernel body computes it from whatever its two carried buffers hold.
-/
import proofs.«400258_j82703890252416_3_alg».proof.Proof.Spec

noncomputable section

namespace Cert.SpecG

open Idealize.ShloMosaic Cert.Spec
open scoped BigOperators

section
variable (qv : Fin 8 → Fin 144 → EReal) (kr vv : Fin 2048 → Fin 8 → Fin 144 → EReal) (Wo : Mat 1152 1152)

def score (h : Fin 8) (k : Fin 2048) : EReal := (∑ j : Fin 144, qv h j * kr k h j) * scale
def rmax (h : Fin 8) : EReal := (Finset.univ : Finset (Fin 2048)).fold max ninf (fun k => score qv kr h k)
def pexp (h : Fin 8) (k : Fin 2048) : EReal := Ideal.exp (score qv kr h k - rmax qv kr h)
def den (h : Fin 8) : EReal := ∑ k : Fin 2048, pexp qv kr h k
def att (h : Fin 8) (j : Fin 144) : EReal := Ideal.div (∑ k : Fin 2048, pexp qv kr h k * vv k h j) (den qv kr h)
def y (h : Fin 8) (e : Fin 1152) : EReal := ∑ j : Fin 144, att qv kr vv h j * Wo e (col h j)
def outRow (e : Fin 1152) : EReal := ((((((((0 + y qv kr vv Wo 0 e) + y qv kr vv Wo 1 e) + y qv kr vv Wo 2 e) + y qv kr vv Wo 3 e) + y qv kr vv Wo 4 e) + y qv kr vv Wo 5 e) + y qv kr vv Wo 6 e) + y qv kr vv Wo 7 e)
end

/-- The specification's kernel-side entry is the one-row function at the arrays computed from the activations. -/
theorem outK_eq (x : Mat 2048 1152) (cs sn : Mat 2048 144) (Wq Wk Wv Wo : Mat 1152 1152) (q : Fin 2048) (e : Fin 1152) :
    outK x cs sn Wq Wk Wv Wo q e
      = outRow (fun h j => qr x cs sn Wq q h j) (kr x cs sn Wk) (vv x Wv) Wo e := rfl

end Cert.SpecG

end
-- ==== Proof.HeadValue1.lean ====
/-
  The stages of one attention head of the kernel body, read at an entry.

  Each product of the body contracts one axis of each operand, so at an entry it is a finite sum of products; the
  row maximum is a fold of `max` over the row and the row sum a finite sum; the layout operations (a unit axis dropped
  or added, a strip of columns cut out, two half-strips joined, a column of row values spread along the rows) read
  one entry of their operand.  Composed, one head's share of the output projection at row `p` and column `e` is the
  one-row function `SpecG.y` of any arrays that agree with the head's rotated queries, key strip, value strip and
  weight strip (`headV_apply`, `headShare_apply`).
-/
import proofs.«400258_j82703890252416_3_alg».proof.Proof.VSpec
import proofs.«400258_j82703890252416_3_alg».proof.Proof.SpecG
import proofs.«400258_j82703890252416_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.KernelIdeal.HeadValue

open Cert.KernelIdeal Cert.KernelIdeal.Gen Cert.KernelIdeal.VSpec

/-! ## The four products read at an index

Each of the kernel's products contracts one axis of each operand; at an output entry it is the sum over that
axis of the operands' products. -/

/-! ### The query projection's record: rows of the tile against rows of the weights -/

theorem lhs_q_0 (i : S128x1152.Idx) (q : dot_S128x1152_S1152x1152_S128x1152_1_1_0_0_n_n.contr.Idx) :
    (dot_S128x1152_S1152x1152_S128x1152_1_1_0_0_n_n.lhsIdx i q 0).val = (i 0).val := by
  unfold DotDims.lhsIdx
  rw [dif_neg (show ¬(0 : Fin S128x1152.rank) ∈ dot_S128x1152_S1152x1152_S128x1152_1_1_0_0_n_n.lhsBatch by decide), dif_pos (show (0 : Fin S128x1152.rank) ∈ dot_S128x1152_S1152x1152_S128x1152_1_1_0_0_n_n.lhsNonContracting by decide)]
  rfl
theorem lhs_q_1 (i : S128x1152.Idx) (q : dot_S128x1152_S1152x1152_S128x1152_1_1_0_0_n_n.contr.Idx) :
    (dot_S128x1152_S1152x1152_S128x1152_1_1_0_0_n_n.lhsIdx i q 1).val = (q ⟨0, by decide⟩).val :=
  dot_S128x1152_S1152x1152_S128x1152_1_1_0_0_n_n.lhsIdx_val_of_single rfl i q
theorem rhs_q_0 (i : S128x1152.Idx) (q : dot_S128x1152_S1152x1152_S128x1152_1_1_0_0_n_n.contr.Idx) :
    (dot_S128x1152_S1152x1152_S128x1152_1_1_0_0_n_n.rhsIdx i q 0).val = (i 1).val := by
  unfold DotDims.rhsIdx
  rw [dif_neg (show ¬(0 : Fin S1152x1152.rank) ∈ dot_S128x1152_S1152x1152_S128x1152_1_1_0_0_n_n.rhsBatch by decide), dif_pos (show (0 : Fin S1152x1152.rank) ∈ dot_S128x1152_S1152x1152_S128x1152_1_1_0_0_n_n.rhsNonContracting by decide)]
  rfl
theorem rhs_q_1 (i : S128x1152.Idx) (q : dot_S128x1152_S1152x1152_S128x1152_1_1_0_0_n_n.contr.Idx) :
    (dot_S128x1152_S1152x1152_S128x1152_1_1_0_0_n_n.rhsIdx i q 1).val = (q ⟨0, by decide⟩).val :=
  dot_S128x1152_S1152x1152_S128x1152_1_1_0_0_n_n.rhsIdx_val_of_single rfl i q

/-- A tile of 128 rows against the 1152 rows of a weight array: entry `(p, e)` is row `p` against row `e`. -/
theorem matmul_q_apply (a : FVec Ideal S128x1152 .bf16) (b : FVec Ideal S1152x1152 .bf16) (p : Fin 128) (e : Fin 1152) :
    matmul dot_S128x1152_S1152x1152_S128x1152_1_1_0_0_n_n none a b (constant (F := Ideal) S128x1152 .f32 0x00000000#32) (ix2 p e)
      = ∑ d : Fin 1152, a (ix2 p d) * b (ix2 e d) := by
  refine (Ideal.matmul_constant_zero_apply dot_S128x1152_S1152x1152_S128x1152_1_1_0_0_n_n none a b (ix2 p e)).trans ?_
  rw [← Equiv.sum_comp (contrEquiv1 dot_S128x1152_S1152x1152_S128x1152_1_1_0_0_n_n 1152 rfl rfl).symm]
  refine Finset.sum_congr rfl fun k _ => ?_
  have hk := contrEquiv1_symm_val dot_S128x1152_S1152x1152_S128x1152_1_1_0_0_n_n 1152 rfl rfl k
  have el : dot_S128x1152_S1152x1152_S128x1152_1_1_0_0_n_n.lhsIdx (ix2 p e) ((contrEquiv1 dot_S128x1152_S1152x1152_S128x1152_1_1_0_0_n_n 1152 rfl rfl).symm k) = ix2 p k := funext fun ax => Fin.ext (by
    match ax with
    | ⟨0, _⟩ => exact lhs_q_0 _ _
    | ⟨1, _⟩ => exact (lhs_q_1 _ _).trans hk)
  have er : dot_S128x1152_S1152x1152_S128x1152_1_1_0_0_n_n.rhsIdx (ix2 p e) ((contrEquiv1 dot_S128x1152_S1152x1152_S128x1152_1_1_0_0_n_n 1152 rfl rfl).symm k) = ix2 e k := funext fun ax => Fin.ext (by
    match ax with
    | ⟨0, _⟩ => exact rhs_q_0 _ _
    | ⟨1, _⟩ => exact (rhs_q_1 _ _).trans hk)
  rw [el, er]

/-! ### The score record: a head's queries against a head's key rows -/

theorem lhs_s_0 (i : S128x2048.Idx) (q : dot_S128x144_S2048x144_S128x2048_1_1_0_0_n_n.contr.Idx) :
    (dot_S128x144_S2048x144_S128x2048_1_1_0_0_n_n.lhsIdx i q 0).val = (i 0).val := by
  unfold DotDims.lhsIdx
  rw [dif_neg (show ¬(0 : Fin S128x144.rank) ∈ dot_S128x144_S2048x144_S128x2048_1_1_0_0_n_n.lhsBatch by decide), dif_pos (show (0 : Fin S128x144.rank) ∈ dot_S128x144_S2048x144_S128x2048_1_1_0_0_n_n.lhsNonContracting by decide)]
  rfl
theorem lhs_s_1 (i : S128x2048.Idx) (q : dot_S128x144_S2048x144_S128x2048_1_1_0_0_n_n.contr.Idx) :
    (dot_S128x144_S2048x144_S128x2048_1_1_0_0_n_n.lhsIdx i q 1).val = (q ⟨0, by decide⟩).val :=
  dot_S128x144_S2048x144_S128x2048_1_1_0_0_n_n.lhsIdx_val_of_single rfl i q
theorem rhs_s_0 (i : S128x2048.Idx) (q : dot_S128x144_S2048x144_S128x2048_1_1_0_0_n_n.contr.Idx) :
    (dot_S128x144_S2048x144_S128x2048_1_1_0_0_n_n.rhsIdx i q 0).val = (i 1).val := by
  unfold DotDims.rhsIdx
  rw [dif_neg (show ¬(0 : Fin S2048x144.rank) ∈ dot_S128x144_S2048x144_S128x2048_1_1_0_0_n_n.rhsBatch by decide), dif_pos (show (0 : Fin S2048x144.rank) ∈ dot_S128x144_S2048x144_S128x2048_1_1_0_0_n_n.rhsNonContracting by decide)]
  rfl
theorem rhs_s_1 (i : S128x2048.Idx) (q : dot_S128x144_S2048x144_S128x2048_1_1_0_0_n_n.contr.Idx) :
    (dot_S128x144_S2048x144_S128x2048_1_1_0_0_n_n.rhsIdx i q 1).val = (q ⟨0, by decide⟩).val :=
  dot_S128x144_S2048x144_S128x2048_1_1_0_0_n_n.rhsIdx_val_of_single rfl i q

/-- A head's 128 query rows against its 2048 key rows: entry `(p, k)` is the 144-term inner product. -/
theorem matmul_s_apply (a : FVec Ideal S128x144 .bf16) (b : FVec Ideal S2048x144 .bf16) (p : Fin 128) (k : Fin 2048) :
    matmul dot_S128x144_S2048x144_S128x2048_1_1_0_0_n_n none a b (constant (F := Ideal) S128x2048 .f32 0x00000000#32) (ix2 p k)
      = ∑ j : Fin 144, a (ix2 p j) * b (ix2 k j) := by
  refine (Ideal.matmul_constant_zero_apply dot_S128x144_S2048x144_S128x2048_1_1_0_0_n_n none a b (ix2 p k)).trans ?_
  rw [← Equiv.sum_comp (contrEquiv1 dot_S128x144_S2048x144_S128x2048_1_1_0_0_n_n 144 rfl rfl).symm]
  refine Finset.sum_congr rfl fun j _ => ?_
  have hk := contrEquiv1_symm_val dot_S128x144_S2048x144_S128x2048_1_1_0_0_n_n 144 rfl rfl j
  have el : dot_S128x144_S2048x144_S128x2048_1_1_0_0_n_n.lhsIdx (ix2 p k) ((contrEquiv1 dot_S128x144_S2048x144_S128x2048_1_1_0_0_n_n 144 rfl rfl).symm j) = ix2 p j := funext fun ax => Fin.ext (by
    match ax with
    | ⟨0, _⟩ => exact lhs_s_0 _ _
    | ⟨1, _⟩ => exact (lhs_s_1 _ _).trans hk)
  have er : dot_S128x144_S2048x144_S128x2048_1_1_0_0_n_n.rhsIdx (ix2 p k) ((contrEquiv1 dot_S128x144_S2048x144_S128x2048_1_1_0_0_n_n 144 rfl rfl).symm j) = ix2 k j := funext fun ax => Fin.ext (by
    match ax with
    | ⟨0, _⟩ => exact rhs_s_0 _ _
    | ⟨1, _⟩ => exact (rhs_s_1 _ _).trans hk)
  rw [el, er]

/-! ### The weighted-sum record: a row of weights against a column of the value strip -/

theorem lhs_a_0 (i : S128x144.Idx) (q : dot_S128x2048_S2048x144_S128x144_1_0_0_1_n_n.contr.Idx) :
    (dot_S128x2048_S2048x144_S128x144_1_0_0_1_n_n.lhsIdx i q 0).val = (i 0).val := by
  unfold DotDims.lhsIdx
  rw [dif_neg (show ¬(0 : Fin S128x2048.rank) ∈ dot_S128x2048_S2048x144_S128x144_1_0_0_1_n_n.lhsBatch by decide), dif_pos (show (0 : Fin S128x2048.rank) ∈ dot_S128x2048_S2048x144_S128x144_1_0_0_1_n_n.lhsNonContracting by decide)]
  rfl
theorem lhs_a_1 (i : S128x144.Idx) (q : dot_S128x2048_S2048x144_S128x144_1_0_0_1_n_n.contr.Idx) :
    (dot_S128x2048_S2048x144_S128x144_1_0_0_1_n_n.lhsIdx i q 1).val = (q ⟨0, by decide⟩).val :=
  dot_S128x2048_S2048x144_S128x144_1_0_0_1_n_n.lhsIdx_val_of_single rfl i q
theorem rhs_a_0 (i : S128x144.Idx) (q : dot_S128x2048_S2048x144_S128x144_1_0_0_1_n_n.contr.Idx) :
    (dot_S128x2048_S2048x144_S128x144_1_0_0_1_n_n.rhsIdx i q 0).val = (q ⟨0, by decide⟩).val :=
  dot_S128x2048_S2048x144_S128x144_1_0_0_1_n_n.rhsIdx_val_of_single rfl i q
theorem rhs_a_1 (i : S128x144.Idx) (q : dot_S128x2048_S2048x144_S128x144_1_0_0_1_n_n.contr.Idx) :
    (dot_S128x2048_S2048x144_S128x144_1_0_0_1_n_n.rhsIdx i q 1).val = (i 1).val := by
  unfold DotDims.rhsIdx
  rw [dif_neg (show ¬(1 : Fin S2048x144.rank) ∈ dot_S128x2048_S2048x144_S128x144_1_0_0_1_n_n.rhsBatch by decide), dif_pos (show (1 : Fin S2048x144.rank) ∈ dot_S128x2048_S2048x144_S128x144_1_0_0_1_n_n.rhsNonContracting by decide)]
  rfl

/-- The 128 rows of weights against the value strip: entry `(p, j)` is the 2048-term sum over the key rows. -/
theorem matmul_a_apply (a : FVec Ideal S128x2048 .bf16) (b : FVec Ideal S2048x144 .bf16) (p : Fin 128) (j : Fin 144) :
    matmul dot_S128x2048_S2048x144_S128x144_1_0_0_1_n_n none a b (constant (F := Ideal) S128x144 .f32 0x00000000#32) (ix2 p j)
      = ∑ k : Fin 2048, a (ix2 p k) * b (ix2 k j) := by
  refine (Ideal.matmul_constant_zero_apply dot_S128x2048_S2048x144_S128x144_1_0_0_1_n_n none a b (ix2 p j)).trans ?_
  rw [← Equiv.sum_comp (contrEquiv1 dot_S128x2048_S2048x144_S128x144_1_0_0_1_n_n 2048 rfl rfl).symm]
  refine Finset.sum_congr rfl fun k _ => ?_
  have hk := contrEquiv1_symm_val dot_S128x2048_S2048x144_S128x144_1_0_0_1_n_n 2048 rfl rfl k
  have el : dot_S128x2048_S2048x144_S128x144_1_0_0_1_n_n.lhsIdx (ix2 p j) ((contrEquiv1 dot_S128x2048_S2048x144_S128x144_1_0_0_1_n_n 2048 rfl rfl).symm k) = ix2 p k := funext fun ax => Fin.ext (by
    match ax with
    | ⟨0, _⟩ => exact lhs_a_0 _ _
    | ⟨1, _⟩ => exact (lhs_a_1 _ _).trans hk)
  have er : dot_S128x2048_S2048x144_S128x144_1_0_0_1_n_n.rhsIdx (ix2 p j) ((contrEquiv1 dot_S128x2048_S2048x144_S128x144_1_0_0_1_n_n 2048 rfl rfl).symm k) = ix2 k j := funext fun ax => Fin.ext (by
    match ax with
    | ⟨0, _⟩ => exact (rhs_a_0 _ _).trans hk
    | ⟨1, _⟩ => exact rhs_a_1 _ _)
  rw [el, er]

/-! ### The output projection's record: a head's output rows against the head's strip of the output weights -/

theorem lhs_o_0 (i : S128x1152.Idx) (q : dot_S128x144_S1152x144_S128x1152_1_1_0_0_n_n.contr.Idx) :
    (dot_S128x144_S1152x144_S128x1152_1_1_0_0_n_n.lhsIdx i q 0).val = (i 0).val := by
  unfold DotDims.lhsIdx
  rw [dif_neg (show ¬(0 : Fin S128x144.rank) ∈ dot_S128x144_S1152x144_S128x1152_1_1_0_0_n_n.lhsBatch by decide), dif_pos (show (0 : Fin S128x144.rank) ∈ dot_S128x144_S1152x144_S128x1152_1_1_0_0_n_n.lhsNonContracting by decide)]
  rfl
theorem lhs_o_1 (i : S128x1152.Idx) (q : dot_S128x144_S1152x144_S128x1152_1_1_0_0_n_n.contr.Idx) :
    (dot_S128x144_S1152x144_S128x1152_1_1_0_0_n_n.lhsIdx i q 1).val = (q ⟨0, by decide⟩).val :=
  dot_S128x144_S1152x144_S128x1152_1_1_0_0_n_n.lhsIdx_val_of_single rfl i q
theorem rhs_o_0 (i : S128x1152.Idx) (q : dot_S128x144_S1152x144_S128x1152_1_1_0_0_n_n.contr.Idx) :
    (dot_S128x144_S1152x144_S128x1152_1_1_0_0_n_n.rhsIdx i q 0).val = (i 1).val := by
  unfold DotDims.rhsIdx
  rw [dif_neg (show ¬(0 : Fin S1152x144.rank) ∈ dot_S128x144_S1152x144_S128x1152_1_1_0_0_n_n.rhsBatch by decide), dif_pos (show (0 : Fin S1152x144.rank) ∈ dot_S128x144_S1152x144_S128x1152_1_1_0_0_n_n.rhsNonContracting by decide)]
  rfl
theorem rhs_o_1 (i : S128x1152.Idx) (q : dot_S128x144_S1152x144_S128x1152_1_1_0_0_n_n.contr.Idx) :
    (dot_S128x144_S1152x144_S128x1152_1_1_0_0_n_n.rhsIdx i q 1).val = (q ⟨0, by decide⟩).val :=
  dot_S128x144_S1152x144_S128x1152_1_1_0_0_n_n.rhsIdx_val_of_single rfl i q

/-- A head's 128 output rows against the 1152 rows of its weight strip: entry `(p, e)` is the 144-term inner product. -/
theorem matmul_o_apply (a : FVec Ideal S128x144 .bf16) (b : FVec Ideal S1152x144 .bf16) (p : Fin 128) (e : Fin 1152) :
    matmul dot_S128x144_S1152x144_S128x1152_1_1_0_0_n_n none a b (constant (F := Ideal) S128x1152 .f32 0x00000000#32) (ix2 p e)
      = ∑ j : Fin 144, a (ix2 p j) * b (ix2 e j) := by
  refine (Ideal.matmul_constant_zero_apply dot_S128x144_S1152x144_S128x1152_1_1_0_0_n_n none a b (ix2 p e)).trans ?_
  rw [← Equiv.sum_comp (contrEquiv1 dot_S128x144_S1152x144_S128x1152_1_1_0_0_n_n 144 rfl rfl).symm]
  refine Finset.sum_congr rfl fun j _ => ?_
  have hk := contrEquiv1_symm_val dot_S128x144_S1152x144_S128x1152_1_1_0_0_n_n 144 rfl rfl j
  have el : dot_S128x144_S1152x144_S128x1152_1_1_0_0_n_n.lhsIdx (ix2 p e) ((contrEquiv1 dot_S128x144_S1152x144_S128x1152_1_1_0_0_n_n 144 rfl rfl).symm j) = ix2 p j := funext fun ax => Fin.ext (by
    match ax with
    | ⟨0, _⟩ => exact lhs_o_0 _ _
    | ⟨1, _⟩ => exact (lhs_o_1 _ _).trans hk)
  have er : dot_S128x144_S1152x144_S128x1152_1_1_0_0_n_n.rhsIdx (ix2 p e) ((contrEquiv1 dot_S128x144_S1152x144_S128x1152_1_1_0_0_n_n 144 rfl rfl).symm j) = ix2 e j := funext fun ax => Fin.ext (by
    match ax with
    | ⟨0, _⟩ => exact rhs_o_0 _ _
    | ⟨1, _⟩ => exact (rhs_o_1 _ _).trans hk)
  rw [el, er]

/-! ## The stages of one head, at an index -/

/-- The query projection at `(p, e)`: row `p` of the tile against row `e` of the weights. -/
theorem qAll_apply (xt : Vec Ideal S1x128x1152 .f32) (wq : Vec Ideal S1152x1152 .bf16) (p : Fin 128) (e : Fin 1152) :
    qAll xt wq (ix2 p e) = ∑ d : Fin 1152, xt (ix3 (0 : Fin 1) p d) * wq (ix2 e d) := by
  unfold qAll
  refine (matmul_q_apply _ _ p e).trans ?_
  refine Finset.sum_congr rfl fun d _ => ?_
  rw [truncf_apply, shapeCast_1ab_ab_apply, shapeCast_self]

/-- The half-rotated columns of a head: the upper 72 columns negated in front of the lower 72. -/
theorem rotV_apply (P : FVec Ideal S128x144 .f32) (p : Fin 128) (j : Fin 144) :
    concatenate S128x144 1
      [⟨S128x72, subf (broadcast S128x72 (Scalar.ofBits (F := Ideal) .f32 0x00000000#32))
          (extractStridedSlice S128x72 ![0, 72] P slices_S128x144_o0_72_S128x72)⟩,
       ⟨S128x72, extractStridedSlice S128x72 ![0, 0] P slices_S128x144_o0_0_S128x72⟩]
      concatenates_S128x72_S128x72_S128x144_d1 (ix2 p j)
      = Cert.Spec.rot (fun j' => P (ix2 p j')) j := by
  unfold Cert.Spec.rot
  by_cases h : j.val < 72
  · rw [dif_pos h]
    refine (concatenate_pair_apply_left (1 : Fin S128x144.rank) _ _ concatenates_S128x72_S128x72_S128x144_d1 (ix2 p j) rfl
      (ix2 p (⟨j.val, h⟩ : Fin 72)) (fun b => by
        match b with
        | ⟨0, _⟩ => rfl
        | ⟨1, _⟩ => rfl)).trans ?_
    rw [subf_apply, broadcast_apply,
      slice2_axis1_apply 72 P slices_S128x144_o0_72_S128x72 p (⟨j.val, h⟩ : Fin 72) (⟨j.val + 72, by omega⟩ : Fin 144) (Nat.add_comm _ _)]
    show Ideal.ofBits .f32 0x00000000#32 - _ = _
    rw [Ideal.ofBits_zero_f32, sub_eq_add_neg, zero_add]
  · rw [dif_neg h]
    have hj := j.isLt
    refine (concatenate_pair_apply_right (1 : Fin S128x144.rank) _ _ concatenates_S128x72_S128x72_S128x144_d1 (ix2 p j) rfl rfl
      (ix2 p (⟨j.val - 72, by omega⟩ : Fin 72)) (fun b => by
        match b with
        | ⟨0, _⟩ => exact fun _ => rfl
        | ⟨1, _⟩ => exact fun hb => absurd rfl hb) (by
        show (j.val - 72) + 72 = j.val
        omega)).trans ?_
    exact slice2_axis1_apply 0 P slices_S128x144_o0_0_S128x72 p (⟨j.val - 72, by omega⟩ : Fin 72) (⟨j.val - 72, by omega⟩ : Fin 144) (Nat.zero_add _).symm

/-- The rotary embedding of a head at `(p, j)`. -/
theorem ropeV_apply (P : FVec Ideal S128x144 .f32) (ct st : Vec Ideal S128x144 .f32) (p : Fin 128) (j : Fin 144) :
    ropeV P ct st (ix2 p j)
      = P (ix2 p j) * ct (ix2 p j) + Cert.Spec.rot (fun j' => P (ix2 p j')) j * st (ix2 p j) := by
  unfold ropeV
  rw [addf_apply, mulf_apply, mulf_apply]
  exact congrArg (fun z => P (ix2 p j) * ct (ix2 p j) + z * st (ix2 p j)) (rotV_apply P p j)

/-- The scaled scores at `(p, k)`: the inner product of query row `p` and key row `k` of the head, times the scale. -/
theorem scoreV_apply (qh : FVec Ideal S128x144 .f32) (kh : Vec Ideal S2048x144 .bf16) (p : Fin 128) (k : Fin 2048) :
    scoreV qh kh (ix2 p k) = (∑ j : Fin 144, qh (ix2 p j) * kh (ix2 k j)) * Cert.Spec.scale := by
  unfold scoreV
  rw [mulf_apply, broadcast_apply]
  show _ * Cert.Spec.scale = _
  refine congrArg (· * Cert.Spec.scale) ((matmul_s_apply _ _ p k).trans ?_)
  refine Finset.sum_congr rfl fun j _ => ?_
  rw [truncf_apply]

/-- The index a reduction over the columns inserts coordinate `k` into row `p` at is `(p, k)`. -/
theorem lift_row (p : Fin 128) (k : Fin 2048) : reduces_S128x2048_S128.lift (ix1 p) k = ix2 p k :=
  funext fun a => Fin.ext (by
    match a with
    | ⟨0, _⟩ => rfl
    | ⟨1, _⟩ => rfl)

/-- A row's maximum: the fold of `max` from the minus-infinity literal over the row's 2048 entries. -/
theorem rowMax_apply (s : FVec Ideal S128x2048 .f32) (p : Fin 128) :
    multiReduction (F := Ideal) .maximumf [1] S128 s 0xFF800000#32 reduces_S128x2048_S128 (.inl rfl) rfl (ix1 p)
      = (Finset.univ : Finset (Fin 2048)).fold max Cert.Spec.ninf (fun k => s (ix2 p k)) := by
  refine (Ideal.multiReduction_maximumf_single s 0xFF800000#32 reduces_S128x2048_S128 (.inl rfl) rfl (ix1 p)).trans ?_
  show (Finset.univ : Finset (Fin 2048)).fold max Cert.Spec.ninf (s ∘ reduces_S128x2048_S128.lift (ix1 p)) = _
  exact congrArg (fun f => (Finset.univ : Finset (Fin 2048)).fold max Cert.Spec.ninf f) (funext fun k => congrArg s (lift_row p k))

/-- A row's sum over its 2048 entries. -/
theorem rowSum_apply (s : FVec Ideal S128x2048 .f32) (p : Fin 128) :
    multiReduction (F := Ideal) .add [1] S128 s 0x00000000#32 reduces_S128x2048_S128 (.inl rfl) rfl (ix1 p)
      = ∑ k : Fin 2048, s (ix2 p k) := by
  refine (Ideal.multiReduction_add_single s 0x00000000#32 reduces_S128x2048_S128 (.inl rfl) rfl (ix1 p)).trans ?_
  show ∑ k : Fin 2048, s (reduces_S128x2048_S128.lift (ix1 p) k) = _
  exact Finset.sum_congr rfl fun k _ => congrArg s (lift_row p k)

/-- A column of 128 row values spread over 2048 columns reads, at `(p, k)`, row `p`'s value. -/
theorem spread2048_apply (v : FVec Ideal S128 .f32) (p : Fin 128) (k : Fin 2048) :
    broadcastTo S128x2048 (shapeCast S128x1 v shapeCasts_S128_S128x1) broadcasts_S128x1_S128x2048 (ix2 p k) = v (ix1 p) := by
  refine (broadcastTo_apply _ broadcasts_S128x1_S128x2048 (ix2 p k) (ix2 p (0 : Fin 1)) (fun a => by
    match a with
    | ⟨0, _⟩ => rfl
    | ⟨1, _⟩ => rfl)).trans ?_
  exact shapeCast_apply v shapeCasts_S128_S128x1 (ix2 p (0 : Fin 1)) (ix1 p) (by
    rw [Shape.rowMajor_val_one, Shape.rowMajor_val_two]
    show p.val = p.val * 1 + 0
    omega)

/-- The same column spread over 144 columns. -/
theorem spread144_apply (v : FVec Ideal S128 .f32) (p : Fin 128) (j : Fin 144) :
    broadcastTo S128x144 (shapeCast S128x1 v shapeCasts_S128_S128x1) broadcasts_S128x1_S128x144 (ix2 p j) = v (ix1 p) := by
  refine (broadcastTo_apply _ broadcasts_S128x1_S128x144 (ix2 p j) (ix2 p (0 : Fin 1)) (fun a => by
    match a with
    | ⟨0, _⟩ => rfl
    | ⟨1, _⟩ => rfl)).trans ?_
  exact shapeCast_apply v shapeCasts_S128_S128x1 (ix2 p (0 : Fin 1)) (ix1 p) (by
    rw [Shape.rowMajor_val_one, Shape.rowMajor_val_two]
    show p.val = p.val * 1 + 0
    omega)

/-- The unnormalised weights at `(p, k)`: the exponential of the score less the row's maximum. -/
theorem pexpV_apply (s : FVec Ideal S128x2048 .f32) (p : Fin 128) (k : Fin 2048) :
    pexpV s (ix2 p k)
      = Ideal.exp (s (ix2 p k) - (Finset.univ : Finset (Fin 2048)).fold max Cert.Spec.ninf (fun k' => s (ix2 p k'))) := by
  unfold pexpV
  show Ideal.exp (subf s _ (ix2 p k)) = _
  rw [subf_apply]
  exact congrArg (fun z => Ideal.exp (s (ix2 p k) - z)) ((spread2048_apply _ p k).trans (rowMax_apply s p))

/-- The head's output at `(p, j)`: the weights against column `j` of the value strip, divided by the weights' row sum. -/
theorem attV_apply (w : FVec Ideal S128x2048 .f32) (vh : Vec Ideal S2048x144 .bf16) (p : Fin 128) (j : Fin 144) :
    attV w vh (ix2 p j) = Ideal.div (∑ k : Fin 2048, w (ix2 p k) * vh (ix2 k j)) (∑ k : Fin 2048, w (ix2 p k)) := by
  unfold attV
  rw [divf_apply]
  refine congrArg₂ Ideal.div ((matmul_a_apply _ _ p j).trans ?_) ((spread144_apply _ p j).trans (rowSum_apply w p))
  refine Finset.sum_congr rfl fun k _ => ?_
  rw [truncf_apply]

/-- One head's share of the output projection at `(p, e)`, for any arrays `qv`, `kr`, `vv`, `Wo` that agree at head `h`
    with the head's rotated queries, key strip, value strip and weight strip. -/
theorem headV_apply (qh : FVec Ideal S128x144 .f32) (kh vh : Vec Ideal S2048x144 .bf16) (wh : Vec Ideal S1152x144 .bf16)
    (qv : Fin 8 → Fin 144 → EReal) (kr vv : Fin 2048 → Fin 8 → Fin 144 → EReal) (Wo : Cert.Spec.Mat 1152 1152)
    (h : Fin 8) (p : Fin 128)
    (hq : ∀ j, qh (ix2 p j) = qv h j) (hk : ∀ k j, kh (ix2 k j) = kr k h j) (hv : ∀ k j, vh (ix2 k j) = vv k h j)
    (hw : ∀ e j, wh (ix2 e j) = Wo e (Cert.Spec.col h j)) (e : Fin 1152) :
    headV qh kh vh wh (ix2 p e) = Cert.SpecG.y qv kr vv Wo h e := by
  have hs : ∀ k, scoreV qh kh (ix2 p k) = Cert.SpecG.score qv kr h k := fun k => by
    rw [scoreV_apply]
    unfold Cert.SpecG.score
    exact congrArg (· * Cert.Spec.scale) (Finset.sum_congr rfl fun j _ => by rw [hq j, hk k j])
  have hm : (Finset.univ : Finset (Fin 2048)).fold max Cert.Spec.ninf (fun k' => scoreV qh kh (ix2 p k'))
      = Cert.SpecG.rmax qv kr h := by
    unfold Cert.SpecG.rmax
    exact congrArg (fun f => (Finset.univ : Finset (Fin 2048)).fold max Cert.Spec.ninf f) (funext hs)
  have hp : ∀ k, pexpV (scoreV qh kh) (ix2 p k) = Cert.SpecG.pexp qv kr h k := fun k => by
    rw [pexpV_apply, hs k, hm]
    rfl
  have ha : ∀ j, attV (pexpV (scoreV qh kh)) vh (ix2 p j) = Cert.SpecG.att qv kr vv h j := fun j => by
    rw [attV_apply]
    unfold Cert.SpecG.att Cert.SpecG.den
    exact congrArg₂ Ideal.div (Finset.sum_congr rfl fun k _ => by rw [hp k, hv k j]) (Finset.sum_congr rfl fun k _ => hp k)
  unfold headV Cert.SpecG.y
  refine (matmul_o_apply _ _ p e).trans ?_
  refine Finset.sum_congr rfl fun j _ => ?_
  rw [truncf_apply, shapeCast_self, ha j, hw e j]

/-- The rotary embedding of the head cut from the projection at column offset `c0 = 144·h`, in the projection's columns. -/
theorem headSlice_apply (Q : FVec Ideal S128x1152 .f32) (c0 : Nat) (hs : S128x1152.Slices ![0, c0] S128x144)
    (ct st : Vec Ideal S128x144 .f32) (h : Fin 8) (hc : c0 = h.val * 144) (p : Fin 128) (j : Fin 144) :
    ropeV (extractStridedSlice S128x144 ![0, c0] Q hs) ct st (ix2 p j)
      = Q (ix2 p (Cert.Spec.col h j)) * ct (ix2 p j)
        + Cert.Spec.rot (fun j' => Q (ix2 p (Cert.Spec.col h j'))) j * st (ix2 p j) := by
  have e : ∀ j' : Fin 144, extractStridedSlice S128x144 ![0, c0] Q hs (ix2 p j') = Q (ix2 p (Cert.Spec.col h j')) :=
    fun j' => slice2_axis1_apply c0 Q hs p j' (Cert.Spec.col h j') (by
      show h.val * 144 + j'.val = c0 + j'.val
      omega)
  rw [ropeV_apply, e j]
  exact congrArg (fun f => Q (ix2 p (Cert.Spec.col h j)) * ct (ix2 p j) + Cert.Spec.rot f j * st (ix2 p j)) (funext e)

/-- One head's share, the head's queries cut from the projection `Q` at column offset `144·h`. -/
theorem headShare_apply (Q : FVec Ideal S128x1152 .f32) (c0 : Nat) (hs : S128x1152.Slices ![0, c0] S128x144)
    (ct st : Vec Ideal S128x144 .f32) (kh vh : Vec Ideal S2048x144 .bf16) (wh : Vec Ideal S1152x144 .bf16)
    (qv : Fin 8 → Fin 144 → EReal) (kr vv : Fin 2048 → Fin 8 → Fin 144 → EReal) (Wo : Cert.Spec.Mat 1152 1152)
    (h : Fin 8) (hc : c0 = h.val * 144) (p : Fin 128)
    (hq : ∀ j, Q (ix2 p (Cert.Spec.col h j)) * ct (ix2 p j)
        + Cert.Spec.rot (fun j' => Q (ix2 p (Cert.Spec.col h j'))) j * st (ix2 p j) = qv h j)
    (hk : ∀ k j, kh (ix2 k j) = kr k h j) (hv : ∀ k j, vh (ix2 k j) = vv k h j)
    (hw : ∀ e j, wh (ix2 e j) = Wo e (Cert.Spec.col h j)) (e : Fin 1152) :
    headV (ropeV (extractStridedSlice S128x144 ![0, c0] Q hs) ct st) kh vh wh (ix2 p e) = Cert.SpecG.y qv kr vv Wo h e :=
  headV_apply _ kh vh wh qv kr vv Wo h p (fun j => (headSlice_apply Q c0 hs ct st h hc p j).trans (hq j)) hk hv hw e

end Cert.KernelIdeal.HeadValue

end
-- ==== Proof.HeadValue.lean ====
/-
  The kernel body's attention part, read at an entry.

  `outV`, the vector-level function of the tiles a grid point loads, is at row `p` and column `e` of its tile the
  one-row function `SpecG.outRow` of the row's rotated query heads, of the key and value strips by row, head and lane,
  and of the output weights (`outV_apply`); at the tiles a grid point loads from the argument arrays and from the two
  carried buffers, the row is row `128·i₁ + p` of the batch's activations (`outAt_apply`).
-/
import proofs.«400258_j82703890252416_3_alg».proof.Proof.HeadValue1

set_option maxRecDepth 16384

noncomputable section

open Idealize.ShloMosaic Idealize.ShloMosaic.TcCoe Idealize.SL.Sem Idealize.ShloMosaic.ValueIdx
open scoped BigOperators

namespace Cert.KernelIdeal.HeadValue

open Cert.KernelIdeal Cert.KernelIdeal.Gen Cert.KernelIdeal.VSpec

/-- The tile of the result at `(0, p, e)`: the one-row function of any arrays that agree, head by head, with the row's
    rotated query heads, the eight key strips, the eight value strips and the eight weight strips. -/
theorem outV_apply (xt : Vec Ideal S1x128x1152 .f32) (wq : Vec Ideal S1152x1152 .bf16) (ct st : Vec Ideal S128x144 .f32)
    (k0 v0 : Vec Ideal S2048x144 .bf16) (w0 : Vec Ideal S1152x144 .bf16)
    (k1 v1 : Vec Ideal S2048x144 .bf16) (w1 : Vec Ideal S1152x144 .bf16)
    (k2 v2 : Vec Ideal S2048x144 .bf16) (w2 : Vec Ideal S1152x144 .bf16)
    (k3 v3 : Vec Ideal S2048x144 .bf16) (w3 : Vec Ideal S1152x144 .bf16)
    (k4 v4 : Vec Ideal S2048x144 .bf16) (w4 : Vec Ideal S1152x144 .bf16)
    (k5 v5 : Vec Ideal S2048x144 .bf16) (w5 : Vec Ideal S1152x144 .bf16)
    (k6 v6 : Vec Ideal S2048x144 .bf16) (w6 : Vec Ideal S1152x144 .bf16)
    (k7 v7 : Vec Ideal S2048x144 .bf16) (w7 : Vec Ideal S1152x144 .bf16)
    (qv : Fin 8 → Fin 144 → EReal) (kr vv : Fin 2048 → Fin 8 → Fin 144 → EReal) (Wo : Cert.Spec.Mat 1152 1152) (p : Fin 128)
    (hq : ∀ (h : Fin 8) (j : Fin 144), qAll xt wq (ix2 p (Cert.Spec.col h j)) * ct (ix2 p j)
        + Cert.Spec.rot (fun j' => qAll xt wq (ix2 p (Cert.Spec.col h j'))) j * st (ix2 p j) = qv h j)
    (hk0 : ∀ k j, k0 (ix2 k j) = kr k 0 j) (hv0 : ∀ k j, v0 (ix2 k j) = vv k 0 j) (hw0 : ∀ e j, w0 (ix2 e j) = Wo e (Cert.Spec.col 0 j))
    (hk1 : ∀ k j, k1 (ix2 k j) = kr k 1 j) (hv1 : ∀ k j, v1 (ix2 k j) = vv k 1 j) (hw1 : ∀ e j, w1 (ix2 e j) = Wo e (Cert.Spec.col 1 j))
    (hk2 : ∀ k j, k2 (ix2 k j) = kr k 2 j) (hv2 : ∀ k j, v2 (ix2 k j) = vv k 2 j) (hw2 : ∀ e j, w2 (ix2 e j) = Wo e (Cert.Spec.col 2 j))
    (hk3 : ∀ k j, k3 (ix2 k j) = kr k 3 j) (hv3 : ∀ k j, v3 (ix2 k j) = vv k 3 j) (hw3 : ∀ e j, w3 (ix2 e j) = Wo e (Cert.Spec.col 3 j))
    (hk4 : ∀ k j, k4 (ix2 k j) = kr k 4 j) (hv4 : ∀ k j, v4 (ix2 k j) = vv k 4 j) (hw4 : ∀ e j, w4 (ix2 e j) = Wo e (Cert.Spec.col 4 j))
    (hk5 : ∀ k j, k5 (ix2 k j) = kr k 5 j) (hv5 : ∀ k j, v5 (ix2 k j) = vv k 5 j) (hw5 : ∀ e j, w5 (ix2 e j) = Wo e (Cert.Spec.col 5 j))
    (hk6 : ∀ k j, k6 (ix2 k j) = kr k 6 j) (hv6 : ∀ k j, v6 (ix2 k j) = vv k 6 j) (hw6 : ∀ e j, w6 (ix2 e j) = Wo e (Cert.Spec.col 6 j))
    (hk7 : ∀ k j, k7 (ix2 k j) = kr k 7 j) (hv7 : ∀ k j, v7 (ix2 k j) = vv k 7 j) (hw7 : ∀ e j, w7 (ix2 e j) = Wo e (Cert.Spec.col 7 j))
    (e : Fin 1152) :
    outV xt wq ct st k0 v0 w0 k1 v1 w1 k2 v2 w2 k3 v3 w3 k4 v4 w4 k5 v5 w5 k6 v6 w6 k7 v7 w7 (ix3 (0 : Fin 1) p e)
      = Cert.SpecG.outRow qv kr vv Wo e := by
  have H0 := headShare_apply (qAll xt wq) 0 slices_S128x1152_o0_0_S128x144 ct st k0 v0 w0 qv kr vv Wo 0 rfl p (hq 0) hk0 hv0 hw0 e
  have H1 := headShare_apply (qAll xt wq) 144 slices_S128x1152_o0_144_S128x144 ct st k1 v1 w1 qv kr vv Wo 1 rfl p (hq 1) hk1 hv1 hw1 e
  have H2 := headShare_apply (qAll xt wq) 288 slices_S128x1152_o0_288_S128x144 ct st k2 v2 w2 qv kr vv Wo 2 rfl p (hq 2) hk2 hv2 hw2 e
  have H3 := headShare_apply (qAll xt wq) 432 slices_S128x1152_o0_432_S128x144 ct st k3 v3 w3 qv kr vv Wo 3 rfl p (hq 3) hk3 hv3 hw3 e
  have H4 := headShare_apply (qAll xt wq) 576 slices_S128x1152_o0_576_S128x144 ct st k4 v4 w4 qv kr vv Wo 4 rfl p (hq 4) hk4 hv4 hw4 e
  have H5 := headShare_apply (qAll xt wq) 720 slices_S128x1152_o0_720_S128x144 ct st k5 v5 w5 qv kr vv Wo 5 rfl p (hq 5) hk5 hv5 hw5 e
  have H6 := headShare_apply (qAll xt wq) 864 slices_S128x1152_o0_864_S128x144 ct st k6 v6 w6 qv kr vv Wo 6 rfl p (hq 6) hk6 hv6 hw6 e
  have H7 := headShare_apply (qAll xt wq) 1008 slices_S128x1152_o0_1008_S128x144 ct st k7 v7 w7 qv kr vv Wo 7 rfl p (hq 7) hk7 hv7 hw7 e
  unfold outV
  refine (shapeCast_ab_1ab_apply _ shapeCasts_S128x1152_S1x128x1152 (0 : Fin 1) p e).trans ?_
  simp only [addf_apply, broadcast_apply]
  rw [H0, H1, H2, H3, H4, H5, H6, H7, Ideal.ofBits_def, Ideal.ofBits_zero_f32]
  rfl

/-! ## The tiles a grid point loads, read in the arrays they are loaded from -/

/-- A 144-column strip of a `[2048, 1152]` buffer loaded at column offset `144·h` holds, at `(k, j)`, the buffer's
    entry at row `k`, lane `j` of head `h`. -/
theorem ldStrip_apply (X : Vec Ideal S2048x1152 .bf16) (c0 : Nat)
    (inb : ∀ a, (![0, c0] : Fin 2 → Nat) a + S2048x144.size a ≤ S2048x1152.size a) (h : Fin 8) (hc : c0 = h.val * 144)
    (k : Fin 2048) (j : Fin 144) :
    View.ld X (Rect.unit ![0, c0] S2048x144.size inb) (ix2 k j) = X (ix2 k (Cert.Spec.col h j)) :=
  congrArg X (funext fun a => Fin.ext (by
    match a with
    | ⟨0, _⟩ =>
      show 0 + 1 * k.val = k.val
      omega
    | ⟨1, _⟩ =>
      show c0 + 1 * j.val = h.val * 144 + j.val
      omega))

/-- The same for a 144-column strip of the `[1152, 1152]` output weights. -/
theorem ldWStrip_apply (X : Vec Ideal S1152x1152 .bf16) (c0 : Nat)
    (inb : ∀ a, (![0, c0] : Fin 2 → Nat) a + S1152x144.size a ≤ S1152x1152.size a) (h : Fin 8) (hc : c0 = h.val * 144)
    (r : Fin 1152) (j : Fin 144) :
    View.ld X (Rect.unit ![0, c0] S1152x144.size inb) (ix2 r j) = X (ix2 r (Cert.Spec.col h j)) :=
  congrArg X (funext fun a => Fin.ext (by
    match a with
    | ⟨0, _⟩ =>
      show 0 + 1 * r.val = r.val
      omega
    | ⟨1, _⟩ =>
      show c0 + 1 * j.val = h.val * 144 + j.val
      omega))

/-- The query weights are loaded whole. -/
theorem ldW_apply (X : Vec Ideal S1152x1152 .bf16) (r d : Fin 1152) :
    View.ld X (Rect.unit ![0, 0] S1152x1152.size inb_S1152x1152_S1152x1152_0_0) (ix2 r d) = X (ix2 r d) :=
  congrArg X (funext fun a => Fin.ext (by
    match a with
    | ⟨0, _⟩ =>
      show 0 + 1 * r.val = r.val
      omega
    | ⟨1, _⟩ =>
      show 0 + 1 * d.val = d.val
      omega))

/-- The activation tile of grid point `i` holds rows `128·i₁ …` of the batch's activations. -/
theorem ldX_apply (i : grid0.Coords) (X : Vec Ideal S1x2048x1152 .f32) (p : Fin 128) (d : Fin 1152)
    (t : Fin 2048) (ht : t.val = 128 * (i 1).val + p.val) :
    View.ld X (Rect.unit (k0_off1 i) S1x128x1152.size (k0_off1_inb i)) (ix3 (0 : Fin 1) p d) = X (ix3 (0 : Fin 1) t d) :=
  congrArg X (funext fun a => Fin.ext (by
    match a with
    | ⟨0, _⟩ =>
      show k0_off1 i 0 + 1 * 0 = 0
      rw [k0_off1_eq i]
      rfl
    | ⟨1, _⟩ =>
      show k0_off1 i 1 + 1 * p.val = t.val
      rw [k0_off1_eq i, ht]
      show 128 * (i 1).val + 1 * p.val = _
      omega
    | ⟨2, _⟩ =>
      show k0_off1 i 2 + 1 * d.val = d.val
      rw [k0_off1_eq i]
      show 0 + 1 * d.val = d.val
      omega))

/-- The cosine and sine tiles of grid point `i` hold the same rows of their tables. -/
theorem ldT_apply (i : grid0.Coords) (X : Vec Ideal S2048x144 .f32) (p : Fin 128) (j : Fin 144)
    (t : Fin 2048) (ht : t.val = 128 * (i 1).val + p.val) :
    View.ld X (Rect.unit (k0_off2 i) S128x144.size (k0_off2_inb i)) (ix2 p j) = X (ix2 t j) :=
  congrArg X (funext fun a => Fin.ext (by
    match a with
    | ⟨0, _⟩ =>
      show k0_off2 i 0 + 1 * p.val = t.val
      rw [k0_off2_eq i, ht]
      show 128 * (i 1).val + 1 * p.val = _
      omega
    | ⟨1, _⟩ =>
      show k0_off2 i 1 + 1 * j.val = j.val
      rw [k0_off2_eq i]
      show 0 + 1 * j.val = j.val
      omega))

/-- What a grid point's body leaves for row `p`, column `e` of its tile: the one-row function at row `128·i₁ + p` of the
    batch, the keys and values read from what the two carried buffers hold. -/
theorem outAt_apply (i : grid0.Coords) (x0 : Vec Ideal S1x2048x1152 .f32) (x1 x4 : Vec Ideal S1152x1152 .bf16)
    (x5 x6 : Vec Ideal S2048x144 .f32) (xs0 xs1 : Vec Ideal S2048x1152 .bf16) (p : Fin 128) (e : Fin 1152) :
    Cert.KernelIdeal.VSpec.outAt i x0 x1 x4 x5 x6 xs0 xs1 (ix3 (0 : Fin 1) p e)
      = Cert.SpecG.outRow
          (fun h j => Cert.Spec.rope (Cert.Spec.proj (fun t d => x0 (ix3 (0 : Fin 1) t d)) (fun r d => x1 (ix2 r d)))
            (fun t j => x5 (ix2 t j)) (fun t j => x6 (ix2 t j))
            ⟨128 * (i 1).val + p.val, by have h1 : (i 1).val < 16 := (i 1).isLt; have := p.isLt; omega⟩ h j)
          (fun k h j => xs0 (ix2 k (Cert.Spec.col h j))) (fun k h j => xs1 (ix2 k (Cert.Spec.col h j)))
          (fun r d => x4 (ix2 r d)) e := by
  have hlt : 128 * (i 1).val + p.val < 2048 := by
    have h1 : (i 1).val < 16 := (i 1).isLt
    have := p.isLt
    omega
  have hQ : ∀ e' : Fin 1152,
      qAll (View.ld x0 (Rect.unit (k0_off1 i) S1x128x1152.size (k0_off1_inb i)))
          (View.ld x1 (Rect.unit ![0, 0] S1152x1152.size inb_S1152x1152_S1152x1152_0_0)) (ix2 p e')
        = Cert.Spec.proj (fun t d => x0 (ix3 (0 : Fin 1) t d)) (fun r d => x1 (ix2 r d))
            ⟨128 * (i 1).val + p.val, hlt⟩ e' := fun e' => by
    rw [qAll_apply]
    unfold Cert.Spec.proj
    exact Finset.sum_congr rfl fun d _ => by rw [ldX_apply i x0 p d ⟨128 * (i 1).val + p.val, hlt⟩ rfl, ldW_apply]
  unfold outAt
  refine outV_apply _ _ _ _ _ _ _ _ _ _ _ _ _ _ _ _ _ _ _ _ _ _ _ _ _ _ _ _ _ _ _ _ p (fun h j => ?_)
    (fun k j => ldStrip_apply xs0 0 _ 0 rfl k j) (fun k j => ldStrip_apply xs1 0 _ 0 rfl k j) (fun r j => ldWStrip_apply x4 0 _ 0 rfl r j)
    (fun k j => ldStrip_apply xs0 144 _ 1 rfl k j) (fun k j => ldStrip_apply xs1 144 _ 1 rfl k j) (fun r j => ldWStrip_apply x4 144 _ 1 rfl r j)
    (fun k j => ldStrip_apply xs0 288 _ 2 rfl k j) (fun k j => ldStrip_apply xs1 288 _ 2 rfl k j) (fun r j => ldWStrip_apply x4 288 _ 2 rfl r j)
    (fun k j => ldStrip_apply xs0 432 _ 3 rfl k j) (fun k j => ldStrip_apply xs1 432 _ 3 rfl k j) (fun r j => ldWStrip_apply x4 432 _ 3 rfl r j)
    (fun k j => ldStrip_apply xs0 576 _ 4 rfl k j) (fun k j => ldStrip_apply xs1 576 _ 4 rfl k j) (fun r j => ldWStrip_apply x4 576 _ 4 rfl r j)
    (fun k j => ldStrip_apply xs0 720 _ 5 rfl k j) (fun k j => ldStrip_apply xs1 720 _ 5 rfl k j) (fun r j => ldWStrip_apply x4 720 _ 5 rfl r j)
    (fun k j => ldStrip_apply xs0 864 _ 6 rfl k j) (fun k j => ldStrip_apply xs1 864 _ 6 rfl k j) (fun r j => ldWStrip_apply x4 864 _ 6 rfl r j)
    (fun k j => ldStrip_apply xs0 1008 _ 7 rfl k j) (fun k j => ldStrip_apply xs1 1008 _ 7 rfl k j) (fun r j => ldWStrip_apply x4 1008 _ 7 rfl r j)
    e
  simp only [hQ]
  rw [ldT_apply i x5 p j ⟨128 * (i 1).val + p.val, hlt⟩ rfl, ldT_apply i x6 p j ⟨128 * (i 1).val + p.val, hlt⟩ rfl]
  rfl

end Cert.KernelIdeal.HeadValue

end
-- ==== Proof.ScratchValue1.lean ====
/-
  The refill of the two carried buffers, piece by piece, as functions of the arrays, read entry by entry.

  A chunk of 512 rows of the activations is projected against a weight matrix (`kChunkV`: row `r` of the chunk
  against row `e` of the weights, a 1152-term sum).  The value buffer's piece is that projection stored whole
  (`vPieceV`).  A key buffer's piece is the rotary embedding (`ropeV`) of one head's 144 columns of the projection:
  the columns times the cosines plus the half-rotated columns (upper half negated in front of the lower half)
  times the sines.  Each of these read at an entry is the corresponding entry of `Cert.Spec.proj` and
  `Cert.Spec.rope` at the row the chunk's offset names.
-/
import proofs.«400258_j82703890252416_3_alg».proof.Proof.Gen.KernelIdeal.Value
import proofs.«400258_j82703890252416_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open scoped BigOperators

namespace Cert.KernelIdeal.ScratchValue

open Cert.KernelIdeal Cert.KernelIdeal.Gen

section Defs
variable {F : FTy → Type} [FloatOps F]

/-- The projection of a 512-row chunk: the chunk against every row of a weight matrix. -/
def kChunkV (xc : Vec F S1x512x1152 .f32) (w : Vec F S1152x1152 .bf16) : FVec F S512x1152 .f32 :=
  matmul dot_S512x1152_S1152x1152_S512x1152_1_1_0_0_n_n none
    (truncf .bf16 (shapeCast S512x1152 xc shapeCasts_S1x512x1152_S512x1152) bitsLt_bf16_f32)
    (shapeCast S1152x1152 w shapeCasts_S1152x1152_S1152x1152) (constant S512x1152 .f32 0x00000000#32)

/-- The value buffer's piece: the chunk's projection, stored whole. -/
def vPieceV (xc : Vec F S1x512x1152 .f32) (w : Vec F S1152x1152 .bf16) : FVec F S512x1152 .bf16 :=
  shapeCast S512x1152 (truncf .bf16 (kChunkV xc w) bitsLt_bf16_f32) shapeCasts_S512x1152_S512x1152

/-- The half-rotation of a head's 144 columns: zero less the upper 72 columns, in front of the lower 72. -/
def halfRotV (P : FVec F S512x144 .f32) : FVec F S512x144 .f32 :=
  concatenate S512x144 1
    [⟨S512x72, subf (broadcast S512x72 (Scalar.ofBits .f32 0x00000000#32))
        (extractStridedSlice S512x72 ![0, 72] P slices_S512x144_o0_72_S512x72)⟩,
     ⟨S512x72, extractStridedSlice S512x72 ![0, 0] P slices_S512x144_o0_0_S512x72⟩]
    concatenates_S512x72_S512x72_S512x144_d1

/-- The key buffer's piece: the rotary embedding of one head's 144 columns of a 512-row chunk. -/
def ropeV (P : FVec F S512x144 .f32) (cc sc : Vec F S512x144 .f32) : FVec F S512x144 .bf16 :=
  shapeCast S512x144 (truncf .bf16 (addf (mulf P cc) (mulf (halfRotV P) sc)) bitsLt_bf16_f32)
    shapeCasts_S512x144_S512x144

end Defs

/-! ## The projection at an entry -/

abbrev D512 := dot_S512x1152_S1152x1152_S512x1152_1_1_0_0_n_n

theorem lhs_0 (i : S512x1152.Idx) (q : D512.contr.Idx) : (D512.lhsIdx i q 0).val = (i 0).val := by
  unfold DotDims.lhsIdx
  rw [dif_neg (show ¬(0 : Fin S512x1152.rank) ∈ D512.lhsBatch by decide),
    dif_pos (show (0 : Fin S512x1152.rank) ∈ D512.lhsNonContracting by decide)]
  rfl
theorem lhs_1 (i : S512x1152.Idx) (q : D512.contr.Idx) : (D512.lhsIdx i q 1).val = (q ⟨0, by decide⟩).val :=
  D512.lhsIdx_val_of_single rfl i q
theorem rhs_0 (i : S512x1152.Idx) (q : D512.contr.Idx) : (D512.rhsIdx i q 0).val = (i 1).val := by
  unfold DotDims.rhsIdx
  rw [dif_neg (show ¬(0 : Fin S1152x1152.rank) ∈ D512.rhsBatch by decide),
    dif_pos (show (0 : Fin S1152x1152.rank) ∈ D512.rhsNonContracting by decide)]
  rfl
theorem rhs_1 (i : S512x1152.Idx) (q : D512.contr.Idx) : (D512.rhsIdx i q 1).val = (q ⟨0, by decide⟩).val :=
  D512.rhsIdx_val_of_single rfl i q

/-- Row `r` of a chunk's projection at column `e`: the row against row `e` of the weights. -/
theorem kChunkV_apply (xc : Vec Ideal S1x512x1152 .f32) (w : Vec Ideal S1152x1152 .bf16) (r : Fin 512) (e : Fin 1152) :
    kChunkV xc w (ix2 r e) = ∑ d : Fin 1152, xc (ix3 (0 : Fin 1) r d) * w (ix2 e d) := by
  unfold kChunkV
  refine (Ideal.matmul_constant_zero_apply D512 none _ _ (ix2 r e)).trans ?_
  rw [← Equiv.sum_comp (contrEquiv1 D512 1152 rfl rfl).symm]
  refine Finset.sum_congr rfl fun k _ => ?_
  have hk := contrEquiv1_symm_val D512 1152 rfl rfl k
  have el : shapeCast S512x1152 xc shapeCasts_S1x512x1152_S512x1152
      (D512.lhsIdx (ix2 r e) ((contrEquiv1 D512 1152 rfl rfl).symm k)) = xc (ix3 (0 : Fin 1) r k) :=
    shapeCast_apply xc shapeCasts_S1x512x1152_S512x1152 _ (ix3 (0 : Fin 1) r k) (by
      rw [Shape.rowMajor_val_three, Shape.rowMajor_val_two, lhs_0, lhs_1, hk]
      show ((0 : Nat) * 512 + r.val) * 1152 + k.val = r.val * 1152 + k.val
      omega)
  have er : D512.rhsIdx (ix2 r e) ((contrEquiv1 D512 1152 rfl rfl).symm k) = ix2 e k := funext fun a => Fin.ext (by
    match a with
    | ⟨0, _⟩ => exact rhs_0 _ _
    | ⟨1, _⟩ => exact (rhs_1 _ _).trans hk)
  rw [shapeCast_self, er]
  exact congrArg (· * w (ix2 e k)) el

/-! ## The rotary embedding at an entry -/

/-- The half-rotated columns at lane `j`: the negated lane `j + 72` below 72, lane `j - 72` from 72 on. -/
theorem halfRotV_apply (P : FVec Ideal S512x144 .f32) (r : Fin 512) (j : Fin 144) :
    halfRotV P (ix2 r j) = Cert.Spec.rot (fun j' => P (ix2 r j')) j := by
  unfold halfRotV Cert.Spec.rot
  by_cases hj : j.val < 72
  · rw [dif_pos hj]
    refine (concatenate_pair_apply_left (1 : Fin S512x144.rank) _ _ concatenates_S512x72_S512x72_S512x144_d1
      (ix2 r j) rfl (ix2 r (⟨j.val, hj⟩ : Fin 72))
      (fun b => by match b with | ⟨0, _⟩ => rfl | ⟨1, _⟩ => rfl)).trans ?_
    have e := extractStridedSlice_apply ![0, 72] P slices_S512x144_o0_72_S512x72 (ix2 r (⟨j.val, hj⟩ : Fin 72))
      (ix2 r (⟨j.val + 72, by omega⟩ : Fin 144)) (fun a => by
        match a with
        | ⟨0, _⟩ => show r.val = 0 + r.val; omega
        | ⟨1, _⟩ => show j.val + 72 = 72 + j.val; omega)
    refine (congrArg (fun z : EReal => Ideal.ofBits .f32 0x00000000#32 - z) e).trans ?_
    rw [Ideal.ofBits_zero_f32, sub_eq_add_neg, zero_add]
  · rw [dif_neg hj]
    have hj' : j.val - 72 < 72 := by have := j.isLt; omega
    refine (concatenate_pair_apply_right (1 : Fin S512x144.rank) _ _ concatenates_S512x72_S512x72_S512x144_d1
      (ix2 r j) rfl rfl (ix2 r (⟨j.val - 72, hj'⟩ : Fin 72))
      (fun b hb => by match b with | ⟨0, _⟩ => rfl | ⟨1, _⟩ => exact absurd rfl hb)
      (by show (j.val - 72) + 72 = j.val; omega)).trans ?_
    exact extractStridedSlice_apply ![0, 0] P slices_S512x144_o0_0_S512x72 (ix2 r (⟨j.val - 72, hj'⟩ : Fin 72))
      (ix2 r (⟨j.val - 72, by omega⟩ : Fin 144)) (fun a => by
        match a with
        | ⟨0, _⟩ => show r.val = 0 + r.val; omega
        | ⟨1, _⟩ => show j.val - 72 = 0 + (j.val - 72); omega)

/-- The rotary embedding at row `r`, lane `j`. -/
theorem ropeV_apply (P : FVec Ideal S512x144 .f32) (cc sc : Vec Ideal S512x144 .f32) (r : Fin 512) (j : Fin 144) :
    ropeV P cc sc (ix2 r j)
      = P (ix2 r j) * cc (ix2 r j) + Cert.Spec.rot (fun j' => P (ix2 r j')) j * sc (ix2 r j) := by
  unfold ropeV
  rw [shapeCast_self]
  exact congrArg (fun z : EReal => P (ix2 r j) * cc (ix2 r j) + z * sc (ix2 r j)) (halfRotV_apply P r j)

/-- A head's 144 columns of a projected chunk, at row `r` and lane `j`: column `c0 + j` of the projection. -/
theorem slice_apply (K : FVec Ideal S512x1152 .f32) (c0 : Nat) (hc : c0 + 144 ≤ 1152)
    (hs : S512x1152.Slices ![0, c0] S512x144) (r : Fin 512) (j : Fin 144) :
    extractStridedSlice S512x144 ![0, c0] K hs (ix2 r j) = K (ix2 r (⟨c0 + j.val, by have := j.isLt; omega⟩ : Fin 1152)) :=
  extractStridedSlice_apply ![0, c0] K hs (ix2 r j) _ (fun a => by
    match a with
    | ⟨0, _⟩ => show r.val = 0 + r.val; omega
    | ⟨1, _⟩ => rfl)

/-! ## The loads at an entry -/

/-- A chunk of the activations at `(0, r, d)`: the activations at row `r0 + r`. -/
theorem ldX (x0 : Vec Ideal S1x2048x1152 .f32) (r0 : Nat) (hr : r0 + 512 ≤ 2048)
    (inbx : ∀ a, (![0, r0, 0] : Fin 3 → Nat) a + S1x512x1152.size a ≤ S1x2048x1152.size a) (r : Fin 512) (d : Fin 1152) :
    View.ld x0 (Rect.unit ![0, r0, 0] S1x512x1152.size inbx) (ix3 (0 : Fin 1) r d)
      = x0 (ix3 (0 : Fin 1) (⟨r0 + r.val, by have := r.isLt; omega⟩ : Fin 2048) d) :=
  congrArg x0 (funext fun a => Fin.ext (by
    match a with
    | ⟨0, _⟩ => show 0 + 1 * 0 = 0; omega
    | ⟨1, _⟩ => show r0 + 1 * r.val = r0 + r.val; omega
    | ⟨2, _⟩ => show 0 + 1 * d.val = d.val; omega))

/-- The whole weight matrix loaded, at `(e, d)`. -/
theorem ldW (w : Vec Ideal S1152x1152 .bf16)
    (inbw : ∀ a, (![0, 0] : Fin 2 → Nat) a + S1152x1152.size a ≤ S1152x1152.size a) (e d : Fin 1152) :
    View.ld w (Rect.unit ![0, 0] S1152x1152.size inbw) (ix2 e d) = w (ix2 e d) :=
  congrArg w (funext fun a => Fin.ext (by
    match a with
    | ⟨0, _⟩ => show 0 + 1 * e.val = e.val; omega
    | ⟨1, _⟩ => show 0 + 1 * d.val = d.val; omega))

/-- A chunk's rows of a rotary table at `(r, j)`: the table at row `r0 + r`. -/
theorem ldC (cs : Vec Ideal S2048x144 .f32) (r0 : Nat) (hr : r0 + 512 ≤ 2048)
    (inbc : ∀ a, (![r0, 0] : Fin 2 → Nat) a + S512x144.size a ≤ S2048x144.size a) (r : Fin 512) (j : Fin 144) :
    View.ld cs (Rect.unit ![r0, 0] S512x144.size inbc) (ix2 r j)
      = cs (ix2 (⟨r0 + r.val, by have := r.isLt; omega⟩ : Fin 2048) j) :=
  congrArg cs (funext fun a => Fin.ext (by
    match a with
    | ⟨0, _⟩ => show r0 + 1 * r.val = r0 + r.val; omega
    | ⟨1, _⟩ => show 0 + 1 * j.val = j.val; omega))

/-- A loaded chunk's projection at `(r, e)`: the activations' projection at row `r0 + r`. -/
theorem chunk_apply (x0 : Vec Ideal S1x2048x1152 .f32) (w : Vec Ideal S1152x1152 .bf16) (r0 : Nat) (hr : r0 + 512 ≤ 2048)
    (inbx : ∀ a, (![0, r0, 0] : Fin 3 → Nat) a + S1x512x1152.size a ≤ S1x2048x1152.size a)
    (inbw : ∀ a, (![0, 0] : Fin 2 → Nat) a + S1152x1152.size a ≤ S1152x1152.size a) (r : Fin 512) (e : Fin 1152) :
    kChunkV (View.ld x0 (Rect.unit ![0, r0, 0] S1x512x1152.size inbx)) (View.ld w (Rect.unit ![0, 0] S1152x1152.size inbw)) (ix2 r e)
      = Cert.Spec.proj (fun t d => x0 (ix3 (0 : Fin 1) t d)) (fun r d => w (ix2 r d))
          (⟨r0 + r.val, by have := r.isLt; omega⟩ : Fin 2048) e := by
  refine (kChunkV_apply _ _ r e).trans ?_
  unfold Cert.Spec.proj
  refine Finset.sum_congr rfl fun d _ => ?_
  rw [ldX x0 r0 hr inbx r d, ldW w inbw e d]

/-! ## The two buffers as functions of the arrays, and each piece as the tile its rectangle names -/

/-- The value buffer: the activations' projection against the value weights. -/
def GV (x0 : Vec Ideal S1x2048x1152 .f32) (x3 : Vec Ideal S1152x1152 .bf16) : Vec Ideal S2048x1152 .bf16 :=
  fun y => Cert.Spec.proj (fun t d => x0 (ix3 (0 : Fin 1) t d)) (fun r d => x3 (ix2 r d))
    (⟨(y 0).val, idx2_lt0 y⟩ : Fin 2048) (⟨(y 1).val, idx2_lt1 y⟩ : Fin 1152)

/-- The key buffer: the rotary embedding of the activations' projection against the key weights, column
    `144·h + j` holding head `h` at lane `j`. -/
def GK (x0 : Vec Ideal S1x2048x1152 .f32) (x2 : Vec Ideal S1152x1152 .bf16) (x5 x6 : Vec Ideal S2048x144 .f32) :
    Vec Ideal S2048x1152 .bf16 :=
  fun y => Cert.Spec.rope (Cert.Spec.proj (fun t d => x0 (ix3 (0 : Fin 1) t d)) (fun r d => x2 (ix2 r d)))
    (fun t j => x5 (ix2 t j)) (fun t j => x6 (ix2 t j))
    (⟨(y 0).val, idx2_lt0 y⟩ : Fin 2048)
    (⟨(y 1).val / 144, by have := idx2_lt1 y; omega⟩ : Fin 8)
    (⟨(y 1).val % 144, Nat.mod_lt _ (by decide)⟩ : Fin 144)

/-- A value piece at its local index is the value buffer's function at the index under it. -/
theorem vPiece_apply (x0 : Vec Ideal S1x2048x1152 .f32) (x3 : Vec Ideal S1152x1152 .bf16) (r0 : Nat) (hr : r0 + 512 ≤ 2048)
    (inbx : ∀ a, (![0, r0, 0] : Fin 3 → Nat) a + S1x512x1152.size a ≤ S1x2048x1152.size a)
    (inbw : ∀ a, (![0, 0] : Fin 2 → Nat) a + S1152x1152.size a ≤ S1152x1152.size a)
    (inbo : ∀ a, (![r0, 0] : Fin 2 → Nat) a + S512x1152.size a ≤ S2048x1152.size a)
    (x : (Rect.unit (s := S2048x1152) ![r0, 0] S512x1152.size inbo).shape.Idx) :
    vPieceV (View.ld x0 (Rect.unit ![0, r0, 0] S1x512x1152.size inbx)) (View.ld x3 (Rect.unit ![0, 0] S1152x1152.size inbw)) x
      = GV x0 x3 ((Rect.unit (s := S2048x1152) ![r0, 0] S512x1152.size inbo).emb x) := by
  obtain ⟨r, e, rfl⟩ : ∃ (r : Fin 512) (e : Fin 1152), x = ix2 r e := ⟨x 0, x 1, eq_ix2 x⟩
  unfold vPieceV
  rw [shapeCast_self]
  refine (chunk_apply x0 x3 r0 hr inbx inbw r e).trans ?_
  unfold GV
  have key : ∀ (t t' : Fin 2048) (e e' : Fin 1152), t = t' → e = e' →
      Cert.Spec.proj (fun t d => x0 (ix3 (0 : Fin 1) t d)) (fun r d => x3 (ix2 r d)) t e
        = Cert.Spec.proj (fun t d => x0 (ix3 (0 : Fin 1) t d)) (fun r d => x3 (ix2 r d)) t' e' := by
    rintro _ _ _ _ rfl rfl; rfl
  exact key _ _ _ _ (Fin.ext (by show r0 + r.val = r0 + 1 * r.val; omega)) (Fin.ext (by show e.val = 0 + 1 * e.val; omega))

/-- A key piece at its local index is the key buffer's function at the index under it. -/
theorem kPiece_apply (x0 : Vec Ideal S1x2048x1152 .f32) (x2 : Vec Ideal S1152x1152 .bf16) (x5 x6 : Vec Ideal S2048x144 .f32)
    (r0 c0 : Nat) (hr : r0 + 512 ≤ 2048) (hc : c0 + 144 ≤ 1152) (h144 : c0 % 144 = 0)
    (inbx : ∀ a, (![0, r0, 0] : Fin 3 → Nat) a + S1x512x1152.size a ≤ S1x2048x1152.size a)
    (inbw : ∀ a, (![0, 0] : Fin 2 → Nat) a + S1152x1152.size a ≤ S1152x1152.size a)
    (inbc : ∀ a, (![r0, 0] : Fin 2 → Nat) a + S512x144.size a ≤ S2048x144.size a)
    (inbo : ∀ a, (![r0, c0] : Fin 2 → Nat) a + S512x144.size a ≤ S2048x1152.size a)
    (hs : S512x1152.Slices ![0, c0] S512x144)
    (x : (Rect.unit (s := S2048x1152) ![r0, c0] S512x144.size inbo).shape.Idx) :
    ropeV (extractStridedSlice S512x144 ![0, c0]
        (kChunkV (View.ld x0 (Rect.unit ![0, r0, 0] S1x512x1152.size inbx)) (View.ld x2 (Rect.unit ![0, 0] S1152x1152.size inbw))) hs)
      (View.ld x5 (Rect.unit ![r0, 0] S512x144.size inbc)) (View.ld x6 (Rect.unit ![r0, 0] S512x144.size inbc)) x
      = GK x0 x2 x5 x6 ((Rect.unit (s := S2048x1152) ![r0, c0] S512x144.size inbo).emb x) := by
  obtain ⟨r, j, rfl⟩ : ∃ (r : Fin 512) (j : Fin 144), x = ix2 r j := ⟨x 0, x 1, eq_ix2 x⟩
  have hh : c0 / 144 < 8 := by omega
  -- the head's columns of the chunk's projection are the projection's columns `144·(c0/144) + j'`
  have hP : ∀ j' : Fin 144,
      extractStridedSlice S512x144 ![0, c0]
        (kChunkV (View.ld x0 (Rect.unit ![0, r0, 0] S1x512x1152.size inbx)) (View.ld x2 (Rect.unit ![0, 0] S1152x1152.size inbw))) hs (ix2 r j')
      = Cert.Spec.proj (fun t d => x0 (ix3 (0 : Fin 1) t d)) (fun r d => x2 (ix2 r d))
          (⟨r0 + r.val, by have := r.isLt; omega⟩ : Fin 2048) (Cert.Spec.col (⟨c0 / 144, hh⟩ : Fin 8) j') := fun j' =>
    (slice_apply _ c0 hc hs r j').trans ((chunk_apply x0 x2 r0 hr inbx inbw r _).trans
      (congrArg (Cert.Spec.proj (fun t d => x0 (ix3 (0 : Fin 1) t d)) (fun r d => x2 (ix2 r d)) _)
        (Fin.ext (by show c0 + j'.val = c0 / 144 * 144 + j'.val; omega))))
  refine (ropeV_apply _ _ _ r j).trans ?_
  rw [hP j, funext hP, ldC x5 r0 hr inbc r j, ldC x6 r0 hr inbc r j]
  unfold GK
  have key : ∀ (t t' : Fin 2048) (h h' : Fin 8) (l l' : Fin 144), t = t' → h = h' → l = l' →
      Cert.Spec.rope (Cert.Spec.proj (fun t d => x0 (ix3 (0 : Fin 1) t d)) (fun r d => x2 (ix2 r d)))
          (fun t j => x5 (ix2 t j)) (fun t j => x6 (ix2 t j)) t h l
        = Cert.Spec.rope (Cert.Spec.proj (fun t d => x0 (ix3 (0 : Fin 1) t d)) (fun r d => x2 (ix2 r d)))
          (fun t j => x5 (ix2 t j)) (fun t j => x6 (ix2 t j)) t' h' l' := by
    rintro _ _ _ _ _ _ rfl rfl rfl; rfl
  refine Eq.trans ?_ (key (⟨r0 + r.val, by have := r.isLt; omega⟩ : Fin 2048) _ (⟨c0 / 144, hh⟩ : Fin 8) _ j _
    (Fin.ext (by show r0 + r.val = r0 + 1 * r.val; omega))
    (Fin.ext (by show c0 / 144 = (c0 + 1 * j.val) / 144; have := j.isLt; omega))
    (Fin.ext (by show j.val = (c0 + 1 * j.val) % 144; have := j.isLt; omega)))
  rfl

end Cert.KernelIdeal.ScratchValue

end
-- ==== Proof.ScratchValue.lean ====
/-
  What the two carried buffers hold after a grid point, entry by entry.

  At a point that refills them, the key buffer ends with 32 pieces (4 chunks of 512 rows by 8 heads of 144
  columns) and the value buffer with 4 pieces (the chunks, whole rows).  Every piece is the tile its rectangle names
  of ONE function of the buffer index: the rotary embedding of the key projection (`GK`), the value projection
  (`GV`).  The pieces cover the buffers, so the buffers hold these functions.  At a point that does not refill them
  the buffers hold what the point before left.
-/
import proofs.«400258_j82703890252416_3_alg».proof.Proof.ScratchValue1

set_option maxRecDepth 16384

noncomputable section

open Idealize.ShloMosaic Idealize.ShloMosaic.TcCoe Idealize.SL.Sem Idealize.ShloMosaic.ValueIdx

namespace Cert.KernelIdeal.ScratchValue

open Cert.KernelIdeal Cert.KernelIdeal.Gen

/-- The key buffer's function at column `144·h + j` of row `t`: head `h` at lane `j`. -/
theorem GK_col (x0 : Vec Ideal S1x2048x1152 .f32) (x2 : Vec Ideal S1152x1152 .bf16) (x5 x6 : Vec Ideal S2048x144 .f32)
    (t : Fin 2048) (h : Fin 8) (j : Fin 144) :
    GK x0 x2 x5 x6 (ix2 t (Cert.Spec.col h j))
      = Cert.Spec.rope (Cert.Spec.proj (fun t d => x0 (ix3 (0 : Fin 1) t d)) (fun r d => x2 (ix2 r d)))
          (fun t j => x5 (ix2 t j)) (fun t j => x6 (ix2 t j)) t h j := by
  unfold GK
  have key : ∀ (t t' : Fin 2048) (h h' : Fin 8) (l l' : Fin 144), t = t' → h = h' → l = l' →
      Cert.Spec.rope (Cert.Spec.proj (fun t d => x0 (ix3 (0 : Fin 1) t d)) (fun r d => x2 (ix2 r d)))
          (fun t j => x5 (ix2 t j)) (fun t j => x6 (ix2 t j)) t h l
        = Cert.Spec.rope (Cert.Spec.proj (fun t d => x0 (ix3 (0 : Fin 1) t d)) (fun r d => x2 (ix2 r d)))
          (fun t j => x5 (ix2 t j)) (fun t j => x6 (ix2 t j)) t' h' l' := by
    rintro _ _ _ _ _ _ rfl rfl rfl; rfl
  exact key _ _ _ _ _ _ (Fin.ext rfl)
    (Fin.ext (by show (h.val * 144 + j.val) / 144 = h.val; have := j.isLt; omega))
    (Fin.ext (by show (h.val * 144 + j.val) % 144 = j.val; have := j.isLt; omega))

/-- At a point that refills them, the key buffer at column `144·h + j` of row `t` holds the rotary embedding of
    the key projection: head `h`, lane `j` of row `t`. -/
theorem sout_A_0_apply (c : Dev nD) (i : grid0.Coords) (arg2 : Memref sig .tc .vmem S1x2048x1152 .f32) (harg2 : arg2.IsWhole) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .bf16) (harg6 : arg6.IsWhole) (arg7 : Memref sig .tc .vmem S2048x144 .f32) (harg7 : arg7.IsWhole) (arg8 : Memref sig .tc .vmem S2048x144 .f32) (harg8 : arg8.IsWhole) (arg9 : Memref sig .tc .vmem S1x128x1152 .f32) (harg9 : arg9.IsWhole) (arg10 : Memref sig .tc .vmem S2048x1152 .bf16) (harg10 : arg10.IsWhole) (arg11 : Memref sig .tc .vmem S2048x1152 .bf16) (harg11 : arg11.IsWhole) (hc0 : cond0_0 i)
    (x0 : Vec Ideal S1x2048x1152 .f32) (x1 x2 x3 x4 : Vec Ideal S1152x1152 .bf16) (x5 x6 : Vec Ideal S2048x144 .f32)
    (t : Fin 2048) (h : Fin 8) (j : Fin 144) :
    sout0_A_0 c i arg2 harg2 arg3 harg3 arg4 harg4 arg5 harg5 arg6 harg6 arg7 harg7 arg8 harg8 arg9 harg9 arg10 harg10 arg11 harg11 hc0 x0 x1 x2 x3 x4 x5 x6 (ix2 t (Cert.Spec.col h j))
      = Cert.Spec.rope (Cert.Spec.proj (fun t d => x0 (ix3 (0 : Fin 1) t d)) (fun r d => x2 (ix2 r d)))
          (fun t j => x5 (ix2 t j)) (fun t j => x6 (ix2 t j)) t h j := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  refine (View.canon_apply_of_pieces (GK x0 x2 x5 x6) _ ?_ _ (scover0_A_0 c i arg2 harg2 arg3 harg3 arg4 harg4 arg5 harg5 arg6 harg6 arg7 harg7 arg8 harg8 arg9 harg9 arg10 harg10 arg11 harg11 hc0 x0 x1 x2 x3 x4 x5 x6 (ix2 t (Cert.Spec.col h j)))).trans ?_
  · unfold kernelRun0_A
    dsimp only
    sl_unfold_words
    simp only [View.readAt_eq_ld, harg2.read_unread, harg4.read_unread, harg7.read_unread, harg8.read_unread]
    refine List.forall_mem_cons.2 ⟨fun x => kPiece_apply x0 x2 x5 x6 1536 1008 (by decide) (by decide) (by decide) (by decide) (by decide) (by decide) (by decide) (by decide) x, ?_⟩
    refine List.forall_mem_cons.2 ⟨fun x => kPiece_apply x0 x2 x5 x6 1536 864 (by decide) (by decide) (by decide) (by decide) (by decide) (by decide) (by decide) (by decide) x, ?_⟩
    refine List.forall_mem_cons.2 ⟨fun x => kPiece_apply x0 x2 x5 x6 1536 720 (by decide) (by decide) (by decide) (by decide) (by decide) (by decide) (by decide) (by decide) x, ?_⟩
    refine List.forall_mem_cons.2 ⟨fun x => kPiece_apply x0 x2 x5 x6 1536 576 (by decide) (by decide) (by decide) (by decide) (by decide) (by decide) (by decide) (by decide) x, ?_⟩
    refine List.forall_mem_cons.2 ⟨fun x => kPiece_apply x0 x2 x5 x6 1536 432 (by decide) (by decide) (by decide) (by decide) (by decide) (by decide) (by decide) (by decide) x, ?_⟩
    refine List.forall_mem_cons.2 ⟨fun x => kPiece_apply x0 x2 x5 x6 1536 288 (by decide) (by decide) (by decide) (by decide) (by decide) (by decide) (by decide) (by decide) x, ?_⟩
    refine List.forall_mem_cons.2 ⟨fun x => kPiece_apply x0 x2 x5 x6 1536 144 (by decide) (by decide) (by decide) (by decide) (by decide) (by decide) (by decide) (by decide) x, ?_⟩
    refine List.forall_mem_cons.2 ⟨fun x => kPiece_apply x0 x2 x5 x6 1536 0 (by decide) (by decide) (by decide) (by decide) (by decide) (by decide) (by decide) (by decide) x, ?_⟩
    refine List.forall_mem_cons.2 ⟨fun x => kPiece_apply x0 x2 x5 x6 1024 1008 (by decide) (by decide) (by decide) (by decide) (by decide) (by decide) (by decide) (by decide) x, ?_⟩
    refine List.forall_mem_cons.2 ⟨fun x => kPiece_apply x0 x2 x5 x6 1024 864 (by decide) (by decide) (by decide) (by decide) (by decide) (by decide) (by decide) (by decide) x, ?_⟩
    refine List.forall_mem_cons.2 ⟨fun x => kPiece_apply x0 x2 x5 x6 1024 720 (by decide) (by decide) (by decide) (by decide) (by decide) (by decide) (by decide) (by decide) x, ?_⟩
    refine List.forall_mem_cons.2 ⟨fun x => kPiece_apply x0 x2 x5 x6 1024 576 (by decide) (by decide) (by decide) (by decide) (by decide) (by decide) (by decide) (by decide) x, ?_⟩
    refine List.forall_mem_cons.2 ⟨fun x => kPiece_apply x0 x2 x5 x6 1024 432 (by decide) (by decide) (by decide) (by decide) (by decide) (by decide) (by decide) (by decide) x, ?_⟩
    refine List.forall_mem_cons.2 ⟨fun x => kPiece_apply x0 x2 x5 x6 1024 288 (by decide) (by decide) (by decide) (by decide) (by decide) (by decide) (by decide) (by decide) x, ?_⟩
    refine List.forall_mem_cons.2 ⟨fun x => kPiece_apply x0 x2 x5 x6 1024 144 (by decide) (by decide) (by decide) (by decide) (by decide) (by decide) (by decide) (by decide) x, ?_⟩
    refine List.forall_mem_cons.2 ⟨fun x => kPiece_apply x0 x2 x5 x6 1024 0 (by decide) (by decide) (by decide) (by decide) (by decide) (by decide) (by decide) (by decide) x, ?_⟩
    refine List.forall_mem_cons.2 ⟨fun x => kPiece_apply x0 x2 x5 x6 512 1008 (by decide) (by decide) (by decide) (by decide) (by decide) (by decide) (by decide) (by decide) x, ?_⟩
    refine List.forall_mem_cons.2 ⟨fun x => kPiece_apply x0 x2 x5 x6 512 864 (by decide) (by decide) (by decide) (by decide) (by decide) (by decide) (by decide) (by decide) x, ?_⟩
    refine List.forall_mem_cons.2 ⟨fun x => kPiece_apply x0 x2 x5 x6 512 720 (by decide) (by decide) (by decide) (by decide) (by decide) (by decide) (by decide) (by decide) x, ?_⟩
    refine List.forall_mem_cons.2 ⟨fun x => kPiece_apply x0 x2 x5 x6 512 576 (by decide) (by decide) (by decide) (by decide) (by decide) (by decide) (by decide) (by decide) x, ?_⟩
    refine List.forall_mem_cons.2 ⟨fun x => kPiece_apply x0 x2 x5 x6 512 432 (by decide) (by decide) (by decide) (by decide) (by decide) (by decide) (by decide) (by decide) x, ?_⟩
    refine List.forall_mem_cons.2 ⟨fun x => kPiece_apply x0 x2 x5 x6 512 288 (by decide) (by decide) (by decide) (by decide) (by decide) (by decide) (by decide) (by decide) x, ?_⟩
    refine List.forall_mem_cons.2 ⟨fun x => kPiece_apply x0 x2 x5 x6 512 144 (by decide) (by decide) (by decide) (by decide) (by decide) (by decide) (by decide) (by decide) x, ?_⟩
    refine List.forall_mem_cons.2 ⟨fun x => kPiece_apply x0 x2 x5 x6 512 0 (by decide) (by decide) (by decide) (by decide) (by decide) (by decide) (by decide) (by decide) x, ?_⟩
    refine List.forall_mem_cons.2 ⟨fun x => kPiece_apply x0 x2 x5 x6 0 1008 (by decide) (by decide) (by decide) (by decide) (by decide) (by decide) (by decide) (by decide) x, ?_⟩
    refine List.forall_mem_cons.2 ⟨fun x => kPiece_apply x0 x2 x5 x6 0 864 (by decide) (by decide) (by decide) (by decide) (by decide) (by decide) (by decide) (by decide) x, ?_⟩
    refine List.forall_mem_cons.2 ⟨fun x => kPiece_apply x0 x2 x5 x6 0 720 (by decide) (by decide) (by decide) (by decide) (by decide) (by decide) (by decide) (by decide) x, ?_⟩
    refine List.forall_mem_cons.2 ⟨fun x => kPiece_apply x0 x2 x5 x6 0 576 (by decide) (by decide) (by decide) (by decide) (by decide) (by decide) (by decide) (by decide) x, ?_⟩
    refine List.forall_mem_cons.2 ⟨fun x => kPiece_apply x0 x2 x5 x6 0 432 (by decide) (by decide) (by decide) (by decide) (by decide) (by decide) (by decide) (by decide) x, ?_⟩
    refine List.forall_mem_cons.2 ⟨fun x => kPiece_apply x0 x2 x5 x6 0 288 (by decide) (by decide) (by decide) (by decide) (by decide) (by decide) (by decide) (by decide) x, ?_⟩
    refine List.forall_mem_cons.2 ⟨fun x => kPiece_apply x0 x2 x5 x6 0 144 (by decide) (by decide) (by decide) (by decide) (by decide) (by decide) (by decide) (by decide) x, ?_⟩
    refine List.forall_mem_cons.2 ⟨fun x => kPiece_apply x0 x2 x5 x6 0 0 (by decide) (by decide) (by decide) (by decide) (by decide) (by decide) (by decide) (by decide) x, ?_⟩
    exact List.forall_mem_nil _
  · exact GK_col x0 x2 x5 x6 t h j

/-- At a point that refills them, the value buffer at `(t, e)` holds the value projection there. -/
theorem sout_A_1_apply (c : Dev nD) (i : grid0.Coords) (arg2 : Memref sig .tc .vmem S1x2048x1152 .f32) (harg2 : arg2.IsWhole) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .bf16) (harg6 : arg6.IsWhole) (arg7 : Memref sig .tc .vmem S2048x144 .f32) (harg7 : arg7.IsWhole) (arg8 : Memref sig .tc .vmem S2048x144 .f32) (harg8 : arg8.IsWhole) (arg9 : Memref sig .tc .vmem S1x128x1152 .f32) (harg9 : arg9.IsWhole) (arg10 : Memref sig .tc .vmem S2048x1152 .bf16) (harg10 : arg10.IsWhole) (arg11 : Memref sig .tc .vmem S2048x1152 .bf16) (harg11 : arg11.IsWhole) (hc0 : cond0_0 i)
    (x0 : Vec Ideal S1x2048x1152 .f32) (x1 x2 x3 x4 : Vec Ideal S1152x1152 .bf16) (x5 x6 : Vec Ideal S2048x144 .f32)
    (t : Fin 2048) (e : Fin 1152) :
    sout0_A_1 c i arg2 harg2 arg3 harg3 arg4 harg4 arg5 harg5 arg6 harg6 arg7 harg7 arg8 harg8 arg9 harg9 arg10 harg10 arg11 harg11 hc0 x0 x1 x2 x3 x4 x5 x6 (ix2 t e)
      = Cert.Spec.proj (fun t d => x0 (ix3 (0 : Fin 1) t d)) (fun r d => x3 (ix2 r d)) t e := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  refine (View.canon_apply_of_pieces (GV x0 x3) _ ?_ _ (scover0_A_1 c i arg2 harg2 arg3 harg3 arg4 harg4 arg5 harg5 arg6 harg6 arg7 harg7 arg8 harg8 arg9 harg9 arg10 harg10 arg11 harg11 hc0 x0 x1 x2 x3 x4 x5 x6 (ix2 t e))).trans ?_
  · unfold kernelRun0_A
    dsimp only
    sl_unfold_words
    simp only [View.readAt_eq_ld, harg2.read_unread, harg5.read_unread]
    refine List.forall_mem_cons.2 ⟨fun x => vPiece_apply x0 x3 1536 (by decide) (by decide) (by decide) (by decide) x, ?_⟩
    refine List.forall_mem_cons.2 ⟨fun x => vPiece_apply x0 x3 1024 (by decide) (by decide) (by decide) (by decide) x, ?_⟩
    refine List.forall_mem_cons.2 ⟨fun x => vPiece_apply x0 x3 512 (by decide) (by decide) (by decide) (by decide) x, ?_⟩
    refine List.forall_mem_cons.2 ⟨fun x => vPiece_apply x0 x3 0 (by decide) (by decide) (by decide) (by decide) x, ?_⟩
    exact List.forall_mem_nil _
  · rfl

/-- At a point that does not refill them, the key buffer holds what the point before left. -/
theorem sout_B_0_eq {F : FTy → Type} [FloatOps F] (c : Dev nD) (i : grid0.Coords) (arg2 : Memref sig .tc .vmem S1x2048x1152 .f32) (harg2 : arg2.IsWhole) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .bf16) (harg6 : arg6.IsWhole) (arg7 : Memref sig .tc .vmem S2048x144 .f32) (harg7 : arg7.IsWhole) (arg8 : Memref sig .tc .vmem S2048x144 .f32) (harg8 : arg8.IsWhole) (arg9 : Memref sig .tc .vmem S1x128x1152 .f32) (harg9 : arg9.IsWhole) (arg10 : Memref sig .tc .vmem S2048x1152 .bf16) (harg10 : arg10.IsWhole) (arg11 : Memref sig .tc .vmem S2048x1152 .bf16) (harg11 : arg11.IsWhole) (hc0 : ¬cond0_0 i) (x0 : Vec F S1x2048x1152 .f32) (x1 : Vec F S1152x1152 .bf16) (x2 : Vec F S1152x1152 .bf16) (x3 : Vec F S1152x1152 .bf16) (x4 : Vec F S1152x1152 .bf16) (x5 : Vec F S2048x144 .f32) (x6 : Vec F S2048x144 .f32) (xs0 xs1 : Vec F S2048x1152 .bf16) :
    sout0_B_0 c i arg2 harg2 arg3 harg3 arg4 harg4 arg5 harg5 arg6 harg6 arg7 harg7 arg8 harg8 arg9 harg9 arg10 harg10 arg11 harg11 hc0 x0 x1 x2 x3 x4 x5 x6 xs0 xs1 = xs0 := rfl

/-- At a point that does not refill them, the value buffer holds what the point before left. -/
theorem sout_B_1_eq {F : FTy → Type} [FloatOps F] (c : Dev nD) (i : grid0.Coords) (arg2 : Memref sig .tc .vmem S1x2048x1152 .f32) (harg2 : arg2.IsWhole) (arg3 : Memref sig .tc .vmem S1152x1152 .bf16) (harg3 : arg3.IsWhole) (arg4 : Memref sig .tc .vmem S1152x1152 .bf16) (harg4 : arg4.IsWhole) (arg5 : Memref sig .tc .vmem S1152x1152 .bf16) (harg5 : arg5.IsWhole) (arg6 : Memref sig .tc .vmem S1152x1152 .bf16) (harg6 : arg6.IsWhole) (arg7 : Memref sig .tc .vmem S2048x144 .f32) (harg7 : arg7.IsWhole) (arg8 : Memref sig .tc .vmem S2048x144 .f32) (harg8 : arg8.IsWhole) (arg9 : Memref sig .tc .vmem S1x128x1152 .f32) (harg9 : arg9.IsWhole) (arg10 : Memref sig .tc .vmem S2048x1152 .bf16) (harg10 : arg10.IsWhole) (arg11 : Memref sig .tc .vmem S2048x1152 .bf16) (harg11 : arg11.IsWhole) (hc0 : ¬cond0_0 i) (x0 : Vec F S1x2048x1152 .f32) (x1 : Vec F S1152x1152 .bf16) (x2 : Vec F S1152x1152 .bf16) (x3 : Vec F S1152x1152 .bf16) (x4 : Vec F S1152x1152 .bf16) (x5 : Vec F S2048x144 .f32) (x6 : Vec F S2048x144 .f32) (xs0 xs1 : Vec F S2048x1152 .bf16) :
    sout0_B_1 c i arg2 harg2 arg3 harg3 arg4 harg4 arg5 harg5 arg6 harg6 arg7 harg7 arg8 harg8 arg9 harg9 arg10 harg10 arg11 harg11 hc0 x0 x1 x2 x3 x4 x5 x6 xs0 xs1 = xs1 := rfl

end Cert.KernelIdeal.ScratchValue

end
-- ==== Proof.GridValue.lean ====
/-
  The kernel's result array as one function of the argument arrays.

  The grid has 64 points: point `t` serves batch `t / 16` and the 128-row tile `t % 16` of that batch.  At the first
  point of a batch the body projects the batch's 2048 rows onto the key and the value weights, applies the rotary
  embedding to the keys head by head, and leaves both in two buffers it carries to the batch's other fifteen points.
  So, by induction on the point, after every point the two buffers hold the rotated keys and the values of the
  point's batch (`scratch_inv`): a refilling point stores them, any other point stores nothing there and its batch is
  the batch of the point before.  From such buffers the body computes, for its tile, the specification's rows of the
  batch (`out_of_ok`: the tile's query projection rotated, the scores against every key row, the softmax weights, the
  weighted value rows divided by the weights' sum, the output projection head by head), which is what the point's
  write-back writes (`flushed_eq`).  The 64 blocks cover the array — entry `(b, q, e)` lies in the block of point
  `16·b + q / 128` — so the array ends at `G` (`final`), and the run ends with the result array at `G` and the
  arguments unchanged (`run`).
-/
import proofs.«400258_j82703890252416_3_alg».proof.Proof.VSpecA
import proofs.«400258_j82703890252416_3_alg».proof.Proof.SpecG
import proofs.«400258_j82703890252416_3_alg».proof.Proof.HeadValue
import proofs.«400258_j82703890252416_3_alg».proof.Proof.ScratchValue
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.GridValue

open Cert.KernelIdeal Cert.KernelIdeal.Gen Cert.KernelIdeal.VSpec Cert.KernelIdeal.HeadValue Cert.KernelIdeal.ScratchValue

variable (m : (ℓ : Loc nD τ sig) → Buf (Elt Ideal) ℓ) (ρ : Dev nD → PrngReg)

/-- The printed index maps over the 64 grid points: point `t` is batch `t / 16`, row tile `t % 16`. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 16 ∧ win0_7.index t (1 : Fin 3) = t.val % 16 ∧ win0_7.index t (2 : Fin 3) = 0
    ∧ ((grid0.coords t) 1).val = t.val % 16 :=
  (by decide +kernel : ∀ t : Fin grid0.N, _)

/-- The input blocks a point stages, by their literal types. -/
abbrev xblk (c : Dev nD) (t : Fin cfg0.N) : Vec Ideal S1x2048x1152 .f32 := iblk m c 0 t
abbrev wqblk (c : Dev nD) (t : Fin cfg0.N) : Vec Ideal S1152x1152 .bf16 := iblk m c 1 t
abbrev wkblk (c : Dev nD) (t : Fin cfg0.N) : Vec Ideal S1152x1152 .bf16 := iblk m c 2 t
abbrev wvblk (c : Dev nD) (t : Fin cfg0.N) : Vec Ideal S1152x1152 .bf16 := iblk m c 3 t
abbrev woblk (c : Dev nD) (t : Fin cfg0.N) : Vec Ideal S1152x1152 .bf16 := iblk m c 4 t
abbrev csblk (c : Dev nD) (t : Fin cfg0.N) : Vec Ideal S2048x144 .f32 := iblk m c 5 t
abbrev snblk (c : Dev nD) (t : Fin cfg0.N) : Vec Ideal S2048x144 .f32 := iblk m c 6 t

/-- The argument arrays of a device. -/
abbrev A0 (c : Dev nD) : Vec Ideal S4x2048x1152 .f32 := m ((c : Thread nD τ).loc main_arg0)
abbrev A1 (c : Dev nD) : Vec Ideal S2048x144 .f32 := m ((c : Thread nD τ).loc main_arg1)
abbrev A2 (c : Dev nD) : Vec Ideal S2048x144 .f32 := m ((c : Thread nD τ).loc main_arg2)
abbrev A3 (c : Dev nD) : Vec Ideal S1152x1152 .f32 := m ((c : Thread nD τ).loc main_arg3)
abbrev A4 (c : Dev nD) : Vec Ideal S1152x1152 .f32 := m ((c : Thread nD τ).loc main_arg4)
abbrev A5 (c : Dev nD) : Vec Ideal S1152x1152 .f32 := m ((c : Thread nD τ).loc main_arg5)
abbrev A6 (c : Dev nD) : Vec Ideal S1152x1152 .f32 := m ((c : Thread nD τ).loc main_arg6)

/-- The activations' block of point `t` is batch `t / 16` of the activations. -/
theorem xblk_apply (c : Dev nD) (t : Fin cfg0.N) (r : Fin 2048) (d : Fin 1152) :
    xblk m c t (ix3 (0 : Fin 1) r d) = A0 m c (ix3 ⟨t.val / 16, by have := t.isLt; have : cfg0.N = 64 := N_0; omega⟩ r d) := by
  obtain ⟨e0, e1, e2, -⟩ := idx_facts t
  unfold xblk iblk
  rw [View.read_apply]
  show V m c main_arg0 _ = _
  rw [V_main_arg0]
  congr 1
  funext a; apply Fin.ext
  match a with
  | ⟨0, _⟩ => show win0_0.index t (0 : Fin 3) * 1 + 1 * 0 = t.val / 16; omega
  | ⟨1, _⟩ => show win0_0.index t (1 : Fin 3) * 2048 + 1 * r.val = r.val; omega
  | ⟨2, _⟩ => show win0_0.index t (2 : Fin 3) * 1152 + 1 * d.val = d.val; omega

theorem V_wq (c : Dev nD) : (V m c main_v0 : S1152x1152.Idx → EReal) = fun i => A3 m c i := by
  have e : (V m c main_v0 : S1152x1152.Idx → EReal) = truncf (F := Ideal) .bf16 (m ((c : Thread nD τ).loc main_arg3)) bitsLt_bf16_f32 := by
    dsimp only [V, hostOps0]; after_results
  rw [e]; rfl

theorem wqblk_apply (c : Dev nD) (t : Fin cfg0.N) (r d : Fin 1152) :
    wqblk m c t (ix2 r d) = A3 m c (ix2 r d) := by
  have hf := idx_facts t
  unfold wqblk iblk
  rw [View.read_apply]
  show (V m c main_v0 : S1152x1152.Idx → EReal) _ = _
  rw [V_wq]
  show A3 m c _ = _
  congr 1
  funext a; apply Fin.ext
  match a with
  | ⟨0, _⟩ => show win0_1.index t (0 : Fin 2) * 1152 + 1 * r.val = r.val; omega
  | ⟨1, _⟩ => show win0_1.index t (1 : Fin 2) * 1152 + 1 * d.val = d.val; omega

theorem V_wk (c : Dev nD) : (V m c main_v1 : S1152x1152.Idx → EReal) = fun i => A4 m c i := by
  have e : (V m c main_v1 : S1152x1152.Idx → EReal) = truncf (F := Ideal) .bf16 (m ((c : Thread nD τ).loc main_arg4)) bitsLt_bf16_f32 := by
    dsimp only [V, hostOps0]; after_results
  rw [e]; rfl

theorem wkblk_apply (c : Dev nD) (t : Fin cfg0.N) (r d : Fin 1152) :
    wkblk m c t (ix2 r d) = A4 m c (ix2 r d) := by
  have hf := idx_facts t
  unfold wkblk iblk
  rw [View.read_apply]
  show (V m c main_v1 : S1152x1152.Idx → EReal) _ = _
  rw [V_wk]
  show A4 m c _ = _
  congr 1
  funext a; apply Fin.ext
  match a with
  | ⟨0, _⟩ => show win0_2.index t (0 : Fin 2) * 1152 + 1 * r.val = r.val; omega
  | ⟨1, _⟩ => show win0_2.index t (1 : Fin 2) * 1152 + 1 * d.val = d.val; omega

theorem V_wv (c : Dev nD) : (V m c main_v2 : S1152x1152.Idx → EReal) = fun i => A5 m c i := by
  have e : (V m c main_v2 : S1152x1152.Idx → EReal) = truncf (F := Ideal) .bf16 (m ((c : Thread nD τ).loc main_arg5)) bitsLt_bf16_f32 := by
    dsimp only [V, hostOps0]; after_results
  rw [e]; rfl

theorem wvblk_apply (c : Dev nD) (t : Fin cfg0.N) (r d : Fin 1152) :
    wvblk m c t (ix2 r d) = A5 m c (ix2 r d) := by
  have hf := idx_facts t
  unfold wvblk iblk
  rw [View.read_apply]
  show (V m c main_v2 : S1152x1152.Idx → EReal) _ = _
  rw [V_wv]
  show A5 m c _ = _
  congr 1
  funext a; apply Fin.ext
  match a with
  | ⟨0, _⟩ => show win0_3.index t (0 : Fin 2) * 1152 + 1 * r.val = r.val; omega
  | ⟨1, _⟩ => show win0_3.index t (1 : Fin 2) * 1152 + 1 * d.val = d.val; omega

theorem V_wo (c : Dev nD) : (V m c main_v3 : S1152x1152.Idx → EReal) = fun i => A6 m c i := by
  have e : (V m c main_v3 : S1152x1152.Idx → EReal) = truncf (F := Ideal) .bf16 (m ((c : Thread nD τ).loc main_arg6)) bitsLt_bf16_f32 := by
    dsimp only [V, hostOps0]; after_results
  rw [e]; rfl

theorem woblk_apply (c : Dev nD) (t : Fin cfg0.N) (r d : Fin 1152) :
    woblk m c t (ix2 r d) = A6 m c (ix2 r d) := by
  have hf := idx_facts t
  unfold woblk iblk
  rw [View.read_apply]
  show (V m c main_v3 : S1152x1152.Idx → EReal) _ = _
  rw [V_wo]
  show A6 m c _ = _
  congr 1
  funext a; apply Fin.ext
  match a with
  | ⟨0, _⟩ => show win0_4.index t (0 : Fin 2) * 1152 + 1 * r.val = r.val; omega
  | ⟨1, _⟩ => show win0_4.index t (1 : Fin 2) * 1152 + 1 * d.val = d.val; omega

theorem csblk_apply (c : Dev nD) (t : Fin cfg0.N) (r : Fin 2048) (j : Fin 144) :
    csblk m c t (ix2 r j) = A1 m c (ix2 r j) := by
  have hf := idx_facts t
  unfold csblk iblk
  rw [View.read_apply]
  show V m c main_arg1 _ = _
  rw [V_main_arg1]
  congr 1
  funext a; apply Fin.ext
  match a with
  | ⟨0, _⟩ => show win0_5.index t (0 : Fin 2) * 2048 + 1 * r.val = r.val; omega
  | ⟨1, _⟩ => show win0_5.index t (1 : Fin 2) * 144 + 1 * j.val = j.val; omega

theorem snblk_apply (c : Dev nD) (t : Fin cfg0.N) (r : Fin 2048) (j : Fin 144) :
    snblk m c t (ix2 r j) = A2 m c (ix2 r j) := by
  have hf := idx_facts t
  unfold snblk iblk
  rw [View.read_apply]
  show V m c main_arg2 _ = _
  rw [V_main_arg2]
  congr 1
  funext a; apply Fin.ext
  match a with
  | ⟨0, _⟩ => show win0_6.index t (0 : Fin 2) * 2048 + 1 * r.val = r.val; omega
  | ⟨1, _⟩ => show win0_6.index t (1 : Fin 2) * 144 + 1 * j.val = j.val; omega

/-- A batch's activations, the tables and the weights as matrices. -/
abbrev Xb (c : Dev nD) (b : Fin 4) : Cert.Spec.Mat 2048 1152 := fun r d => A0 m c (ix3 b r d)
abbrev Cs (c : Dev nD) : Cert.Spec.Mat 2048 144 := fun r j => A1 m c (ix2 r j)
abbrev Sn (c : Dev nD) : Cert.Spec.Mat 2048 144 := fun r j => A2 m c (ix2 r j)
abbrev Wq (c : Dev nD) : Cert.Spec.Mat 1152 1152 := fun r d => A3 m c (ix2 r d)
abbrev Wk (c : Dev nD) : Cert.Spec.Mat 1152 1152 := fun r d => A4 m c (ix2 r d)
abbrev Wv (c : Dev nD) : Cert.Spec.Mat 1152 1152 := fun r d => A5 m c (ix2 r d)
abbrev Wo (c : Dev nD) : Cert.Spec.Mat 1152 1152 := fun r d => A6 m c (ix2 r d)

/-- The batch of grid point `n`. -/
def bOf (n : ℕ) (hn : n < cfg0.N) : Fin 4 := ⟨n / 16, by have : cfg0.N = 64 := N_0; omega⟩

theorem bOf_succ (n : ℕ) (hn : n + 1 < cfg0.N) (h0 : ¬(n + 1) % 16 = 0) :
    bOf (n + 1) hn = bOf n (Nat.lt_of_succ_lt hn) := Fin.ext (by show (n + 1) / 16 = n / 16; omega)

/-- What the key buffer has to hold for batch `b`: the rotated key projection, row by row, head by head. -/
def KeyOk (c : Dev nD) (b : Fin 4) (xs0 : Vec Ideal S2048x1152 .bf16) : Prop :=
  ∀ (r : Fin 2048) (h : Fin 8) (j : Fin 144),
    xs0 (ix2 r (Cert.Spec.col h j)) = Cert.Spec.rope (Cert.Spec.proj (Xb m c b) (Wk m c)) (Cs m c) (Sn m c) r h j

/-- What the value buffer has to hold for batch `b`: the value projection. -/
def ValOk (c : Dev nD) (b : Fin 4) (xs1 : Vec Ideal S2048x1152 .bf16) : Prop :=
  ∀ (r : Fin 2048) (e : Fin 1152), xs1 (ix2 r e) = Cert.Spec.proj (Xb m c b) (Wv m c) r e

/-- A refilling point leaves the batch's rotated keys in the key buffer … -/
theorem key_A (c : Dev nD) (t : Fin cfg0.N) (h0 : t.val % 16 = 0) :
    KeyOk m c (bOf t.val t.isLt) (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (xblk m c t) (wqblk m c t) (wkblk m c t) (wvblk m c t) (woblk m c t) (csblk m c t) (snblk m c t)) := by
  intro r h j
  refine (sout_A_0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (xblk m c t) (wqblk m c t) (wkblk m c t) (wvblk m c t) (woblk m c t) (csblk m c t) (snblk m c t) r h j).trans ?_
  simp only [xblk_apply, wkblk_apply, csblk_apply, snblk_apply]
  rfl

/-- … and the batch's values in the value buffer. -/
theorem val_A (c : Dev nD) (t : Fin cfg0.N) (h0 : t.val % 16 = 0) :
    ValOk m c (bOf t.val t.isLt) (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (xblk m c t) (wqblk m c t) (wkblk m c t) (wvblk m c t) (woblk m c t) (csblk m c t) (snblk m c t)) := by
  intro r e
  refine (sout_A_1_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (xblk m c t) (wqblk m c t) (wkblk m c t) (wvblk m c t) (woblk m c t) (csblk m c t) (snblk m c t) r e).trans ?_
  simp only [xblk_apply, wvblk_apply]
  rfl

/-- After every point the two buffers hold the rotated keys and the values of the point's batch: a refilling point
    stores them, every other point leaves what the point before left, and the batch has not changed. -/
theorem scratch_inv (c : Dev nD) : ∀ (n : ℕ) (hn : n < cfg0.N),
    KeyOk m c (bOf n hn) (outsAt0 m c n hn).2.1 ∧ ValOk m c (bOf n hn) (outsAt0 m c n hn).2.2
  | 0, hn => by
    rw [outsAt0_A m c ⟨0, hn⟩ rfl]
    dsimp only
    exact ⟨key_A m c ⟨0, hn⟩ rfl, val_A m c ⟨0, hn⟩ rfl⟩
  | n + 1, hn => by
    by_cases h0 : (n + 1) % 16 = 0
    · rw [outsAt0_A m c ⟨n + 1, hn⟩ h0]
      dsimp only
      exact ⟨key_A m c ⟨n + 1, hn⟩ h0, val_A m c ⟨n + 1, hn⟩ h0⟩
    · have ih := scratch_inv c n (Nat.lt_of_succ_lt hn)
      rw [outsAt0_B m c ⟨n + 1, hn⟩ h0]
      dsimp only
      rw [sout_B_0_eq, sout_B_1_eq, bOf_succ n hn h0]
      exact ih

/-- From buffers holding the batch's rotated keys and values, the body's output block is the specification's rows
    `128·(t % 16) …` of the batch: the one-row function at the tile's rotated queries and the buffers' contents. -/
theorem out_of_ok (c : Dev nD) (t : Fin cfg0.N) (xs0 xs1 : Vec Ideal S2048x1152 .bf16)
    (hk : KeyOk m c (bOf t.val t.isLt) xs0) (hv : ValOk m c (bOf t.val t.isLt) xs1) (p : Fin 128) (e : Fin 1152) :
    outAt (grid0.coords t) (xblk m c t) (wqblk m c t) (woblk m c t) (csblk m c t) (snblk m c t) xs0 xs1 (ix3 (0 : Fin 1) p e)
      = Cert.Spec.outK (Xb m c (bOf t.val t.isLt)) (Cs m c) (Sn m c) (Wq m c) (Wk m c) (Wv m c) (Wo m c)
          ⟨128 * (t.val % 16) + p.val, by have := p.isLt; omega⟩ e := by
  obtain ⟨-, -, -, -, -, -, -, -, -, -, -, -, -, -, -, -, -, -, hlast⟩ := idx_facts t
  refine (outAt_apply (grid0.coords t) (xblk m c t) (wqblk m c t) (woblk m c t) (csblk m c t) (snblk m c t) xs0 xs1 p e).trans ?_
  rw [Cert.SpecG.outK_eq]
  have hk' : (fun k h j => xs0 (ix2 k (Cert.Spec.col h j)))
      = Cert.Spec.kr (Xb m c (bOf t.val t.isLt)) (Cs m c) (Sn m c) (Wk m c) :=
    funext fun k => funext fun h => funext fun j => hk k h j
  have hv' : (fun k h j => xs1 (ix2 k (Cert.Spec.col h j))) = Cert.Spec.vv (Xb m c (bOf t.val t.isLt)) (Wv m c) :=
    funext fun k => funext fun h => funext fun j => hv k (Cert.Spec.col h j)
  rw [hk', hv']
  simp only [xblk_apply, wqblk_apply, woblk_apply, csblk_apply, snblk_apply, hlast]
  rfl

/-- What the output's staging buffer holds after point `t`: rows `128·(t % 16) …` of batch `t / 16` of the result. -/
theorem out_inv (c : Dev nD) (t : Fin cfg0.N) (p : Fin 128) (e : Fin 1152) :
    (outsAt0 m c t.val t.isLt).1 (ix3 (0 : Fin 1) p e)
      = Cert.Spec.outK (Xb m c (bOf t.val t.isLt)) (Cs m c) (Sn m c) (Wq m c) (Wk m c) (Wv m c) (Wo m c)
          ⟨128 * (t.val % 16) + p.val, by have := p.isLt; omega⟩ e := by
  by_cases h0 : t.val % 16 = 0
  · rw [outsAt0_A m c t h0]
    dsimp only
    rw [out_A_eq]
    exact out_of_ok m c t _ _ (key_A m c t h0) (val_A m c t h0) p e
  · rw [outsAt0_B m c t h0]
    dsimp only
    rw [out_B_eq]
    have ih := scratch_inv m c (t.val - 1) (Nat.lt_of_le_of_lt (Nat.sub_le _ _) t.isLt)
    have hb : bOf (t.val - 1) (Nat.lt_of_le_of_lt (Nat.sub_le _ _) t.isLt) = bOf t.val t.isLt :=
      Fin.ext (by show (t.val - 1) / 16 = t.val / 16; omega)
    rw [hb] at ih
    exact out_of_ok m c t _ _ ih.1 ih.2 p e

/-- THE RESULT ARRAY as one function of the argument arrays: entry `(b, q, e)` is the specification's kernel-side
    entry `(q, e)` for batch `b`. -/
def Gfun (c : Dev nD) : Vec Ideal S4x2048x1152 .f32 := fun i =>
  Cert.Spec.outK (Xb m c (i 0)) (Cs m c) (Sn m c) (Wq m c) (Wk m c) (Wv m c) (Wo m c) (i 1) (i 2)

abbrev G (c : Dev nD) : Buf (Elt Ideal) ((c : Thread nD τ).loc main_v4) := Gfun m c

/-- What point `t` writes back is block `t` of `G`: rows `128·(t % 16) …` of batch `t / 16`. -/
theorem flushed_eq (c : Dev nD) (t : Fin cfg0.N) :
    (dats m 0 c).flushed 7 t = ((cfg0.win 7).blk t).view.read (Elt Ideal) (G m c) := by
  obtain ⟨-, -, -, -, -, -, -, -, -, -, -, -, -, -, -, e70, e71, e72, -⟩ := idx_facts t
  rw [Cert.KernelIdeal.Value.flushed7]
  funext y
  obtain ⟨z, p, e, rfl⟩ : ∃ (z : Fin 1) (p : Fin 128) (e : Fin 1152), y = ix3 z p e := ⟨y 0, y 1, y 2, eq_ix3 y⟩
  obtain rfl : z = 0 := Subsingleton.elim _ _
  show (outsAt0 m c t.val t.isLt).1 (ix3 (0 : Fin 1) p e) = Gfun m c (((cfg0.win 7).blk t).view.emb (ix3 (0 : Fin 1) p e))
  rw [out_inv]
  unfold Gfun
  have h0 : (((cfg0.win 7).blk t).view.emb (ix3 (0 : Fin 1) p e)) 0 = bOf t.val t.isLt :=
    Fin.ext (by show win0_7.index t (0 : Fin 3) * 1 + 1 * 0 = t.val / 16; omega)
  have h1 : (((cfg0.win 7).blk t).view.emb (ix3 (0 : Fin 1) p e)) 1
      = (⟨128 * (t.val % 16) + p.val, by have := p.isLt; omega⟩ : Fin 2048) :=
    Fin.ext (by show win0_7.index t (1 : Fin 3) * 128 + 1 * p.val = 128 * (t.val % 16) + p.val; omega)
  have h2 : (((cfg0.win 7).blk t).view.emb (ix3 (0 : Fin 1) p e)) 2 = e :=
    Fin.ext (by show win0_7.index t (2 : Fin 3) * 1152 + 1 * e.val = e.val; omega)
  rw [h0, h1, h2]

/-- An index of the array is in point `t`'s block iff each coordinate is in the block's range on its axis. -/
theorem mem_blk (t : Fin cfg0.N) (i : S4x2048x1152.Idx) :
    i ∈ ((cfg0.win 7).blk t).view.set ↔ ∀ a : Fin 3, win0_7.index t a * S1x128x1152.size a ≤ (i a).val
      ∧ (i a).val < win0_7.index t a * S1x128x1152.size a + S1x128x1152.size a := by
  show i ∈ ((View.whole main_v4).slice (win0_7.rect t)).set ↔ _
  rw [View.set_slice_whole, Rect.mem_set_unit]
  exact Iff.rfl

/-- Every index of the array is in the block of the point of its batch and row tile. -/
theorem cover (i : S4x2048x1152.Idx) :
    ∃ t : Fin cfg0.N, (cfg0.win 7).flush t = true ∧ i ∈ ((cfg0.win 7).blk t).view.set := by
  have hN : cfg0.N = 64 := N_0
  have hi0 : (i 0).val < 4 := (i 0).isLt
  have hi1 : (i 1).val < 2048 := (i 1).isLt
  have hi2 : (i 2).val < 1152 := (i 2).isLt
  have ht : 16 * (i 0).val + (i 1).val / 128 < cfg0.N := by omega
  obtain ⟨-, -, -, -, -, -, -, -, -, -, -, -, -, -, -, e70, e71, e72, -⟩ := idx_facts ⟨16 * (i 0).val + (i 1).val / 128, ht⟩
  refine ⟨⟨16 * (i 0).val + (i 1).val / 128, ht⟩, flush0_7 _, ?_⟩
  rw [mem_blk]
  intro a
  match a with
  | ⟨0, _⟩ =>
    show win0_7.index ⟨16 * (i 0).val + (i 1).val / 128, ht⟩ (0 : Fin 3) * 1 ≤ (i 0).val
      ∧ (i 0).val < win0_7.index ⟨16 * (i 0).val + (i 1).val / 128, ht⟩ (0 : Fin 3) * 1 + 1
    rw [e70]; dsimp only; omega
  | ⟨1, _⟩ =>
    show win0_7.index ⟨16 * (i 0).val + (i 1).val / 128, ht⟩ (1 : Fin 3) * 128 ≤ (i 1).val
      ∧ (i 1).val < win0_7.index ⟨16 * (i 0).val + (i 1).val / 128, ht⟩ (1 : Fin 3) * 128 + 128
    rw [e71]; dsimp only; omega
  | ⟨2, _⟩ =>
    show win0_7.index ⟨16 * (i 0).val + (i 1).val / 128, ht⟩ (2 : Fin 3) * 1152 ≤ (i 2).val
      ∧ (i 2).val < win0_7.index ⟨16 * (i 0).val + (i 1).val / 128, ht⟩ (2 : Fin 3) * 1152 + 1152
    rw [e72]; omega

/-- So the result array ends at `G`: every block is written back, and the blocks cover the array. -/
theorem final (c : Dev nD) : (dats m 0 c).arrAt 7 cfg0.N = G m c :=
  (dats m 0 c).arrAt_eq_of_cover 7 (G m c) (fun t _ => flushed_eq m c t) cover

/-- The kernel's run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.GridValue

end
-- ==== Proof.lean ====
/-
  The certificate of a fused rotary-attention kernel against its jnp reference, over the extended reals.

  Both programs compute, for each of 4 batches of 2048 rows of width 1152 = 8 heads × 144 lanes: the query, key and
  value projections `x · Wᵀ`; the rotary embedding of the queries and keys, head by head (`P·cos + rot(P)·sin`, `rot`
  the half-rotation with the upper half negated); the scores `q·k` times the scale literal; the softmax weights
  `exp (s − max s)` and their sum; the weighted sum of the value rows; and the output projection.  The kernel does it
  tile by tile on a 4 × 16 grid with the batch's keys and values kept in two carried buffers, divides the finished
  weighted sum by the weights' sum, and adds the eight heads' shares of the output projection in order onto zero; the
  reference divides each weight first and takes one 1152-term sum.
    * The three frame claims: the kernel's and the idealized kernel's are the generated frames; the reference's is its
      generated run with the result dropped.
    * `preserves`: the idealization rewrote nothing.
    * `algebraic`: the kernel's result array is one function `G` of the arguments (GridValue: the induction over the
      grid points on what the carried buffers hold, the body's value for a tile, the blocks' cover); the reference's
      result read entry by entry is the reference-side entry of the same specification (RefValue); and the two entries
      agree because finite inputs make every softmax denominator a positive real, over which dividing a sum is
      dividing its terms, while the order and grouping of the output projection's sum does not matter in an additive
      commutative monoid (Algebra).  Finiteness of every input entry is read off the precondition (Finite).
-/
import proofs.«400258_j82703890252416_3_alg».proof.Defs
import proofs.«400258_j82703890252416_3_alg».proof.Proof.Gen.Kernel
import proofs.«400258_j82703890252416_3_alg».proof.Proof.Gen.Kernel.Skeleton
import proofs.«400258_j82703890252416_3_alg».proof.Proof.Gen.Kernel.Launch
import proofs.«400258_j82703890252416_3_alg».proof.Proof.Gen.Kernel.Points
import proofs.«400258_j82703890252416_3_alg».proof.Proof.Gen.Kernel.Frame
import proofs.«400258_j82703890252416_3_alg».proof.Proof.Gen.KernelIdeal
import proofs.«400258_j82703890252416_3_alg».proof.Proof.Gen.KernelIdeal.Skeleton
import proofs.«400258_j82703890252416_3_alg».proof.Proof.Gen.KernelIdeal.Launch
import proofs.«400258_j82703890252416_3_alg».proof.Proof.Gen.KernelIdeal.Points
import proofs.«400258_j82703890252416_3_alg».proof.Proof.Gen.KernelIdeal.Frame
import proofs.«400258_j82703890252416_3_alg».proof.Proof.Gen.KernelIdeal.Value
import proofs.«400258_j82703890252416_3_alg».proof.Proof.Gen.ReferenceIdeal
import proofs.«400258_j82703890252416_3_alg».proof.Proof.Gen.ReferenceIdeal.Run
import proofs.«400258_j82703890252416_3_alg».proof.Proof.Gen.ReferenceIdeal.Read
import proofs.«400258_j82703890252416_3_alg».proof.Proof.Gen.Pre_finite_inputs
import proofs.«400258_j82703890252416_3_alg».proof.Proof.RefValue
import proofs.«400258_j82703890252416_3_alg».proof.Proof.Algebra
import proofs.«400258_j82703890252416_3_alg».proof.Proof.Finite
import proofs.«400258_j82703890252416_3_alg».proof.Proof.GridValue
import Idealize.ShloMosaic.Adequacy
import Idealize.ShloMosaic.Init

noncomputable section

namespace Cert.Proof

open Idealize.ShloMosaic Idealize.SL.Sem Idealize.ShloMosaic.ValueIdx

/-- The word-level kernel's frame and the idealized kernel's frame are the generated ones. -/
theorem frame_k : Cert.frame_Kernel := fun m ρ _ => Cert.Kernel.Gen.frame m ρ
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at one array.  The kernel's result array is `G` of its arguments (the grid-point induction and
    the blocks' cover); the reference's result, entry by entry, is the specification's reference-side entry
    (`result_apply`); the two entries are equal because the inputs are finite, so every softmax denominator is a
    positive real and dividing the weighted sum once is dividing each weight (`outK_eq_outR`). -/
theorem algebraic : Cert.algebraic_KernelIdeal_ReferenceIdeal := by
  intro m ρ m' ρ' hpre hagree
  refine ⟨fun c => Cert.KernelIdeal.GridValue.G m c, Cert.KernelIdeal.GridValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨h0, h1, h2, h3, h4, h5, h6⟩ := Cert.Finite.isR_of_pre _ _ _ _ _ _ _ (hpre c)
  rw [Cert.ReferenceIdeal.Read.val_main_v52_eq, a0, a1, a2, a3, a4, a5, a6]
  funext i
  obtain ⟨b, q, e, rfl⟩ : ∃ (b : Fin 4) (q : Fin 2048) (e : Fin 1152), i = ix3 b q e := ⟨i 0, i 1, i 2, eq_ix3 i⟩
  rw [Cert.ReferenceIdeal.RefValue.result_apply]
  exact (Cert.Algebra.outK_eq_outR _ _ _ _ _ _ _ (fun t d => h0 _) (fun t j => h1 _) (fun t j => h2 _)
    (fun r d => h3 _) (fun r d => h4 _) (fun r d => h5 _) q e).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
